-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S2000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S5000x128 : Shape := ⟨2, ![5000, 128]⟩
abbrev S64x128 : Shape := ⟨2, ![64, 128]⟩
abbrev S1x64 : Shape := ⟨2, ![1, 64]⟩
abbrev S2000x1 : Shape := ⟨2, ![2000, 1]⟩
abbrev S2000x64 : Shape := ⟨2, ![2000, 64]⟩
abbrev S64 : Shape := ⟨1, ![64]⟩
abbrev S64x1 : Shape := ⟨2, ![64, 1]⟩

abbrev nBuf : Space → Nat
  | .hbm => 128
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S1x128, .f32⟩
  | .hbm, ⟨96, _⟩ => ⟨S1x128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S1x128, .f32⟩
  | .hbm, ⟨116, _⟩ => ⟨S50000x128, .f32⟩
  | .hbm, ⟨117, _⟩ => ⟨S50000x1, .i32⟩
  | .hbm, ⟨118, _⟩ => ⟨S64x128, .f32⟩
  | .hbm, ⟨119, _⟩ => ⟨S1x64, .f32⟩
  | .hbm, ⟨120, _⟩ => ⟨S64, .f32⟩
  | .hbm, ⟨121, _⟩ => ⟨S_, .f32⟩
  | .hbm, ⟨122, _⟩ => ⟨S_, .f32⟩
  | .hbm, ⟨123, _⟩ => ⟨S64, .f32⟩
  | .hbm, ⟨124, _⟩ => ⟨S64, .f32⟩
  | .hbm, ⟨125, _⟩ => ⟨S64x1, .f32⟩
  | .hbm, ⟨126, _⟩ => ⟨S64x128, .f32⟩
  | .hbm, ⟨127, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .i32⟩
  | .local _ .vmem, ⟨37, _⟩ => ⟨S2000x1, .i32⟩
  | .local _ .vmem, ⟨38, _⟩ => ⟨S64x128, .f32⟩
  | .local _ .vmem, ⟨39, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60_0 : Ref sig .tc := ⟨.hbm, 94, rfl⟩
abbrev main_v60_1 : Ref sig .tc := ⟨.hbm, 95, rfl⟩
abbrev main_v60_2 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79_0 : Ref sig .tc := ⟨.hbm, 118, rfl⟩
abbrev main_v79_1 : Ref sig .tc := ⟨.hbm, 119, rfl⟩
abbrev main_v80 : Ref sig .tc := ⟨.hbm, 120, rfl⟩
abbrev main_cst_16 : Ref sig .tc := ⟨.hbm, 121, rfl⟩
abbrev main_call2_v0 : Ref sig .tc := ⟨.hbm, 122, rfl⟩
abbrev main_call2_v1 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  shapeCasts_S64x128_S64x128 : S64x128.ShapeCasts S64x128
  shapeCasts_S1x64_S1x64 : S1x64.ShapeCasts S1x64
  reduces_S2000x64_S64 : S2000x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79_0) S64x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S800000, .f32⟩
  | 97 => ⟨S_, .f32⟩
  | 98 => ⟨S50000, .f32⟩
  | 99 => ⟨S800000x1, .i32⟩
  | 100 => ⟨S50000, .f32⟩
  | 101 => ⟨S_, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S64x128, .f32⟩
  | 21 => ⟨S50000x1, .i32⟩
  | 22 => ⟨S64x128, .f32⟩
  | 23 => ⟨S_, .f32⟩
  | 24 => ⟨S50000, .f32⟩
  | 25 => ⟨S_, .f32⟩
  | 26 => ⟨S64, .f32⟩
  | 27 => ⟨S50000x1, .i32⟩
  | 28 => ⟨S64, .f32⟩
  | 29 => ⟨S_, .f32⟩
  | 30 => ⟨S_, .f32⟩
  | 31 => ⟨S64, .f32⟩
  | 32 => ⟨S64, .f32⟩
  | 33 => ⟨S64x1, .f32⟩
  | 34 => ⟨S64x128, .f32⟩
  | 35 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call3_cst : Ref sig .tc := ⟨.hbm, 144, rfl⟩
abbrev main_call3_v0 : Ref sig .tc := ⟨.hbm, 145, rfl⟩
abbrev main_v103 : Ref sig .tc := ⟨.hbm, 146, rfl⟩
abbrev main_cst_20 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_cst_22 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.RefImports.lean ====
/- The reference's generated run and its read-at-an-index lemmas, gathered for the modules that use them. -/
import proofs.«402130_j5162550689834_1_alg».proof.Proof.Gen.ReferenceIdeal.Run
import proofs.«402130_j5162550689834_1_alg».proof.Proof.Gen.ReferenceIdeal.Read
-- ==== Proof.Spec.lean ====
/-
  The mathematics of the two programs, as functions of plain arrays over the extended reals.

  A graph network of two layers over 50000 nodes with 128 features, then a mean pool over 64 graphs.
  One layer, from a node array `X` and its neighbour average `A`:
    z      = A · W_l + b + X · W_r                          (`lin`)
    h      = relu (batch-norm of z over the 50000 nodes)    (two spellings, below)
  The kernel's spelling of the batch norm takes the column sums S = ∑ z and SS = ∑ z², sets
    mean = S / n,  var = SS / n − mean²,  scale = g · rsqrt (var + ε),  shift = β − mean · scale,
  and applies h = max (z · scale + shift) 0 (`layerK`). The reference's spelling takes
    mean = (∑ z) / n,  var = (∑ (z − mean)²) / n,  h = max ((z − mean) · rsqrt (var + ε) · g + β) 0 (`bnReluR`).
  The two agree when every entry is a real number (the variance of real numbers is the mean square
  minus the squared mean, and scaling distributes over the difference).
  The pool sums, per graph b and feature f, the rows whose graph id is b, and divides by max 1 (their number).
-/
import Idealize.ShloMosaic.PureOps.Ideal
import Idealize.ShloMosaic.Lib.ValueIdx

noncomputable section

open scoped BigOperators

namespace Cert.Spec

open Idealize.ShloMosaic Idealize.ShloMosaic.ValueIdx

/-- nodes × features -/
abbrev NF : Shape := ⟨2, ![50000, 128]⟩
/-- a weight matrix -/
abbrev FF : Shape := ⟨2, ![128, 128]⟩
/-- one row of features -/
abbrev R1F : Shape := ⟨2, ![1, 128]⟩
/-- a feature vector -/
abbrev V128 : Shape := ⟨1, ![128]⟩
/-- the graph id of each node, as a column -/
abbrev N1 : Shape := ⟨2, ![50000, 1]⟩
/-- graphs × features -/
abbrev BF : Shape := ⟨2, ![64, 128]⟩
/-- one row of per-graph counts -/
abbrev R1B : Shape := ⟨2, ![1, 64]⟩

/-- the number of nodes, 50000, as the programs spell it -/
def nNodes : EReal := Ideal.ofBits .f32 0x47435000#32
/-- the batch norm's ε, as the programs spell it -/
def eps : EReal := Ideal.ofBits .f32 0x3727C5AC#32
/-- the literal 1.0 -/
def one : EReal := Ideal.ofBits .f32 0x3F800000#32

/-- `z = A · W_l + b + X · W_r` at node `i 0`, feature `i 1`. -/
def lin (A X : NF.Idx → EReal) (WL : FF.Idx → EReal) (B : R1F.Idx → EReal) (WR : FF.Idx → EReal) : NF.Idx → EReal := fun i =>
  (∑ k : Fin 128, A (ix2 (i 0) k) * WL (ix2 k (i 1))) + B (ix2 0 (i 1)) + ∑ k : Fin 128, X (ix2 (i 0) k) * WR (ix2 k (i 1))

/-- the sum of a feature's column over all nodes, kept as a row -/
def colsum (Z : NF.Idx → EReal) : R1F.Idx → EReal := fun j => ∑ r : Fin 50000, Z (ix2 r (j 1))
/-- the sum of squares of a feature's column over all nodes, kept as a row -/
def colsumsq (Z : NF.Idx → EReal) : R1F.Idx → EReal := fun j => ∑ r : Fin 50000, Z (ix2 r (j 1)) * Z (ix2 r (j 1))

/-- the kernel's scale: `g · rsqrt (SS / n − (S / n)² + ε)` -/
def scaleK (S SS : R1F.Idx → EReal) (G : V128.Idx → EReal) : R1F.Idx → EReal := fun j =>
  G (ix1 (j 1)) * Ideal.rsqrt (Ideal.div (SS j) nNodes - Ideal.div (S j) nNodes * Ideal.div (S j) nNodes + eps)
/-- the kernel's shift: `β − (S / n) · scale` -/
def shiftK (S SS : R1F.Idx → EReal) (G BE : V128.Idx → EReal) : R1F.Idx → EReal := fun j =>
  BE (ix1 (j 1)) - Ideal.div (S j) nNodes * scaleK S SS G j
/-- `max (z · scale + shift) 0` -/
def normRelu (Z : NF.Idx → EReal) (SC SH : R1F.Idx → EReal) : NF.Idx → EReal := fun i =>
  max (Z i * SC (ix2 0 (i 1)) + SH (ix2 0 (i 1))) 0

/-- the kernel's batch norm and relu of `Z` -/
def bnReluK (Z : NF.Idx → EReal) (G BE : V128.Idx → EReal) : NF.Idx → EReal :=
  normRelu Z (scaleK (colsum Z) (colsumsq Z) G) (shiftK (colsum Z) (colsumsq Z) G BE)

/-- the reference's mean of a feature -/
def meanR (Z : NF.Idx → EReal) : V128.Idx → EReal := fun c => Ideal.div (∑ r : Fin 50000, Z (ix2 r (c 0))) nNodes
/-- the reference's (biased) variance of a feature -/
def varR (Z : NF.Idx → EReal) : V128.Idx → EReal := fun c =>
  Ideal.div (∑ r : Fin 50000, (Z (ix2 r (c 0)) - meanR Z c) * (Z (ix2 r (c 0)) - meanR Z c)) nNodes
/-- the reference's batch norm and relu of `Z` -/
def bnReluR (Z : NF.Idx → EReal) (G BE : V128.Idx → EReal) : NF.Idx → EReal := fun i =>
  max ((Z i - meanR Z (ix1 (i 1))) * Ideal.rsqrt (varR Z (ix1 (i 1)) + eps) * G (ix1 (i 1)) + BE (ix1 (i 1))) 0

/-- 1 where node `r` belongs to graph `b`, else 0 -/
def onehot (BT : N1.Idx → BitVec 32) (r : Fin 50000) (b : Fin 64) : EReal :=
  if BT (ix2 r 0) = BitVec.ofNat 32 b.val then 1 else 0
/-- the sum of the rows of graph `j 0`, at feature `j 1` -/
def pooled (H : NF.Idx → EReal) (BT : N1.Idx → BitVec 32) : BF.Idx → EReal := fun j =>
  ∑ r : Fin 50000, onehot BT r (j 0) * H (ix2 r (j 1))
/-- the number of nodes of graph `j 1`, kept as a row -/
def count (BT : N1.Idx → BitVec 32) : R1B.Idx → EReal := fun j => ∑ r : Fin 50000, onehot BT r (j 1)
/-- the mean pool: the graph's sum over max 1 (its count) -/
def meanPool (P : BF.Idx → EReal) (CNT : R1B.Idx → EReal) : BF.Idx → EReal := fun j =>
  Ideal.div (P j) (max one (CNT (ix2 0 (j 0))))

/-- the node ids -/
abbrev VN : Shape := ⟨1, ![50000]⟩

/-- a feature vector as a one-row matrix -/
def row (b : V128.Idx → EReal) : R1F.Idx → EReal := fun j => b (ix1 (j 1))
/-- the graph ids as a column -/
def col (b : VN.Idx → BitVec 32) : N1.Idx → BitVec 32 := fun j => b (ix1 (j 0))

/-- every entry is a real number -/
def AllReal {ι : Type} (f : ι → EReal) : Prop := ∀ i, ∃ r : ℝ, f i = (r : EReal)

end Cert.Spec

end
-- ==== Proof.KAgg.lean ====
/-
  The neighbour average both programs compute on the host, as one function of a node array and the edge list:
  gather the rows of `X` at the edges' sources (a negative source wraps by 50000; the gather clamps),
  add them up per destination (a destination outside 0 … 49999 contributes nothing), and divide each
  node's sum by max 1 (its number of incoming edges).
-/
import proofs.«402130_j5162550689834_1_alg».proof.Proof.Gen.KernelIdeal
import Idealize.ShloMosaic.PureOps.Ideal

noncomputable section

namespace Cert.KernelIdeal

open Idealize.ShloMosaic Cert.KernelIdeal.Gen

/-- the edges' sources, a negative one wrapped by the number of nodes -/
def aggSrc (EI : IVec S2x800000 32) : IVec S800000 32 :=
  select (cmpi .slt (shapeCast S800000 (extractStridedSlice S1x800000 ![0, 0] EI slices_S2x800000_S1x800000_0_0) shapeCasts_S1x800000_S800000)
      (broadcastInDim S800000 ![] bcast_S_S800000 (constantI S_ 32 0#32)))
    (addi (shapeCast S800000 (extractStridedSlice S1x800000 ![0, 0] EI slices_S2x800000_S1x800000_0_0) shapeCasts_S1x800000_S800000)
      (broadcastInDim S800000 ![] bcast_S_S800000 (constantI S_ 32 50000#32)))
    (shapeCast S800000 (extractStridedSlice S1x800000 ![0, 0] EI slices_S2x800000_S1x800000_0_0) shapeCasts_S1x800000_S800000)

/-- the edges' destinations, as a column -/
def aggDst (EI : IVec S2x800000 32) : IVec S800000x1 32 :=
  broadcastInDim S800000x1 ![0] bcast_S800000_S800000x1_0
    (shapeCast S800000 (extractStridedSlice S1x800000 ![1, 0] EI slices_S2x800000_S1x800000_1_0) shapeCasts_S1x800000_S800000)

/-- per node, the sum of its incoming edges' source rows -/
def aggSum (X : FVec Ideal S50000x128 .f32) (EI : IVec S2x800000 32) : FVec Ideal S50000x128 .f32 :=
  Host.scatterAdd scatter_S50000x128_S800000x1_S800000x128_1_0_0_1
    (broadcastInDim S50000x128 ![] bcast_S_S50000x128 (constant S_ .f32 0x00000000#32)) (aggDst EI)
    (Host.gather gather_S50000x128_S800000x1_S800000x128_1_0_n_n_0_1_1128 X
      (broadcastInDim S800000x1 ![0] bcast_S800000_S800000x1_0 (aggSrc EI)))

/-- per node, max 1 (its number of incoming edges) -/
def aggDeg (EI : IVec S2x800000 32) : FVec Ideal S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32)) (aggDst EI)
      (broadcastInDim S800000 ![] bcast_S_S800000 (constant S_ .f32 0x3F800000#32)))

/-- the neighbour average -/
def aggT (X : FVec Ideal S50000x128 .f32) (EI : IVec S2x800000 32) : FVec Ideal S50000x128 .f32 :=
  Host.divf (aggSum X EI)
    (broadcastInDim S50000x128 ![0, 1] bcast_S50000x1_S50000x128_0_1
      (broadcastInDim S50000x1 ![0] bcast_S50000_S50000x1_0 (aggDeg EI)))

end Cert.KernelIdeal

end
-- ==== Proof.Net.lean ====
/-
  The whole network as one function of the thirteen arguments, in the kernel's spelling of the batch norm
  (`outK`) and in the reference's (`outR`): two layers (neighbour average, linear map, batch norm, relu), then
  the mean pool over the graphs.
-/
import proofs.«402130_j5162550689834_1_alg».proof.Proof.Spec
import proofs.«402130_j5162550689834_1_alg».proof.Proof.KAgg

noncomputable section

namespace Cert.Net

open Idealize.ShloMosaic Cert.KernelIdeal

variable (x : FVec Ideal S50000x128 .f32) (ei : IVec S2x800000 32) (bt : IVec S50000 32)
  (wl1 : FVec Ideal S128x128 .f32) (b1 : FVec Ideal S128 .f32) (wr1 : FVec Ideal S128x128 .f32) (g1 be1 : FVec Ideal S128 .f32)
  (wl2 : FVec Ideal S128x128 .f32) (b2 : FVec Ideal S128 .f32) (wr2 : FVec Ideal S128x128 .f32) (g2 be2 : FVec Ideal S128 .f32)

/-- a layer's linear map of a node array -/
def z (X : FVec Ideal S50000x128 .f32) (wl : FVec Ideal S128x128 .f32) (b : FVec Ideal S128 .f32) (wr : FVec Ideal S128x128 .f32) :
    FVec Ideal S50000x128 .f32 := Spec.lin (aggT X ei) X wl (Spec.row b) wr

/-- layer 1, kernel's spelling -/
def h1K : FVec Ideal S50000x128 .f32 := Spec.bnReluK (z ei x wl1 b1 wr1) g1 be1
/-- layer 2, kernel's spelling -/
def h2K : FVec Ideal S50000x128 .f32 := Spec.bnReluK (z ei (h1K x ei wl1 b1 wr1 g1 be1) wl2 b2 wr2) g2 be2
/-- the result, kernel's spelling -/
def outK : FVec Ideal S64x128 .f32 :=
  Spec.meanPool (Spec.pooled (h2K x ei wl1 b1 wr1 g1 be1 wl2 b2 wr2 g2 be2) (Spec.col bt)) (Spec.count (Spec.col bt))

/-- layer 1, reference's spelling -/
def h1R : FVec Ideal S50000x128 .f32 := Spec.bnReluR (z ei x wl1 b1 wr1) g1 be1
/-- layer 2, reference's spelling -/
def h2R : FVec Ideal S50000x128 .f32 := Spec.bnReluR (z ei (h1R x ei wl1 b1 wr1 g1 be1) wl2 b2 wr2) g2 be2
/-- the result, reference's spelling -/
def outR : FVec Ideal S64x128 .f32 :=
  Spec.meanPool (Spec.pooled (h2R x ei wl1 b1 wr1 g1 be1 wl2 b2 wr2 g2 be2) (Spec.col bt)) (Spec.count (Spec.col bt))

end Cert.Net

end
-- ==== Proof.KVals.lean ====
import proofs.«402130_j5162550689834_1_alg».proof.Proof.Gen.KernelIdeal.Frame
import proofs.«402130_j5162550689834_1_alg».proof.Proof.Spec
import proofs.«402130_j5162550689834_1_alg».proof.Proof.KAgg
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

/-- buffer contents at a region's entry, at the ideal instance -/
abbrev Vals := (c : Dev nD) → (b : Ref sig .tc) → Buf (Elt Ideal) ((c : Thread nD τ).loc b)

end Cert.KernelIdeal.KV

end
-- ==== Proof.HostK.lean ====
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

-- telling two of the program's 168 references apart is decided along their enumeration
set_option maxRecDepth 16384

namespace hostk

/-! ## A buffer no operation of a stretch writes -/

/-- A buffer that no operation of a stretch of host operations writes holds after the stretch what it held before:
    each operation writes its one result buffer, and that is another reference. -/
macro "hostk_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The first layer's host operations, from any contents `X` of the buffers

What each stretch leaves in the buffers read later, as the operations' composed term over what `X` holds at the
buffers the stretch reads. -/

section Layer1

variable (X : Valuation τ sig (Elt Ideal))

/-- The sources' row of the edge list, as a vector. -/
theorem ops0_v1 : @Eq (IVec S800000 32) (StableHlo.after hostOps0 X (Proc.devRef .tc main_v1))
    (shapeCast S800000 (extractStridedSlice S1x800000 ![0, 0] (X (Proc.devRef .tc main_arg1)) slices_S2x800000_S1x800000_0_0)
      shapeCasts_S1x800000_S800000) := by
  after_results <;> rfl

/-- The destinations' row of the edge list, as a vector. -/
theorem ops0_v3 : @Eq (IVec S800000 32) (StableHlo.after hostOps0 X (Proc.devRef .tc main_v3))
    (shapeCast S800000 (extractStridedSlice S1x800000 ![1, 0] (X (Proc.devRef .tc main_arg1)) slices_S2x800000_S1x800000_1_0)
      shapeCasts_S1x800000_S800000) := by
  after_results <;> rfl

-- the rows gathered at the sources are read through eleven earlier results, each peeled from under the later operations
set_option maxHeartbeats 800000 in
/-- The gather of the sources' rows scattered onto the destinations is `aggSum`. -/
theorem ops0_v13 : @Eq (FVec Ideal S50000x128 .f32) (StableHlo.after hostOps0 X (Proc.devRef .tc main_v13))
    (aggSum (X (Proc.devRef .tc main_arg0)) (X (Proc.devRef .tc main_arg1))) := by
  after_results
  unfold aggSum aggDst aggSrc
  rfl

/-- The number of incoming edges of each node, before the clip at 1. -/
theorem ops0_v17 : @Eq (FVec Ideal S50000 .f32) (StableHlo.after hostOps0 X (Proc.devRef .tc main_v17))
    (Host.scatterAdd scatter_S50000_S800000x1_S800000_n_0_0_1
      (broadcastInDim S50000 ![] bcast_S_S50000 (constant S_ .f32 0x00000000#32)) (aggDst (X (Proc.devRef .tc main_arg1)))
      (broadcastInDim S800000 ![] bcast_S_S800000 (constant S_ .f32 0x3F800000#32))) := by
  after_results
  unfold aggDst
  rfl

/-- The literal 1.0 the clip takes. -/
theorem ops0_cst3 : @Eq (FVec Ideal S_ .f32) (StableHlo.after hostOps0 X (Proc.devRef .tc main_cst_3))
    (constant S_ .f32 0x3F800000#32) := by
  after_results <;> rfl

/-- The clip: max (1.0 everywhere) (the count). -/
theorem ops0_1_v18 : @Eq (FVec Ideal S50000 .f32) (StableHlo.after hostOps0_1 X (Proc.devRef .tc main_v18))
    (maximumf (broadcastInDim S50000 ![] bcast_S_S50000 (id (X (Proc.devRef .tc main_cst_3) : FVec Ideal S_ .f32)))
      (X (Proc.devRef .tc main_v17) : FVec Ideal S50000 .f32)) := by
  after_results <;> rfl

/-- The sums divided by the clipped counts, broadcast along the features. -/
theorem ops0_2_v21 : @Eq (FVec Ideal S50000x128 .f32) (StableHlo.after hostOps0_2 X (Proc.devRef .tc main_v21))
    (Host.divf (X (Proc.devRef .tc main_v13) : FVec Ideal S50000x128 .f32)
      (broadcastInDim S50000x128 ![0, 1] bcast_S50000x1_S50000x128_0_1
        (broadcastInDim S50000x1 ![0] bcast_S50000_S50000x1_0 (X (Proc.devRef .tc main_v18) : FVec Ideal S50000 .f32)))) := by
  after_results <;> rfl

/-- The bias as a one-row matrix. -/
theorem ops0_2_v22 : @Eq (FVec Ideal S1x128 .f32) (StableHlo.after hostOps0_2 X (Proc.devRef .tc main_v22))
    (shapeCast S1x128 (X (Proc.devRef .tc main_arg4) : FVec Ideal S128 .f32) shapeCasts_S128_S1x128) := by
  after_results <;> rfl

end Layer1

/-! ## The first layer's buffers at the boundaries, from the launch memory -/

theorem W1_v1 (c : Dev nD) : W1 m ρ c (Proc.devRef .tc main_v1)
    = shapeCast S800000 (extractStridedSlice S1x800000 ![0, 0] (m ((c : Thread nD τ).loc main_arg1)) slices_S2x800000_S1x800000_0_0)
        shapeCasts_S1x800000_S800000 := ops0_v1 _
theorem W1_v3 (c : Dev nD) : W1 m ρ c (Proc.devRef .tc main_v3)
    = shapeCast S800000 (extractStridedSlice S1x800000 ![1, 0] (m ((c : Thread nD τ).loc main_arg1)) slices_S2x800000_S1x800000_1_0)
        shapeCasts_S1x800000_S800000 := ops0_v3 _
theorem W1_v13 (c : Dev nD) : W1 m ρ c (Proc.devRef .tc main_v13)
    = aggSum (m ((c : Thread nD τ).loc main_arg0)) (m ((c : Thread nD τ).loc main_arg1)) := ops0_v13 _
theorem W1_v17 (c : Dev nD) : W1 m ρ c (Proc.devRef .tc main_v17)
    = Host.scatterAdd scatter_S50000_S800000x1_S800000_n_0_0_1
        (broadcastInDim S50000 ![] bcast_S_S50000 (constant (F := Ideal) S_ .f32 0x00000000#32)) (aggDst (m ((c : Thread nD τ).loc main_arg1)))
        (broadcastInDim S800000 ![] bcast_S_S800000 (constant (F := Ideal) S_ .f32 0x3F800000#32)) := ops0_v17 _
theorem W1_cst3 (c : Dev nD) : W1 m ρ c (Proc.devRef .tc main_cst_3) = constant (F := Ideal) S_ .f32 0x3F800000#32 :=
  ops0_cst3 _

theorem W2_v13 (c : Dev nD) : W2 m ρ c (Proc.devRef .tc main_v13)
    = aggSum (m ((c : Thread nD τ).loc main_arg0)) (m ((c : Thread nD τ).loc main_arg1)) :=
  (by hostk_keeps hostOps0_1 : W2 m ρ c (Proc.devRef .tc main_v13) = W1 m ρ c (Proc.devRef .tc main_v13)).trans (W1_v13 m ρ c)

theorem W2_v18 (c : Dev nD) : W2 m ρ c (Proc.devRef .tc main_v18) = aggDeg (m ((c : Thread nD τ).loc main_arg1)) :=
  (ops0_1_v18 (W1 m ρ c)).trans (by rw [W1_cst3, W1_v17]; rfl)

/-- An argument of the program at region 0's entry is what the launch memory holds. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by hostk_keeps hostOps0_2
    _ = W1 m ρ c (Proc.devRef .tc main_arg0) := by hostk_keeps hostOps0_1
    _ = W0 m ρ c (Proc.devRef .tc main_arg0) := by hostk_keeps hostOps0
    _ = m ((c : Thread nD τ).loc main_arg0) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by hostk_keeps hostOps0_2
    _ = W1 m ρ c (Proc.devRef .tc main_arg3) := by hostk_keeps hostOps0_1
    _ = W0 m ρ c (Proc.devRef .tc main_arg3) := by hostk_keeps hostOps0
    _ = m ((c : Thread nD τ).loc main_arg3) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by hostk_keeps hostOps0_1
    _ = W0 m ρ c (Proc.devRef .tc main_arg4) := by hostk_keeps hostOps0
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by hostk_keeps hostOps0_2
    _ = W1 m ρ c (Proc.devRef .tc main_arg5) := by hostk_keeps hostOps0_1
    _ = W0 m ρ c (Proc.devRef .tc main_arg5) := by hostk_keeps hostOps0
    _ = m ((c : Thread nD τ).loc main_arg5) := rfl

/-- A one-row matrix cast from a vector reads the vector at the column. -/
theorem row_eq (b : FVec Ideal S128 .f32) : shapeCast S1x128 b shapeCasts_S128_S1x128 = Spec.row b := by
  funext j
  obtain ⟨u, i, rfl⟩ : ∃ u i, j = ix2 u i := ⟨_, _, eq_ix2 j⟩
  exact shapeCast_a_1a_apply b _ u i

/-! ## The second layer's host operations, from any contents `X` of the buffers

The same neighbour average, over the first layer's output; the two rows of the edge list are read where the first
layer's operations left them. -/

section Layer2

variable (X : Valuation τ sig (Elt Ideal))

-- the rows gathered at the sources are read through eight earlier results, each peeled from under the later operations
set_option maxHeartbeats 800000 in
/-- The gather of the sources' rows scattered onto the destinations, over the rows' vectors as `X` holds them. -/
theorem ops2_v50 : @Eq (FVec Ideal S50000x128 .f32) (StableHlo.after hostOps2 X (Proc.devRef .tc main_v50))
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (X (Proc.devRef .tc main_v3) : IVec S800000 32))
      (Host.gather gather_S50000x128_S800000x1_S800000x128_1_0_n_n_0_1_1128 (X (Proc.devRef .tc main_v40) : FVec Ideal S50000x128 .f32)
        (broadcastInDim S800000x1 ![0] bcast_S800000_S800000x1_0
          (select (cmpi .slt (X (Proc.devRef .tc main_v1) : IVec S800000 32)
              (broadcastInDim S800000 ![] bcast_S_S800000 (constantI S_ 32 0#32)))
            (addi (X (Proc.devRef .tc main_v1) : IVec S800000 32)
              (broadcastInDim S800000 ![] bcast_S_S800000 (constantI S_ 32 50000#32)))
            (X (Proc.devRef .tc main_v1) : IVec S800000 32))))) := by
  after_results <;> rfl

/-- The number of incoming edges of each node, before the clip at 1. -/
theorem ops2_v54 : @Eq (FVec Ideal S50000 .f32) (StableHlo.after hostOps2 X (Proc.devRef .tc main_v54))
    (Host.scatterAdd scatter_S50000_S800000x1_S800000_n_0_0_1
      (broadcastInDim S50000 ![] bcast_S_S50000 (constant S_ .f32 0x00000000#32))
      (broadcastInDim S800000x1 ![0] bcast_S800000_S800000x1_0 (X (Proc.devRef .tc main_v3) : IVec S800000 32))
      (broadcastInDim S800000 ![] bcast_S_S800000 (constant S_ .f32 0x3F800000#32))) := by
  after_results <;> rfl

/-- The literal 1.0 the clip takes. -/
theorem ops2_cst12 : @Eq (FVec Ideal S_ .f32) (StableHlo.after hostOps2 X (Proc.devRef .tc main_cst_12))
    (constant S_ .f32 0x3F800000#32) := by
  after_results <;> rfl

/-- The clip: max (1.0 everywhere) (the count). -/
theorem ops2_1_v55 : @Eq (FVec Ideal S50000 .f32) (StableHlo.after hostOps2_1 X (Proc.devRef .tc main_v55))
    (maximumf (broadcastInDim S50000 ![] bcast_S_S50000 (id (X (Proc.devRef .tc main_cst_12) : FVec Ideal S_ .f32)))
      (X (Proc.devRef .tc main_v54) : FVec Ideal S50000 .f32)) := by
  after_results <;> rfl

/-- The sums divided by the clipped counts, broadcast along the features. -/
theorem ops2_2_v58 : @Eq (FVec Ideal S50000x128 .f32) (StableHlo.after hostOps2_2 X (Proc.devRef .tc main_v58))
    (Host.divf (X (Proc.devRef .tc main_v50) : FVec Ideal S50000x128 .f32)
      (broadcastInDim S50000x128 ![0, 1] bcast_S50000x1_S50000x128_0_1
        (broadcastInDim S50000x1 ![0] bcast_S50000_S50000x1_0 (X (Proc.devRef .tc main_v55) : FVec Ideal S50000 .f32)))) := by
  after_results <;> rfl

/-- The bias as a one-row matrix. -/
theorem ops2_2_v59 : @Eq (FVec Ideal S1x128 .f32) (StableHlo.after hostOps2_2 X (Proc.devRef .tc main_v59))
    (shapeCast S1x128 (X (Proc.devRef .tc main_arg9) : FVec Ideal S128 .f32) shapeCasts_S128_S1x128) := by
  after_results <;> rfl

end Layer2

/-! ## The second layer's buffers at the boundaries -/

/-- Neither region 0, region 1 nor the operations between them write the sources' vector. -/
theorem W6_v1_W1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by hostk_keeps hostOps1
    _ = W3 m ρ c (Proc.devRef .tc main_v1) := W4_of_ne m ρ c main_v1 (by decide)
    _ = W2 m ρ c (Proc.devRef .tc main_v1) := by hostk_keeps hostOps0_2
    _ = W1 m ρ c (Proc.devRef .tc main_v1) := by hostk_keeps hostOps0_1
/-- Neither region 0, region 1 nor the operations between them write the destinations' vector. -/
theorem W6_v3_W1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by hostk_keeps hostOps1
    _ = W3 m ρ c (Proc.devRef .tc main_v3) := W4_of_ne m ρ c main_v3 (by decide)
    _ = W2 m ρ c (Proc.devRef .tc main_v3) := by hostk_keeps hostOps0_2
    _ = W1 m ρ c (Proc.devRef .tc main_v3) := by hostk_keeps hostOps0_1

theorem W6_v1 (c : Dev nD) : W6 m ρ c (Proc.devRef .tc main_v1)
    = shapeCast S800000 (extractStridedSlice S1x800000 ![0, 0] (m ((c : Thread nD τ).loc main_arg1)) slices_S2x800000_S1x800000_0_0)
        shapeCasts_S1x800000_S800000 := (W6_v1_W1 m ρ c).trans (W1_v1 m ρ c)
theorem W6_v3 (c : Dev nD) : W6 m ρ c (Proc.devRef .tc main_v3)
    = shapeCast S800000 (extractStridedSlice S1x800000 ![1, 0] (m ((c : Thread nD τ).loc main_arg1)) slices_S2x800000_S1x800000_1_0)
        shapeCasts_S1x800000_S800000 := (W6_v3_W1 m ρ c).trans (W1_v3 m ρ c)

theorem W7_v50 (c : Dev nD) : W7 m ρ c (Proc.devRef .tc main_v50)
    = aggSum (V6 m ρ c (Pipeline.arrRef spec1 3)) (m ((c : Thread nD τ).loc main_arg1)) :=
  (ops2_v50 (W6 m ρ c)).trans (by rw [W6_v1, W6_v3]; rfl)
theorem W7_v54 (c : Dev nD) : W7 m ρ c (Proc.devRef .tc main_v54)
    = Host.scatterAdd scatter_S50000_S800000x1_S800000_n_0_0_1
        (broadcastInDim S50000 ![] bcast_S_S50000 (constant (F := Ideal) S_ .f32 0x00000000#32)) (aggDst (m ((c : Thread nD τ).loc main_arg1)))
        (broadcastInDim S800000 ![] bcast_S_S800000 (constant (F := Ideal) S_ .f32 0x3F800000#32)) :=
  (ops2_v54 (W6 m ρ c)).trans (by rw [W6_v3]; rfl)
theorem W7_cst12 (c : Dev nD) : W7 m ρ c (Proc.devRef .tc main_cst_12) = constant (F := Ideal) S_ .f32 0x3F800000#32 :=
  ops2_cst12 _

theorem W8_v50 (c : Dev nD) : W8 m ρ c (Proc.devRef .tc main_v50)
    = aggSum (V6 m ρ c (Pipeline.arrRef spec1 3)) (m ((c : Thread nD τ).loc main_arg1)) :=
  (by hostk_keeps hostOps2_1 : W8 m ρ c (Proc.devRef .tc main_v50) = W7 m ρ c (Proc.devRef .tc main_v50)).trans (W7_v50 m ρ c)
theorem W8_v55 (c : Dev nD) : W8 m ρ c (Proc.devRef .tc main_v55) = aggDeg (m ((c : Thread nD τ).loc main_arg1)) :=
  (ops2_1_v55 (W7 m ρ c)).trans (by rw [W7_cst12, W7_v54]; rfl)

/-- The host operations before region 2 do not write region 1's output. -/
theorem W9_v40 (c : Dev nD) : W9 m ρ c (Proc.devRef .tc main_v40) = W6 m ρ c (Proc.devRef .tc main_v40) :=
  calc W9 m ρ c (Proc.devRef .tc main_v40)
    _ = W8 m ρ c (Proc.devRef .tc main_v40) := by hostk_keeps hostOps2_2
    _ = W7 m ρ c (Proc.devRef .tc main_v40) := by hostk_keeps hostOps2_1
    _ = W6 m ρ c (Proc.devRef .tc main_v40) := by hostk_keeps hostOps2
/-- An argument of the program at region 2's entry is what the launch memory holds. -/
theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := by hostk_keeps hostOps2_2
    _ = W7 m ρ c (Proc.devRef .tc main_arg8) := by hostk_keeps hostOps2_1
    _ = W6 m ρ c (Proc.devRef .tc main_arg8) := by hostk_keeps hostOps2
    _ = W5 m ρ c (Proc.devRef .tc main_arg8) := W6_of_ne m ρ c main_arg8 (by decide)
    _ = W4 m ρ c (Proc.devRef .tc main_arg8) := by hostk_keeps hostOps1
    _ = W3 m ρ c (Proc.devRef .tc main_arg8) := W4_of_ne m ρ c main_arg8 (by decide)
    _ = W2 m ρ c (Proc.devRef .tc main_arg8) := by hostk_keeps hostOps0_2
    _ = W1 m ρ c (Proc.devRef .tc main_arg8) := by hostk_keeps hostOps0_1
    _ = W0 m ρ c (Proc.devRef .tc main_arg8) := by hostk_keeps hostOps0
    _ = m ((c : Thread nD τ).loc main_arg8) := rfl
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := by hostk_keeps hostOps2_1
    _ = W6 m ρ c (Proc.devRef .tc main_arg9) := by hostk_keeps hostOps2
    _ = W5 m ρ c (Proc.devRef .tc main_arg9) := W6_of_ne m ρ c main_arg9 (by decide)
    _ = W4 m ρ c (Proc.devRef .tc main_arg9) := by hostk_keeps hostOps1
    _ = W3 m ρ c (Proc.devRef .tc main_arg9) := W4_of_ne m ρ c main_arg9 (by decide)
    _ = W2 m ρ c (Proc.devRef .tc main_arg9) := by hostk_keeps hostOps0_2
    _ = W1 m ρ c (Proc.devRef .tc main_arg9) := by hostk_keeps hostOps0_1
    _ = W0 m ρ c (Proc.devRef .tc main_arg9) := by hostk_keeps hostOps0
    _ = m ((c : Thread nD τ).loc main_arg9) := rfl
theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := by hostk_keeps hostOps2_2
    _ = W7 m ρ c (Proc.devRef .tc main_arg10) := by hostk_keeps hostOps2_1
    _ = W6 m ρ c (Proc.devRef .tc main_arg10) := by hostk_keeps hostOps2
    _ = W5 m ρ c (Proc.devRef .tc main_arg10) := W6_of_ne m ρ c main_arg10 (by decide)
    _ = W4 m ρ c (Proc.devRef .tc main_arg10) := by hostk_keeps hostOps1
    _ = W3 m ρ c (Proc.devRef .tc main_arg10) := W4_of_ne m ρ c main_arg10 (by decide)
    _ = W2 m ρ c (Proc.devRef .tc main_arg10) := by hostk_keeps hostOps0_2
    _ = W1 m ρ c (Proc.devRef .tc main_arg10) := by hostk_keeps hostOps0_1
    _ = W0 m ρ c (Proc.devRef .tc main_arg10) := by hostk_keeps hostOps0
    _ = m ((c : Thread nD τ).loc main_arg10) := rfl

end hostk

open hostk

theorem V3_a0 (c : Dev nD) : V3 m ρ c (Pipeline.arrRef spec0 0)
    = aggT (m ((c : Thread nD τ).loc main_arg0)) (m ((c : Thread nD τ).loc main_arg1)) :=
  (ops0_2_v21 (W2 m ρ c)).trans (by rw [W2_v13, W2_v18]; rfl)
theorem V3_a1 (c : Dev nD) : V3 m ρ c (Pipeline.arrRef spec0 1) = m ((c : Thread nD τ).loc main_arg0) := W3_arg0 m ρ c
theorem V3_a2 (c : Dev nD) : V3 m ρ c (Pipeline.arrRef spec0 2) = m ((c : Thread nD τ).loc main_arg3) := W3_arg3 m ρ c
theorem V3_a3 (c : Dev nD) : V3 m ρ c (Pipeline.arrRef spec0 3) = Spec.row (m ((c : Thread nD τ).loc main_arg4)) :=
  (ops0_2_v22 (W2 m ρ c)).trans (by rw [W2_arg4]; exact row_eq _)
theorem V3_a4 (c : Dev nD) : V3 m ρ c (Pipeline.arrRef spec0 4) = m ((c : Thread nD τ).loc main_arg5) := W3_arg5 m ρ c

theorem V9_a0 (c : Dev nD) : V9 m ρ c (Pipeline.arrRef spec2 0)
    = aggT (V6 m ρ c (Pipeline.arrRef spec1 3)) (m ((c : Thread nD τ).loc main_arg1)) :=
  (ops2_2_v58 (W8 m ρ c)).trans (by rw [W8_v50, W8_v55]; rfl)
theorem V9_a1 (c : Dev nD) : V9 m ρ c (Pipeline.arrRef spec2 1) = V6 m ρ c (Pipeline.arrRef spec1 3) := W9_v40 m ρ c
theorem V9_a2 (c : Dev nD) : V9 m ρ c (Pipeline.arrRef spec2 2) = m ((c : Thread nD τ).loc main_arg8) := W9_arg8 m ρ c
theorem V9_a3 (c : Dev nD) : V9 m ρ c (Pipeline.arrRef spec2 3) = Spec.row (m ((c : Thread nD τ).loc main_arg9)) :=
  (ops2_2_v59 (W8 m ρ c)).trans (by rw [W8_arg9]; exact row_eq _)
theorem V9_a4 (c : Dev nD) : V9 m ρ c (Pipeline.arrRef spec2 4) = m ((c : Thread nD τ).loc main_arg10) := W9_arg10 m ρ c

end Cert.KernelIdeal.KV

end
-- ==== Proof.HostK1.lean ====
/-
  The three arrays the first normalisation region takes at its entry: the linear map's output as the region before left it,
  and the batch norm's scale and shift rows as the host computes them, between the two regions, from the rows of column
  sums and of column sums of squares and from the layer's gain and offset.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

-- telling two of the program's 168 references apart is decided along their enumeration
set_option maxRecDepth 16384

namespace hostk1

/-! ## A buffer no operation of a stretch writes -/

/-- A buffer that no operation of a stretch of host operations writes holds after the stretch what it held before:
    each operation writes its one result buffer, and that is another reference. -/
macro "hostk1_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The batch norm's scale and shift as the host computes them

Between the two kernels of a layer the host takes the row of column sums `S` and the row of column sums of squares
`SS` to the scale `g · rsqrt (SS / n − (S / n)² + ε)` and the shift `β − (S / n) · scale`, on vectors of 128 features. -/

/-- a one-row matrix of column sums, as the vector of their quotients by the number of nodes -/
def hMean (S : FVec Ideal S1x128 .f32) : FVec Ideal S128 .f32 :=
  Host.divf (shapeCast S128 S shapeCasts_S1x128_S128)
    (broadcastInDim S128 ![] bcast_S_S128 (constant S_ .f32 0x47435000#32))

/-- the host's scale, as a vector -/
def hScale (S SS : FVec Ideal S1x128 .f32) (G : FVec Ideal S128 .f32) : FVec Ideal S128 .f32 :=
  mulf G (Host.rsqrt (addf (subf (hMean SS) (mulf (hMean S) (hMean S)))
    (broadcastInDim S128 ![] bcast_S_S128 (constant S_ .f32 0x3727C5AC#32))))

/-- the host's shift, as a vector -/
def hShift (S SS : FVec Ideal S1x128 .f32) (G BE : FVec Ideal S128 .f32) : FVec Ideal S128 .f32 :=
  subf BE (mulf (hMean S) (hScale S SS G))

/-- At a feature, the quotient of that column's sum by the number of nodes. -/
theorem hMean_apply (S : FVec Ideal S1x128 .f32) (i : Fin 128) :
    hMean S (ix1 i) = Ideal.div (S (ix2 0 i)) Spec.nNodes := by
  show Ideal.div (shapeCast S128 S shapeCasts_S1x128_S128 (ix1 i)) Spec.nNodes = _
  rw [shapeCast_1a_a_apply]

/-- At a feature, the host's scale is the kernel-side scale of the mathematics. -/
theorem hScale_apply (S SS : FVec Ideal S1x128 .f32) (G : FVec Ideal S128 .f32) (i : Fin 128) :
    hScale S SS G (ix1 i) = Spec.scaleK S SS G (ix2 0 i) := by
  show G (ix1 i) * Ideal.rsqrt (hMean SS (ix1 i) - hMean S (ix1 i) * hMean S (ix1 i) + Spec.eps) = _
  rw [hMean_apply, hMean_apply]
  rfl

/-- At a feature, the host's shift is the kernel-side shift of the mathematics. -/
theorem hShift_apply (S SS : FVec Ideal S1x128 .f32) (G BE : FVec Ideal S128 .f32) (i : Fin 128) :
    hShift S SS G BE (ix1 i) = Spec.shiftK S SS G BE (ix2 0 i) := by
  show BE (ix1 i) - hMean S (ix1 i) * hScale S SS G (ix1 i) = _
  rw [hMean_apply, hScale_apply]
  rfl

/-- The scale, cast to a one-row matrix, is `Spec.scaleK`. -/
theorem scale_eq (S SS : FVec Ideal S1x128 .f32) (G : FVec Ideal S128 .f32) :
    shapeCast S1x128 (hScale S SS G) shapeCasts_S128_S1x128 = Spec.scaleK S SS G := by
  funext j
  obtain ⟨u, i, rfl⟩ : ∃ u i, j = ix2 u i := ⟨_, _, eq_ix2 j⟩
  obtain rfl : u = 0 := Subsingleton.elim _ _
  rw [shapeCast_a_1a_apply]
  exact hScale_apply S SS G i

/-- The shift, cast to a one-row matrix, is `Spec.shiftK`. -/
theorem shift_eq (S SS : FVec Ideal S1x128 .f32) (G BE : FVec Ideal S128 .f32) :
    shapeCast S1x128 (hShift S SS G BE) shapeCasts_S128_S1x128 = Spec.shiftK S SS G BE := by
  funext j
  obtain ⟨u, i, rfl⟩ : ∃ u i, j = ix2 u i := ⟨_, _, eq_ix2 j⟩
  obtain rfl : u = 0 := Subsingleton.elim _ _
  rw [shapeCast_a_1a_apply]
  exact hShift_apply S SS G BE i

section Norm1

variable (X : Valuation τ sig (Elt Ideal))

set_option maxHeartbeats 800000 in
/-- The first layer's nineteen operations leave the scale, as a one-row matrix. -/
theorem ops1_v38 : @Eq (FVec Ideal S1x128 .f32) (StableHlo.after hostOps1 X (Proc.devRef .tc main_v38))
    (shapeCast S1x128 (hScale (X (Proc.devRef .tc main_v23_1)) (X (Proc.devRef .tc main_v23_2)) (X (Proc.devRef .tc main_arg6)))
      shapeCasts_S128_S1x128) := by
  after_results
  unfold hScale hMean
  rfl

set_option maxHeartbeats 800000 in
/-- … and the shift, as a one-row matrix. -/
theorem ops1_v39 : @Eq (FVec Ideal S1x128 .f32) (StableHlo.after hostOps1 X (Proc.devRef .tc main_v39))
    (shapeCast S1x128 (hShift (X (Proc.devRef .tc main_v23_1)) (X (Proc.devRef .tc main_v23_2)) (X (Proc.devRef .tc main_arg6))
      (X (Proc.devRef .tc main_arg7))) shapeCasts_S128_S1x128) := by
  after_results
  unfold hShift hScale hMean
  rfl

end Norm1

/-- The first layer's scale parameter at region 0's exit is what the launch memory holds. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by hostk1_keeps hostOps0_2
    _ = W1 m ρ c (Proc.devRef .tc main_arg6) := by hostk1_keeps hostOps0_1
    _ = W0 m ρ c (Proc.devRef .tc main_arg6) := by hostk1_keeps hostOps0
    _ = m ((c : Thread nD τ).loc main_arg6) := rfl
/-- The first layer's shift parameter at region 0's exit is what the launch memory holds. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by hostk1_keeps hostOps0_2
    _ = W1 m ρ c (Proc.devRef .tc main_arg7) := by hostk1_keeps hostOps0_1
    _ = W0 m ρ c (Proc.devRef .tc main_arg7) := by hostk1_keeps hostOps0
    _ = m ((c : Thread nD τ).loc main_arg7) := rfl

end hostk1

open hostk1

theorem V5_a0 (c : Dev nD) : V5 m ρ c (Pipeline.arrRef spec1 0) = V4 m ρ c (Pipeline.arrRef spec0 5) := by
  show W5 m ρ c (Proc.devRef .tc main_v23_0) = W4 m ρ c (Proc.devRef .tc main_v23_0)
  hostk1_keeps hostOps1
theorem V5_a1 (c : Dev nD) : V5 m ρ c (Pipeline.arrRef spec1 1)
    = Spec.scaleK (V4 m ρ c (Pipeline.arrRef spec0 6)) (V4 m ρ c (Pipeline.arrRef spec0 7)) (m ((c : Thread nD τ).loc main_arg6)) :=
  (ops1_v38 (W4 m ρ c)).trans (by rw [W4_arg6]; exact scale_eq _ _ _)
theorem V5_a2 (c : Dev nD) : V5 m ρ c (Pipeline.arrRef spec1 2)
    = Spec.shiftK (V4 m ρ c (Pipeline.arrRef spec0 6)) (V4 m ρ c (Pipeline.arrRef spec0 7)) (m ((c : Thread nD τ).loc main_arg6))
        (m ((c : Thread nD τ).loc main_arg7)) :=
  (ops1_v39 (W4 m ρ c)).trans (by rw [W4_arg6, W4_arg7]; exact shift_eq _ _ _ _)

end Cert.KernelIdeal.KV

end
-- ==== Proof.HostK2.lean ====
/-
  The host's stretches from region 2's exit to the return, read as mathematics.

  Between regions 2 and 3 the host forms the second batch norm's scale and shift from the two sums rows region 2 left
  (S = ∑ z, SS = ∑ z², each [1,128]) and the launched g, β: with n the splat 50000 and ε the splat literal,
      scale = g · rsqrt (SS/n − (S/n)·(S/n) + ε),      shift = β − (S/n) · scale,
  computed on the rows flattened to [128] and put back as rows: the specification's `scaleK`, `shiftK` entry by entry
  (a flattening keeps the position along the row; a splat reads its one word everywhere; both sides spell the same
  literal words, which are never evaluated). Region 2's first output passes to region 3 untouched, and region 3's
  output to region 4; region 4's id column is the launched graph ids reshaped [50000] → [50000,1]. After region 4
  the host divides the pooled sums [64,128] by the counts [1,64] flattened, clamped below by the splat 1 and spread
  along the features: the specification's `meanPool`. A buffer that no operation of a stretch writes keeps its
  contents across it; the launched arguments are followed forward to the return, where they are known unchanged.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-! ## The host's compositions, as functions of plain arrays, are the specification's

Between regions 2 and 3 the host turns the two sums rows S, SS [1,128] into the batch norm's scale and shift: each row
is flattened to [128], divided by the splat 50000, and
    scale = g · rsqrt (SS/n − (S/n)·(S/n) + ε),   shift = β − (S/n) · scale,
each put back as a [1,128] row. After region 4 the host divides the pooled sums [64,128] by the counts [1,64]
flattened, clamped below by the splat 1 and spread along the features. Entry by entry these are the specification's
`scaleK`, `shiftK` and `meanPool`: a flattening or its inverse keeps the position along the row, a splat reads its
one word everywhere, and the float literals are the same words on both sides. -/

section Pure

/-- a [1,128] row flattened, at position `k` -/
theorem hostk2_flat128 (X : FVec Ideal S1x128 .f32) (k : Fin 128) :
    shapeCast S128 X shapeCasts_S1x128_S128 (ix1 k) = X (ix2 0 k) :=
  shapeCast_apply X shapeCasts_S1x128_S128 (ix1 k) (ix2 0 k)
    (by rw [Shape.rowMajor_val_one, Shape.rowMajor_val_two]; simp)
/-- a [128] vector as a [1,128] row, at position `k` -/
theorem hostk2_row128 (Y : FVec Ideal S128 .f32) (k : Fin 128) :
    shapeCast S1x128 Y shapeCasts_S128_S1x128 (ix2 0 k) = Y (ix1 k) :=
  shapeCast_apply Y shapeCasts_S128_S1x128 (ix2 0 k) (ix1 k)
    (by rw [Shape.rowMajor_val_one, Shape.rowMajor_val_two]; simp)
/-- a splat over [128] reads its word -/
theorem hostk2_splat128 (w : BitVec 32) (k : Fin 128) :
    broadcastInDim S128 ![] bcast_S_S128 (constant (F := Ideal) S_ .f32 w) (ix1 k) = Ideal.ofBits .f32 w :=
  broadcastInDim_scalar_apply bcast_S_S128 _ (ix1 k)
/-- the host's reciprocal square root at an entry -/
theorem hostk2_rsqrt_apply (Y : FVec Ideal S128 .f32) (i : S128.Idx) : Host.rsqrt Y i = Ideal.rsqrt (Y i) := rfl

/-- the mean of a feature as the host forms it: the flattened sums row over the splat 50000 -/
def hostk2_meanH (S : FVec Ideal S1x128 .f32) : FVec Ideal S128 .f32 :=
  Host.divf (fun i => shapeCast S128 S shapeCasts_S1x128_S128 i)
    (broadcastInDim S128 ![] bcast_S_S128 (constant (F := Ideal) S_ .f32 0x47435000#32))
/-- the scale as the host forms it, still a [128] vector -/
def hostk2_scaleV (S SS : FVec Ideal S1x128 .f32) (G : FVec Ideal S128 .f32) : FVec Ideal S128 .f32 :=
  mulf G (Host.rsqrt (addf (subf (hostk2_meanH SS) (mulf (hostk2_meanH S) (hostk2_meanH S)))
    (broadcastInDim S128 ![] bcast_S_S128 (constant (F := Ideal) S_ .f32 0x3727C5AC#32))))
/-- the scale row -/
def hostk2_scaleH (S SS : FVec Ideal S1x128 .f32) (G : FVec Ideal S128 .f32) : FVec Ideal S1x128 .f32 :=
  fun i => shapeCast S1x128 (hostk2_scaleV S SS G) shapeCasts_S128_S1x128 i
/-- the shift row -/
def hostk2_shiftH (S SS : FVec Ideal S1x128 .f32) (G BE : FVec Ideal S128 .f32) : FVec Ideal S1x128 .f32 :=
  fun i => shapeCast S1x128 (subf BE (mulf (hostk2_meanH S) (hostk2_scaleV S SS G))) shapeCasts_S128_S1x128 i

theorem hostk2_meanH_apply (S : FVec Ideal S1x128 .f32) (k : Fin 128) :
    hostk2_meanH S (ix1 k) = Ideal.div (S (ix2 0 k)) Spec.nNodes := by
  unfold hostk2_meanH Spec.nNodes
  rw [hostDivf_apply, hostk2_splat128]
  exact congrArg (Ideal.div · _) (hostk2_flat128 S k)

theorem hostk2_scaleV_apply (S SS : FVec Ideal S1x128 .f32) (G : FVec Ideal S128 .f32) (k : Fin 128) :
    hostk2_scaleV S SS G (ix1 k) = Spec.scaleK S SS G (ix2 0 k) := by
  unfold hostk2_scaleV Spec.scaleK
  rw [mulf_apply, hostk2_rsqrt_apply, addf_apply, subf_apply, mulf_apply, hostk2_meanH_apply, hostk2_meanH_apply,
    hostk2_splat128]
  rfl

/-- the host's scale row is the specification's -/
theorem hostk2_scaleH_eq (S SS : FVec Ideal S1x128 .f32) (G : FVec Ideal S128 .f32) :
    hostk2_scaleH S SS G = Spec.scaleK S SS G := by
  funext j
  obtain ⟨a, k, rfl⟩ : ∃ (a : Fin 1) (k : Fin 128), j = ix2 a k := ⟨j 0, j 1, eq_ix2 j⟩
  have ha := Fin.eq_zero a
  subst ha
  unfold hostk2_scaleH
  rw [hostk2_row128]
  exact hostk2_scaleV_apply S SS G k

/-- the host's shift row is the specification's -/
theorem hostk2_shiftH_eq (S SS : FVec Ideal S1x128 .f32) (G BE : FVec Ideal S128 .f32) :
    hostk2_shiftH S SS G BE = Spec.shiftK S SS G BE := by
  funext j
  obtain ⟨a, k, rfl⟩ : ∃ (a : Fin 1) (k : Fin 128), j = ix2 a k := ⟨j 0, j 1, eq_ix2 j⟩
  have ha := Fin.eq_zero a
  subst ha
  unfold hostk2_shiftH
  rw [hostk2_row128, subf_apply, mulf_apply, hostk2_meanH_apply, hostk2_scaleV_apply]
  rfl

end Pure

section PurePool

/-- a [1,64] row flattened, at position `b` -/
theorem hostk2_flat64 (X : FVec Ideal S1x64 .f32) (b : Fin 64) :
    shapeCast S64 X shapeCasts_S1x64_S64 (ix1 b) = X (ix2 0 b) :=
  shapeCast_apply X shapeCasts_S1x64_S64 (ix1 b) (ix2 0 b)
    (by rw [Shape.rowMajor_val_one, Shape.rowMajor_val_two]; simp)
/-- a splat over [64] reads its word -/
theorem hostk2_splat64 (w : BitVec 32) (b : Fin 64) :
    broadcastInDim S64 ![] bcast_S_S64 (constant (F := Ideal) S_ .f32 w) (ix1 b) = Ideal.ofBits .f32 w :=
  broadcastInDim_scalar_apply bcast_S_S64 _ (ix1 b)
/-- a [64] vector spread along the features, through a [64,1] column, reads its graph's entry -/
theorem hostk2_spread (Y : FVec Ideal S64 .f32) (b : Fin 64) (q : Fin 128) :
    broadcastInDim S64x128 ![0, 1] bcast_S64x1_S64x128_0_1 (broadcastInDim S64x1 ![0] bcast_S64_S64x1_0 Y) (ix2 b q)
      = Y (ix1 b) := by
  refine (broadcastInDim_apply _ bcast_S64x1_S64x128_0_1 _ (ix2 b q) (ix2 b 0) (fun a => by
    match a with
    | ⟨0, _⟩ => rfl
    | ⟨1, _⟩ => rfl)).trans ?_
  exact broadcastInDim_apply _ bcast_S64_S64x1_0 Y (ix2 b 0) (ix1 b) (fun a => by
    match a with
    | ⟨0, _⟩ => rfl)

/-- the counts as the host clamps them: the flattened row, at least the splat 1 -/
def hostk2_clipH (CNT : FVec Ideal S1x64 .f32) : FVec Ideal S64 .f32 :=
  maximumf (broadcastInDim S64 ![] bcast_S_S64 (constant (F := Ideal) S_ .f32 0x3F800000#32))
    (fun i => shapeCast S64 CNT shapeCasts_S1x64_S64 i)
/-- the mean pool as the host forms it -/
def hostk2_poolH (P : FVec Ideal S64x128 .f32) (CNT : FVec Ideal S1x64 .f32) : FVec Ideal S64x128 .f32 :=
  Host.divf P (broadcastInDim S64x128 ![0, 1] bcast_S64x1_S64x128_0_1
    (broadcastInDim S64x1 ![0] bcast_S64_S64x1_0 (hostk2_clipH CNT)))

theorem hostk2_clipH_apply (CNT : FVec Ideal S1x64 .f32) (b : Fin 64) :
    hostk2_clipH CNT (ix1 b) = max Spec.one (CNT (ix2 0 b)) := by
  unfold hostk2_clipH Spec.one
  rw [maximumf_apply, hostk2_splat64]
  exact congrArg (max _) (hostk2_flat64 CNT b)

/-- the host's mean pool is the specification's -/
theorem hostk2_poolH_eq (P : FVec Ideal S64x128 .f32) (CNT : FVec Ideal S1x64 .f32) :
    hostk2_poolH P CNT = Spec.meanPool P CNT := by
  funext j
  obtain ⟨b, q, rfl⟩ : ∃ (b : Fin 64) (q : Fin 128), j = ix2 b q := ⟨j 0, j 1, eq_ix2 j⟩
  unfold hostk2_poolH Spec.meanPool
  rw [hostDivf_apply, hostk2_spread, hostk2_clipH_apply]

/-- the graph ids reshaped to a column are the specification's column -/
theorem hostk2_col_eq (B : IVec S50000 32) :
    (fun i => shapeCast S50000x1 B shapeCasts_S50000_S50000x1 i) = Spec.col B := by
  funext j
  obtain ⟨r, a, rfl⟩ : ∃ (r : Fin 50000) (a : Fin 1), j = ix2 r a := ⟨j 0, j 1, eq_ix2 j⟩
  have ha := Fin.eq_zero a
  subst ha
  exact shapeCast_apply B shapeCasts_S50000_S50000x1 (ix2 r 0) (ix1 r)
    (by rw [Shape.rowMajor_val_one, Shape.rowMajor_val_two]; simp)

end PurePool

/-! ## What each stretch computes, from any contents

Each buffer a stretch writes, as the composition of the stretch's operations over the contents it starts from. -/

section Stretches
variable (W : Valuation τ sig (Elt Ideal))

theorem hostk2_ops3_scale : StableHlo.after hostOps3 W (Proc.devRef .tc main_v75)
    = hostk2_scaleH (W (Proc.devRef .tc main_v60_1)) (W (Proc.devRef .tc main_v60_2)) (W (Proc.devRef .tc main_arg11)) := by
  dsimp only [hostOps3]; after_results_simp; rfl

theorem hostk2_ops3_shift : StableHlo.after hostOps3 W (Proc.devRef .tc main_v76)
    = hostk2_shiftH (W (Proc.devRef .tc main_v60_1)) (W (Proc.devRef .tc main_v60_2)) (W (Proc.devRef .tc main_arg11)) (W (Proc.devRef .tc main_arg12)) := by
  dsimp only [hostOps3]; after_results_simp; rfl

theorem hostk2_ops4_ids : StableHlo.after hostOps4 W (Proc.devRef .tc main_v78)
    = fun i => shapeCast S50000x1 (W (Proc.devRef .tc main_arg2)) shapeCasts_S50000_S50000x1 i := by
  dsimp only [hostOps4]; after_results_simp; rfl

theorem hostk2_ops5_flat : StableHlo.after hostOps5 W (Proc.devRef .tc main_v80)
    = fun i => shapeCast S64 (W (Proc.devRef .tc main_v79_1)) shapeCasts_S1x64_S64 i := by
  dsimp only [hostOps5]; after_results_simp; rfl

theorem hostk2_ops5_one : StableHlo.after hostOps5 W (Proc.devRef .tc main_cst_16)
    = constant (F := Ideal) S_ .f32 0x3F800000#32 := by
  dsimp only [hostOps5]; after_results_simp

theorem hostk2_ops5_1_clip : @Eq (FVec Ideal S64 .f32) (StableHlo.after hostOps5_1 W (Proc.devRef .tc main_v81))
    (maximumf (broadcastInDim S64 ![] bcast_S_S64 (W (Proc.devRef .tc main_cst_16) : FVec Ideal S_ .f32))
      (W (Proc.devRef .tc main_v80) : FVec Ideal S64 .f32)) := by
  dsimp only [hostOps5_1]; after_results_simp; rfl

theorem hostk2_ops5_2_div : @Eq (FVec Ideal S64x128 .f32) (StableHlo.after hostOps5_2 W (Proc.devRef .tc main_v84))
    (Host.divf (W (Proc.devRef .tc main_v79_0) : FVec Ideal S64x128 .f32) (broadcastInDim S64x128 ![0, 1] bcast_S64x1_S64x128_0_1
      (broadcastInDim S64x1 ![0] bcast_S64_S64x1_0 (W (Proc.devRef .tc main_v81) : FVec Ideal S64 .f32)))) := by
  dsimp only [hostOps5_2]; after_results_simp

end Stretches

/-! ## The arrays at the boundaries -/

/-- the second layer's g reaches region 3's entry as launched: nothing from there to the return writes it -/
theorem hostk2_arg11 (c : Dev nD) : W10 m ρ c (Proc.devRef .tc main_arg11) = m ((c : Thread nD τ).loc main_arg11) :=
  Eq.trans (Eq.symm (
  calc W17 m ρ c (Proc.devRef .tc main_arg11)
    _ = W16 m ρ c (Proc.devRef .tc main_arg11) := StableHlo.after_of_forall_not_mem _ _ (List.forall_iff_forall_mem.mp (by
          simp only [hostOps5_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W15 m ρ c (Proc.devRef .tc main_arg11) := StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W14 m ρ c (Proc.devRef .tc main_arg11) := StableHlo.after_of_forall_not_mem _ _ (List.forall_iff_forall_mem.mp (by
          simp only [hostOps5, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
  )) (W17_main_arg11 m ρ c)

/-- so does its β -/
theorem hostk2_arg12 (c : Dev nD) : W10 m ρ c (Proc.devRef .tc main_arg12) = m ((c : Thread nD τ).loc main_arg12) :=
  Eq.trans (Eq.symm (
  calc W17 m ρ c (Proc.devRef .tc main_arg12)
    _ = W16 m ρ c (Proc.devRef .tc main_arg12) := StableHlo.after_of_forall_not_mem _ _ (List.forall_iff_forall_mem.mp (by
          simp only [hostOps5_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W15 m ρ c (Proc.devRef .tc main_arg12) := StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W14 m ρ c (Proc.devRef .tc main_arg12) := StableHlo.after_of_forall_not_mem _ _ (List.forall_iff_forall_mem.mp (by
          simp only [hostOps5, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
  )) (W17_main_arg12 m ρ c)

/-- the graph ids reach region 4's entry as launched -/
theorem hostk2_arg2 (c : Dev nD) : W12 m ρ c (Proc.devRef .tc main_arg2) = m ((c : Thread nD τ).loc main_arg2) :=
  Eq.trans (Eq.symm (
  calc W17 m ρ c (Proc.devRef .tc main_arg2)
    _ = W16 m ρ c (Proc.devRef .tc main_arg2) := StableHlo.after_of_forall_not_mem _ _ (List.forall_iff_forall_mem.mp (by
          simp only [hostOps5_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W15 m ρ c (Proc.devRef .tc main_arg2) := StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W14 m ρ c (Proc.devRef .tc main_arg2) := StableHlo.after_of_forall_not_mem _ _ (List.forall_iff_forall_mem.mp (by
          simp only [hostOps5, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
  )) (W17_main_arg2 m ρ c)

/-- Region 3 reads, as its first array, region 2's first output: the stretch between does not write it. -/
theorem V11_a0 (c : Dev nD) : V11 m ρ c (Pipeline.arrRef spec3 0) = V10 m ρ c (Pipeline.arrRef spec2 5) :=
  show StableHlo.after hostOps3 (W10 m ρ c) (Proc.devRef .tc main_v60_0) = W10 m ρ c (Proc.devRef .tc main_v60_0) from
  StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))

/-- Region 3's scale row is the specification's scale of region 2's two sums rows and the launched g. -/
theorem V11_a1 (c : Dev nD) : V11 m ρ c (Pipeline.arrRef spec3 1)
    = Spec.scaleK (V10 m ρ c (Pipeline.arrRef spec2 6)) (V10 m ρ c (Pipeline.arrRef spec2 7)) (m ((c : Thread nD τ).loc main_arg11)) := by
  show StableHlo.after hostOps3 (W10 m ρ c) (Proc.devRef .tc main_v75) = _
  exact (hostk2_ops3_scale (W10 m ρ c)).trans ((hostk2_scaleH_eq _ _ _).trans
    (congrArg (Spec.scaleK _ _) (hostk2_arg11 m ρ c)))

/-- Region 3's shift row is the specification's shift of the same, and the launched β. -/
theorem V11_a2 (c : Dev nD) : V11 m ρ c (Pipeline.arrRef spec3 2)
    = Spec.shiftK (V10 m ρ c (Pipeline.arrRef spec2 6)) (V10 m ρ c (Pipeline.arrRef spec2 7)) (m ((c : Thread nD τ).loc main_arg11))
        (m ((c : Thread nD τ).loc main_arg12)) := by
  show StableHlo.after hostOps3 (W10 m ρ c) (Proc.devRef .tc main_v76) = _
  refine (hostk2_ops3_shift (W10 m ρ c)).trans ((hostk2_shiftH_eq _ _ _ _).trans ?_)
  rw [hostk2_arg11 m ρ c, hostk2_arg12 m ρ c]

/-- Region 4 reads, as its first array, region 3's output: the stretch between does not write it. -/
theorem V13_a0 (c : Dev nD) : V13 m ρ c (Pipeline.arrRef spec4 0) = V12 m ρ c (Pipeline.arrRef spec3 3) :=
  show StableHlo.after hostOps4 (W12 m ρ c) (Proc.devRef .tc main_v77) = W12 m ρ c (Proc.devRef .tc main_v77) from
  StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))

/-- Region 4's id column is the launched graph ids as a column. -/
theorem V13_a1 (c : Dev nD) : V13 m ρ c (Pipeline.arrRef spec4 1) = Spec.col (m ((c : Thread nD τ).loc main_arg2)) := by
  show StableHlo.after hostOps4 (W12 m ρ c) (Proc.devRef .tc main_v78) = _
  exact (hostk2_ops4_ids (W12 m ρ c)).trans ((hostk2_col_eq _).trans (congrArg Spec.col (hostk2_arg2 m ρ c)))

/-- The returned array is the mean pool of region 4's two outputs. -/
theorem W17_out (c : Dev nD) : W17 m ρ c (Proc.devRef .tc main_v84)
    = Spec.meanPool (V14 m ρ c (Pipeline.arrRef spec4 2)) (V14 m ρ c (Pipeline.arrRef spec4 3)) := by
  have e81 : W16 m ρ c (Proc.devRef .tc main_v81) = hostk2_clipH (W14 m ρ c (Proc.devRef .tc main_v79_1)) := by
    show StableHlo.after hostOps5_1 (W15 m ρ c) (Proc.devRef .tc main_v81) = _
    refine (hostk2_ops5_1_clip (W15 m ρ c)).trans ?_
    have h1 : W15 m ρ c (Proc.devRef .tc main_cst_16) = constant (F := Ideal) S_ .f32 0x3F800000#32 := hostk2_ops5_one (W14 m ρ c)
    have h2 : W15 m ρ c (Proc.devRef .tc main_v80) = fun i => shapeCast S64 (W14 m ρ c (Proc.devRef .tc main_v79_1)) shapeCasts_S1x64_S64 i :=
      hostk2_ops5_flat (W14 m ρ c)
    rw [h1, h2]
    rfl
  have e79 : W16 m ρ c (Proc.devRef .tc main_v79_0) = W14 m ρ c (Proc.devRef .tc main_v79_0) :=
    calc W16 m ρ c (Proc.devRef .tc main_v79_0)
      _ = W15 m ρ c (Proc.devRef .tc main_v79_0) := StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
      _ = W14 m ρ c (Proc.devRef .tc main_v79_0) := StableHlo.after_of_forall_not_mem _ _ (List.forall_iff_forall_mem.mp (by
          simp only [hostOps5, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
  show StableHlo.after hostOps5_2 (W16 m ρ c) (Proc.devRef .tc main_v84) = _
  refine (hostk2_ops5_2_div (W16 m ρ c)).trans ?_
  rw [e81, e79]
  exact hostk2_poolH_eq _ _

end Cert.KernelIdeal.KV

end
-- ==== Proof.Lin0.lean ====
/-
  The first linear layer with its column statistics, read off the pipeline's point-by-point contents.

  The grid has 25 points; point t stages rows 2000 t … 2000 t + 1999 of the neighbour averages A and of the
  node features X, and the whole of W_l, b and W_r. At every point the body leaves in the z window
      z = A·W_l + b + X·W_r        (two products from the zero accumulator and a broadcast row, added)
  of its blocks, and adds to two rows, zeroed at point 0 and never written back before the last point, the
  block's column sums of z and of z². So after point n the two rows hold the sums over rows 0 … 2000 (n+1) − 1
  (induction on the point; the sums are split at a block boundary), and after the last point over all 50000
  rows. The z window's blocks tile the array (row r is in the block of point r / 2000); the two rows' one
  block is the whole row.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

namespace lin0

section Pieces
variable {F : FTy → Type} [FloatOps F]

theorem hz : (![0, 0] : Fin 2 → Nat) = fun _ => 0 := funext fun a => by fin_cases a <;> rfl

theorem o5A (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S2000x128 .f32) (x2 : Vec F S128x128 .f32) (x3 : Vec F S1x128 .f32) (x4 : Vec F S128x128 .f32) :
    out0_A_5 c i a1 h1 a2 h2 a3 h3 a4 h4 a5 h5 a6 h6 a7 h7 a8 h8 hc x0 x1 x2 x3 x4 = k0_pay3 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S128x128) hz, View.ld_unit_zero (S := S1x128) hz]

theorem o6A (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S2000x128 .f32) (x2 : Vec F S128x128 .f32) (x3 : Vec F S1x128 .f32) (x4 : Vec F S128x128 .f32) :
    out0_A_6 c i a1 h1 a2 h2 a3 h3 a4 h4 a5 h5 a6 h6 a7 h7 a8 h8 hc x0 x1 x2 x3 x4 = k0_pay4 x0 x1 x2 x4 x3 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, View.readCov_unit_zero (S := S1x128) _ hz,
    View.ld_unit_zero (S := S2000x128) hz, View.ld_unit_zero (S := S128x128) hz, View.ld_unit_zero (S := S1x128) hz]

theorem o7A (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S2000x128 .f32) (x2 : Vec F S128x128 .f32) (x3 : Vec F S1x128 .f32) (x4 : Vec F S128x128 .f32) :
    out0_A_7 c i a1 h1 a2 h2 a3 h3 a4 h4 a5 h5 a6 h6 a7 h7 a8 h8 hc x0 x1 x2 x3 x4 = k0_pay5 x0 x1 x2 x4 x3 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, View.readCov_unit_zero (S := S1x128) _ hz,
    View.ld_unit_zero (S := S2000x128) hz, View.ld_unit_zero (S := S128x128) hz, View.ld_unit_zero (S := S1x128) hz]

theorem o5B (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S2000x128 .f32) (x2 : Vec F S128x128 .f32) (x3 : Vec F S1x128 .f32) (x4 : Vec F S128x128 .f32) (xo6 xo7 : Vec F S1x128 .f32) :
    out0_B_5 c i a1 h1 a2 h2 a3 h3 a4 h4 a5 h5 a6 h6 a7 h7 a8 h8 hc x0 x1 x2 x3 x4 xo6 xo7 = k0_pay3 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

theorem o6B (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S2000x128 .f32) (x2 : Vec F S128x128 .f32) (x3 : Vec F S1x128 .f32) (x4 : Vec F S128x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

theorem o7B (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S2000x128 .f32) (x2 : Vec F S128x128 .f32) (x3 : Vec F S1x128 .f32) (x4 : Vec F S128x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x1 x2 x4 x3 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

end Pieces

section AtIdeal

theorem lhsD_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsD_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsD_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsD_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times a weight matrix, from the zero accumulator, at row p and feature q:
    the sum over the 128 inner features of the products. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsD_0 _ _
    | ⟨1, _⟩ => exact (lhsD_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsD_0 _ _).trans hk
    | ⟨1, _⟩ => exact rhsD_1 _ _)
  rw [el, er]

/-- The reduced feature q with row k put back is the index (k, q). -/
theorem lift_row (h : S2000x128.Reduces [0] S128) (q : Fin 128) (k : Fin (S2000x128.size 0)) :
    h.lift (ix1 q) k = ix2 (⟨k.val, k.isLt⟩ : Fin 2000) q := by
  funext c; apply Fin.ext
  fin_cases c <;> rfl

/-- The sum of a block over its rows, at feature q. -/
theorem colred_apply (src : FVec Ideal S2000x128 .f32) (hφ : FKind.Formats .f32)
    (hacc : (0x00000000#32 : BitVec (FTy.bits .f32)) = 0x00000000#32) (q : Fin 128) :
    multiReduction (F := Ideal) .add [0] S128 src 0x00000000#32 reduces_S2000x128_S128 hφ hacc (ix1 q)
      = ∑ p : Fin 2000, src (ix2 p q) := by
  refine (Ideal.multiReduction_add_single src 0x00000000#32 reduces_S2000x128_S128 hφ hacc (ix1 q)).trans ?_
  exact Finset.sum_congr rfl fun k _ => congrArg src (lift_row reduces_S2000x128_S128 q k)

/-- z at row p, feature q of a block: A·W_l + b + X·W_r. -/
theorem pay3_apply (v3 v6 : Vec Ideal S2000x128 .f32) (v8 v10 : Vec Ideal S128x128 .f32) (v13 : Vec Ideal S1x128 .f32)
    (p : Fin 2000) (q : Fin 128) :
    k0_pay3 (F := Ideal) v3 v6 v8 v10 v13 (ix2 p q)
      = (∑ k : Fin 128, v3 (ix2 p k) * v8 (ix2 k q)) + v13 (ix2 0 q) + ∑ k : Fin 128, v6 (ix2 p k) * v10 (ix2 k q) := by
  unfold k0_pay3
  rw [shapeCast_self, shapeCast_self]
  refine (addf_apply _ _ (ix2 p q)).trans ?_
  refine congrArg₂ (· + ·) ((addf_apply _ _ (ix2 p q)).trans (congrArg₂ (· + ·) ?_ ?_)) ?_
  · exact mm_apply _ _ p q
  · exact broadcastTo_1b_ab_apply v13 broadcasts_S1x128_S2000x128 p q
  · exact mm_apply _ _ p q

/-- The running row of sums after a block: what was stored, plus the block's column sums of z. -/
theorem pay4_apply (v3 v6 : Vec Ideal S2000x128 .f32) (v8 v10 : Vec Ideal S128x128 .f32) (v13 : Vec Ideal S1x128 .f32) (v20 : Vec Ideal S1x128 .f32) (u : Fin 1) (q : Fin 128) :
    k0_pay4 (F := Ideal) v3 v6 v8 v10 v13 v20 (ix2 u q)
      = v20 (ix2 u q) + ∑ p : Fin 2000, k0_pay3 (F := Ideal) v3 v6 v8 v10 v13 (ix2 p q) := by
  unfold k0_pay4
  rw [shapeCast_self]
  refine (addf_apply _ _ (ix2 u q)).trans (congrArg (fun x => v20 (ix2 u q) + x) ?_)
  refine (shapeCast_a_1a_apply _ shapeCasts_S128_S1x128 u q).trans ?_
  exact colred_apply _ _ _ q

/-- The running row of sums of squares after a block: what was stored, plus the block's column sums of z². -/
theorem pay5_apply (v3 v6 : Vec Ideal S2000x128 .f32) (v8 v10 : Vec Ideal S128x128 .f32) (v13 : Vec Ideal S1x128 .f32) (v26 : Vec Ideal S1x128 .f32) (u : Fin 1) (q : Fin 128) :
    k0_pay5 (F := Ideal) v3 v6 v8 v10 v13 v26 (ix2 u q)
      = v26 (ix2 u q) + ∑ p : Fin 2000, k0_pay3 (F := Ideal) v3 v6 v8 v10 v13 (ix2 p q) * k0_pay3 (F := Ideal) v3 v6 v8 v10 v13 (ix2 p q) := by
  unfold k0_pay5
  rw [shapeCast_self]
  refine (addf_apply _ _ (ix2 u q)).trans (congrArg (fun x => v26 (ix2 u q) + x) ?_)
  refine (shapeCast_a_1a_apply _ shapeCasts_S128_S1x128 u q).trans ?_
  exact colred_apply _ _ _ q

/-- The reset rows are zero. -/
theorem pay1_apply (j : S1x128.Idx) : k0_pay1 (F := Ideal) j = 0 := Ideal.ofBits_zero_f32
theorem pay2_apply (j : S1x128.Idx) : k0_pay2 (F := Ideal) j = 0 := Ideal.ofBits_zero_f32

end AtIdeal

section Region
variable (V : Vals) (c : Dev nD)

/-- The five arrays as the region finds them: the neighbour averages, the node features, W_l, b, W_r. -/
abbrev arrA : Spec.NF.Idx → EReal := V c (Pipeline.arrRef spec0 0)
abbrev arrX : Spec.NF.Idx → EReal := V c (Pipeline.arrRef spec0 1)
abbrev arrWL : Spec.FF.Idx → EReal := V c (Pipeline.arrRef spec0 2)
abbrev arrB : Spec.R1F.Idx → EReal := V c (Pipeline.arrRef spec0 3)
abbrev arrWR : Spec.FF.Idx → EReal := V c (Pipeline.arrRef spec0 4)

/-- z = A·W_l + b + X·W_r over all the nodes. -/
abbrev Z : Spec.NF.Idx → EReal := Spec.lin (arrA V c) (arrX V c) (arrWL V c) (arrB V c) (arrWR V c)

/-- z with a zero row for every row number past the last: sums over ranges of rows split at any row. -/
def Zn (r : ℕ) (q : Fin 128) : EReal := if h : r < 50000 then Z V c (ix2 (⟨r, h⟩ : Fin 50000) q) else 0

/-- The blocks of the five windows at a point. -/
abbrev blkA (t : Fin cfg0.N) : Vec Ideal S2000x128 .f32 := iblk0 V c 0 t
abbrev blkX (t : Fin cfg0.N) : Vec Ideal S2000x128 .f32 := iblk0 V c 1 t
abbrev blkWL (t : Fin cfg0.N) : Vec Ideal S128x128 .f32 := iblk0 V c 2 t
abbrev blkB (t : Fin cfg0.N) : Vec Ideal S1x128 .f32 := iblk0 V c 3 t
abbrev blkWR (t : Fin cfg0.N) : Vec Ideal S128x128 .f32 := iblk0 V c 4 t

/-- Row p of the block of point t is row 2000 t + p of the array. -/
abbrev row (t : Fin cfg0.N) (p : Fin 2000) : Fin 50000 :=
  ⟨2000 * t.val + p.val, by have hN : cfg0.N = 25 := N_0; have := t.isLt; have := p.isLt; omega⟩

/-- The block index of each window at each point: the row blocks move with the point, the weights, the bias
    and the two rows of sums stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem blkA_apply (t : Fin cfg0.N) (p : Fin 2000) (k : Fin 128) :
    blkA V c t (ix2 p k) = arrA V c (ix2 (row t p) k) := by
  obtain ⟨e0, e1, -⟩ := idx_facts0 t
  show iblk0 V c 0 t (ix2 p k) = _
  unfold iblk0
  rw [View.read_apply]
  refine congrArg (V c (Pipeline.arrRef spec0 0)) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

theorem blkX_apply (t : Fin cfg0.N) (p : Fin 2000) (k : Fin 128) :
    blkX V c t (ix2 p k) = arrX V c (ix2 (row t p) k) := by
  obtain ⟨-, -, e0, e1, -⟩ := idx_facts0 t
  show iblk0 V c 1 t (ix2 p k) = _
  unfold iblk0
  rw [View.read_apply]
  refine congrArg (V c (Pipeline.arrRef spec0 1)) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

theorem blkWL_apply (t : Fin cfg0.N) (k : Fin 128) (q : Fin 128) :
    blkWL V c t (ix2 k q) = arrWL V c (ix2 k q) := by
  obtain ⟨-, -, -, -, e0, e1, -⟩ := idx_facts0 t
  show iblk0 V c 2 t (ix2 k q) = _
  unfold iblk0
  rw [View.read_apply]
  refine congrArg (V c (Pipeline.arrRef spec0 2)) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blkB_apply (t : Fin cfg0.N) (u : Fin 1) (q : Fin 128) :
    blkB V c t (ix2 u q) = arrB V c (ix2 u q) := by
  obtain ⟨-, -, -, -, -, -, e0, e1, -⟩ := idx_facts0 t
  show iblk0 V c 3 t (ix2 u q) = _
  unfold iblk0
  rw [View.read_apply]
  refine congrArg (V c (Pipeline.arrRef spec0 3)) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

theorem blkWR_apply (t : Fin cfg0.N) (k : Fin 128) (q : Fin 128) :
    blkWR V c t (ix2 k q) = arrWR V c (ix2 k q) := by
  obtain ⟨-, -, -, -, -, -, -, -, e0, e1, -⟩ := idx_facts0 t
  show iblk0 V c 4 t (ix2 k q) = _
  unfold iblk0
  rw [View.read_apply]
  refine congrArg (V c (Pipeline.arrRef spec0 4)) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- z of the blocks of point t, at row p and feature q, is z of the arrays at row 2000 t + p. -/
theorem zblk_apply (t : Fin cfg0.N) (p : Fin 2000) (q : Fin 128) :
    k0_pay3 (F := Ideal) (blkA V c t) (blkX V c t) (blkWL V c t) (blkWR V c t) (blkB V c t) (ix2 p q) = Z V c (ix2 (row t p) q) := by
  refine (pay3_apply _ _ _ _ _ p q).trans ?_
  show _ = (∑ k : Fin 128, arrA V c (ix2 (row t p) k) * arrWL V c (ix2 k q)) + arrB V c (ix2 0 q)
      + ∑ k : Fin 128, arrX V c (ix2 (row t p) k) * arrWR V c (ix2 k q)
  refine congrArg₂ (· + ·) (congrArg₂ (· + ·) (Finset.sum_congr rfl fun k _ => ?_) ?_) (Finset.sum_congr rfl fun k _ => ?_)
  · exact congrArg₂ (· * ·) (blkA_apply V c t p k) (blkWL_apply V c t k q)
  · exact blkB_apply V c t 0 q
  · exact congrArg₂ (· * ·) (blkX_apply V c t p k) (blkWR_apply V c t k q)

theorem zblkn_apply (t : Fin cfg0.N) (p : Fin 2000) (q : Fin 128) :
    k0_pay3 (F := Ideal) (blkA V c t) (blkX V c t) (blkWL V c t) (blkWR V c t) (blkB V c t) (ix2 p q) = Zn V c (2000 * t.val + p.val) q := by
  refine (zblk_apply V c t p q).trans ?_
  unfold Zn
  rw [dif_pos (show 2000 * t.val + p.val < 50000 from (row t p).isLt)]

/-- After every point the z window's buffer holds z of that point's blocks. -/
theorem outs5 (t : Fin cfg0.N) :
    (outsAt0 V c t.val t.isLt).1 = k0_pay3 (F := Ideal) (blkA V c t) (blkX V c t) (blkWL V c t) (blkWR V c t) (blkB V c t) := by
  by_cases h : t.val % 25 = 0
  · rw [outsAt0_A V c t h]; dsimp only
    exact o5A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t) (iblk0 V c 4 t)
  · rw [outsAt0_B V c t h]; dsimp only
    exact o5B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h ((hcond0_0 t).mp hh)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- After point n the two rows hold the sums of z and of z² over the rows of the blocks 0 … n. -/
theorem outs67 (n : ℕ) : ∀ h : n < cfg0.N,
    (∀ (u : Fin 1) (q : Fin 128), (outsAt0 V c n h).2.1 (ix2 u q) = ∑ r ∈ Finset.range (2000 * (n + 1)), Zn V c r q)
    ∧ (∀ (u : Fin 1) (q : Fin 128), (outsAt0 V c n h).2.2 (ix2 u q) = ∑ r ∈ Finset.range (2000 * (n + 1)), Zn V c r q * Zn V c r q) := by
  induction n with
  | zero =>
    intro h
    rw [outsAt0_A V c (⟨0, h⟩ : Fin cfg0.N) rfl]; dsimp only
    constructor
    · intro u q
      refine (congrFun (o6A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))) (ix2 u q)).trans ?_
      refine (pay4_apply _ _ _ _ _ _ u q).trans ?_
      rw [pay1_apply, zero_add, Finset.sum_range]
      refine Finset.sum_congr rfl fun p _ => ?_
      refine (zblkn_apply V c (⟨0, h⟩ : Fin cfg0.N) p q).trans ?_
      show Zn V c (2000 * 0 + p.val) q = Zn V c p.val q
      rw [Nat.mul_zero, Nat.zero_add]
    · intro u q
      refine (congrFun (o7A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))) (ix2 u q)).trans ?_
      refine (pay5_apply _ _ _ _ _ _ u q).trans ?_
      rw [pay2_apply, zero_add, Finset.sum_range]
      refine Finset.sum_congr rfl fun p _ => ?_
      have e := (zblkn_apply V c (⟨0, h⟩ : Fin cfg0.N) p q).trans (show Zn V c (2000 * 0 + p.val) q = Zn V c p.val q by rw [Nat.mul_zero, Nat.zero_add])
      exact congrArg₂ (· * ·) e e
  | succ n ih =>
    intro h
    have hN : cfg0.N = 25 := N_0
    have hB : ¬(⟨n + 1, h⟩ : Fin cfg0.N).val % 25 = 0 := by dsimp only; omega
    obtain ⟨ih1, ih2⟩ := ih (Nat.lt_of_succ_lt h)
    rw [outsAt0_B V c (⟨n + 1, h⟩ : Fin cfg0.N) hB]; dsimp only
    have hsplit : 2000 * (n + 1 + 1) = 2000 * (n + 1) + 2000 := by omega
    constructor
    · intro u q
      refine (congrFun (o6B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 u q)).trans ?_
      refine (pay4_apply _ _ _ _ _ _ u q).trans ?_
      rw [hsplit, Finset.sum_range_add, Finset.sum_range (fun x => Zn V c (2000 * (n + 1) + x) q)]
      exact congrArg₂ (· + ·) (ih1 u q) (Finset.sum_congr rfl fun p _ => zblkn_apply V c (⟨n + 1, h⟩ : Fin cfg0.N) p q)
    · intro u q
      refine (congrFun (o7B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 u q)).trans ?_
      refine (pay5_apply _ _ _ _ _ _ u q).trans ?_
      rw [hsplit, Finset.sum_range_add, Finset.sum_range (fun x => Zn V c (2000 * (n + 1) + x) q * Zn V c (2000 * (n + 1) + x) q)]
      exact congrArg₂ (· + ·) (ih2 u q) (Finset.sum_congr rfl fun p _ =>
        congrArg₂ (· * ·) (zblkn_apply V c (⟨n + 1, h⟩ : Fin cfg0.N) p q) (zblkn_apply V c (⟨n + 1, h⟩ : Fin cfg0.N) p q))

/-- What point t writes back of the z window is block t of z of the arrays. -/
theorem flushed5 (t : Fin cfg0.N) :
    (dat0 V c).flushed 5 t = ((cfg0.win 5).blk t).view.read (Elt Ideal) (Z V c) := by
  obtain ⟨-, -, -, -, -, -, -, -, -, -, e0, e1, -⟩ := idx_facts0 t
  show (cfg0.win 5).cut (grid0.coords t) ((dat0 V c).after 5 t) = _
  rw [after0_5, outs5 V c t]
  funext j
  obtain ⟨p, q, rfl⟩ : ∃ (p : Fin 2000) (q : Fin 128), j = ix2 p q := ⟨j 0, j 1, eq_ix2 (n0 := 2000) (n1 := 128) j⟩
  show k0_pay3 (F := Ideal) (blkA V c t) (blkX V c t) (blkWL V c t) (blkWR V c t) (blkB V c t) (ix2 p q) = Z V c (((cfg0.win 5).blk t).view.emb (ix2 p q))
  refine (zblk_apply V c t p q).trans (congrArg (Z V c) (funext fun a => Fin.ext ?_))
  match a with
  | ⟨0, _⟩ => show 2000 * t.val + p.val = win0_5.index t (0 : Fin 2) * 2000 + 1 * p.val; omega
  | ⟨1, _⟩ => show q.val = win0_5.index t (1 : Fin 2) * 128 + 1 * q.val; omega

/-- The row of sums is written back once, after the last point, when it holds the sums over all the rows. -/
theorem cut6 (t : Fin cfg0.N) (X : Vec Ideal S1x128 .f32) (u : Fin 1) (q : Fin 128) :
    (cfg0.win 6).cut (grid0.coords t) X (ix2 u q) = X (ix2 u q) :=
  congrArg X (funext fun a => Fin.ext (by match a with | ⟨0, _⟩ => rfl | ⟨1, _⟩ => rfl))

/-- The one block of a row window is the whole row: read through it, a row is itself. -/
theorem read6 (t : Fin cfg0.N) (G : Spec.R1F.Idx → EReal) (u : Fin 1) (q : Fin 128) :
    ((cfg0.win 6).blk t).view.read (Elt Ideal) G (ix2 u q) = G (ix2 0 q) := by
  have e0 : win0_6.index t (0 : Fin 2) = 0 := by have := idx_facts0 t; omega
  have e1 : win0_6.index t (1 : Fin 2) = 0 := by have := idx_facts0 t; omega
  rw [View.read_apply]
  refine congrArg G (funext fun a => Fin.ext ?_)
  match a with
  | ⟨0, _⟩ => show win0_6.index t (0 : Fin 2) * 1 + 1 * u.val = 0; omega
  | ⟨1, _⟩ => show win0_6.index t (1 : Fin 2) * 128 + 1 * q.val = q.val; omega

theorem flushed6 (t : Fin cfg0.N) (hf : (cfg0.win 6).flush t = true) :
    (dat0 V c).flushed 6 t = ((cfg0.win 6).blk t).view.read (Elt Ideal) (Spec.colsum (Z V c)) := by
  have hN : cfg0.N = 25 := N_0
  have h24 : t.val = 24 := by have := (flush0_6 t).mp hf; have := t.isLt; omega
  show (cfg0.win 6).cut (grid0.coords t) ((dat0 V c).after 6 t) = _
  rw [after0_6]
  funext j
  obtain ⟨u, q, rfl⟩ : ∃ (u : Fin 1) (q : Fin 128), j = ix2 u q := ⟨j 0, j 1, eq_ix2 (n0 := 1) (n1 := 128) j⟩
  refine (cut6 t (outsAt0 V c t.val t.isLt).2.1 u q).trans ?_
  refine Eq.trans ?_ (read6 t (Spec.colsum (Z V c)) u q).symm
  refine ((outs67 V c t.val t.isLt).1 u q).trans ?_
  rw [show 2000 * (t.val + 1) = 50000 by omega, Finset.sum_range]
  unfold Spec.colsum
  refine Finset.sum_congr rfl fun r _ => ?_
  have e : Zn V c r.val q = Z V c (ix2 r q) := by
    unfold Zn
    exact (dif_pos r.isLt).trans rfl
  exact e

/-- Likewise the row of sums of squares. -/
theorem cut7 (t : Fin cfg0.N) (X : Vec Ideal S1x128 .f32) (u : Fin 1) (q : Fin 128) :
    (cfg0.win 7).cut (grid0.coords t) X (ix2 u q) = X (ix2 u q) :=
  congrArg X (funext fun a => Fin.ext (by match a with | ⟨0, _⟩ => rfl | ⟨1, _⟩ => rfl))

/-- The one block of a row window is the whole row: read through it, a row is itself. -/
theorem read7 (t : Fin cfg0.N) (G : Spec.R1F.Idx → EReal) (u : Fin 1) (q : Fin 128) :
    ((cfg0.win 7).blk t).view.read (Elt Ideal) G (ix2 u q) = G (ix2 0 q) := by
  have e0 : win0_7.index t (0 : Fin 2) = 0 := by have := idx_facts0 t; omega
  have e1 : win0_7.index t (1 : Fin 2) = 0 := by have := idx_facts0 t; omega
  rw [View.read_apply]
  refine congrArg G (funext fun a => Fin.ext ?_)
  match a with
  | ⟨0, _⟩ => show win0_7.index t (0 : Fin 2) * 1 + 1 * u.val = 0; omega
  | ⟨1, _⟩ => show win0_7.index t (1 : Fin 2) * 128 + 1 * q.val = q.val; omega

theorem flushed7 (t : Fin cfg0.N) (hf : (cfg0.win 7).flush t = true) :
    (dat0 V c).flushed 7 t = ((cfg0.win 7).blk t).view.read (Elt Ideal) (Spec.colsumsq (Z V c)) := by
  have hN : cfg0.N = 25 := N_0
  have h24 : t.val = 24 := by have := (flush0_7 t).mp hf; have := t.isLt; omega
  show (cfg0.win 7).cut (grid0.coords t) ((dat0 V c).after 7 t) = _
  rw [after0_7]
  funext j
  obtain ⟨u, q, rfl⟩ : ∃ (u : Fin 1) (q : Fin 128), j = ix2 u q := ⟨j 0, j 1, eq_ix2 (n0 := 1) (n1 := 128) j⟩
  refine (cut7 t (outsAt0 V c t.val t.isLt).2.2 u q).trans ?_
  refine Eq.trans ?_ (read7 t (Spec.colsumsq (Z V c)) u q).symm
  refine ((outs67 V c t.val t.isLt).2 u q).trans ?_
  rw [show 2000 * (t.val + 1) = 50000 by omega, Finset.sum_range]
  unfold Spec.colsumsq
  refine Finset.sum_congr rfl fun r _ => ?_
  have e : Zn V c r.val q = Z V c (ix2 r q) := by
    unfold Zn
    exact (dif_pos r.isLt).trans rfl
  exact congrArg₂ (· * ·) e e

end Region

end lin0

open lin0

/-- The z array after the region: row r lies in the block of point r / 2000, and every point writes its block back. -/
theorem z0 (V : Vals) (c : Dev nD) :
    (dat0 (F := Ideal) V c).arrAt 5 cfg0.N
      = Spec.lin (V c (Pipeline.arrRef spec0 0)) (V c (Pipeline.arrRef spec0 1)) (V c (Pipeline.arrRef spec0 2))
          (V c (Pipeline.arrRef spec0 3)) (V c (Pipeline.arrRef spec0 4)) := by
  refine (dat0 V c).arrAt_eq_of_cover 5 (Z V c) (fun t _ => flushed5 V c t) fun i => ?_
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, -, -, -, -, e0, e1, -⟩ := idx_facts0 t
  refine ⟨t, flush0_5 t, ?_⟩
  show i ∈ ((View.whole main_v23_0).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The row of sums after the region: its one block is the whole row, written back after the last point. -/
theorem s0 (V : Vals) (c : Dev nD) :
    (dat0 (F := Ideal) V c).arrAt 6 cfg0.N
      = Spec.colsum (Spec.lin (V c (Pipeline.arrRef spec0 0)) (V c (Pipeline.arrRef spec0 1)) (V c (Pipeline.arrRef spec0 2))
          (V c (Pipeline.arrRef spec0 3)) (V c (Pipeline.arrRef spec0 4))) := by
  refine (dat0 V c).arrAt_eq_of_cover 6 (Spec.colsum (Z V c)) (fun t hf => flushed6 V c t hf) fun i => ?_
  have hN : cfg0.N = 25 := N_0
  have hi0 : (i 0).val < 1 := (i 0).isLt
  have hi1 : (i 1).val < 128 := (i 1).isLt
  obtain ⟨t, ht⟩ : ∃ t : Fin cfg0.N, t.val = 24 := ⟨⟨24, by omega⟩, rfl⟩
  obtain ⟨-, -, -, -, -, -, -, -, -, -, -, -, e0, e1, -⟩ := idx_facts0 t
  refine ⟨t, (flush0_6 t).mpr (by omega), ?_⟩
  show i ∈ ((View.whole main_v23_1).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

/-- The row of sums of squares after the region. -/
theorem ss0 (V : Vals) (c : Dev nD) :
    (dat0 (F := Ideal) V c).arrAt 7 cfg0.N
      = Spec.colsumsq (Spec.lin (V c (Pipeline.arrRef spec0 0)) (V c (Pipeline.arrRef spec0 1)) (V c (Pipeline.arrRef spec0 2))
          (V c (Pipeline.arrRef spec0 3)) (V c (Pipeline.arrRef spec0 4))) := by
  refine (dat0 V c).arrAt_eq_of_cover 7 (Spec.colsumsq (Z V c)) (fun t hf => flushed7 V c t hf) fun i => ?_
  have hN : cfg0.N = 25 := N_0
  have hi0 : (i 0).val < 1 := (i 0).isLt
  have hi1 : (i 1).val < 128 := (i 1).isLt
  obtain ⟨t, ht⟩ : ∃ t : Fin cfg0.N, t.val = 24 := ⟨⟨24, by omega⟩, rfl⟩
  obtain ⟨-, -, -, -, -, -, -, -, -, -, -, -, -, -, e0, e1⟩ := idx_facts0 t
  refine ⟨t, (flush0_7 t).mpr (by omega), ?_⟩
  show i ∈ ((View.whole main_v23_2).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

end Cert.KernelIdeal.KV

end
-- ==== Proof.Norm1.lean ====
/-
  Region 1 of the kernel, read as a value: each of the ten grid points writes back its 5000-row block of
  h = max (z · scale + shift) 0, the scale and shift rows read whole; the blocks tile the rows, so after the region the
  output array is that function of the three input arrays, index by index.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

theorem zero_off1 : (![0, 0] : Fin 2 → Nat) = fun _ => 0 := funext fun a => by fin_cases a <;> rfl

/-- The body's result at row p, feature q of a block: max (z · scale + shift) 0, the scale and shift rows read at the feature. -/
theorem out1_3_apply (x0 : Vec Ideal S5000x128 .f32) (x1 x2 : Vec Ideal S1x128 .f32) (p : Fin 5000) (q : Fin 128) :
    out1_3 x0 x1 x2 (ix2 p q) = max (x0 (ix2 p q) * x1 (ix2 0 q) + x2 (ix2 0 q)) 0 := by
  unfold out1_3
  rw [View.canon_unit_zero zero_off1]
  simp only [View.ld_unit_zero (S := S5000x128) zero_off1, View.ld_unit_zero (S := S1x128) zero_off1]
  unfold k1_pay1
  simp only [shapeCast_self]
  rw [maximumf_apply, addf_apply, mulf_apply, broadcast_apply,
    broadcastTo_apply x1 _ (ix2 p q) (ix2 0 q) (fun a => by match a with | ⟨0, _⟩ => rfl | ⟨1, _⟩ => rfl),
    broadcastTo_apply x2 _ (ix2 p q) (ix2 0 q) (fun a => by match a with | ⟨0, _⟩ => rfl | ⟨1, _⟩ => rfl)]
  show max (x0 (ix2 p q) * x1 (ix2 0 q) + x2 (ix2 0 q)) (Ideal.ofBits .f32 0x00000000#32) = _
  rw [Ideal.ofBits_zero_f32]

/-- The printed index maps over the grid's ten points: the z block and the output block are block t of the rows; the scale
    and shift rows are whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a block: if the z block reads the array at i and the scale and shift blocks read their rows at i's feature,
    the body's result there is the normalised, rectified entry of the array at i. -/
theorem blk_point1 (A0 : Spec.NF.Idx → EReal) (A1 A2 : Spec.R1F.Idx → EReal)
    (x0 : Vec Ideal S5000x128 .f32) (x1 x2 : Vec Ideal S1x128 .f32) (p : Fin 5000) (q : Fin 128) (i : Spec.NF.Idx)
    (h0 : x0 (ix2 p q) = A0 i) (h1 : x1 (ix2 0 q) = A1 (ix2 0 (i 1))) (h2 : x2 (ix2 0 q) = A2 (ix2 0 (i 1))) :
    out1_3 x0 x1 x2 (ix2 p q) = Spec.normRelu A0 A1 A2 i := by
  rw [out1_3_apply, h0, h1, h2]
  rfl

/-- What point t writes back is block t of the normalised, rectified array. -/
theorem flushed1_eq (V : Vals) (c : Dev nD) (t : Fin cfg1.N) :
    (dat1 (F := Ideal) V c).flushed 3 t = ((cfg1.win 3).blk t).view.read (Elt Ideal)
      (Spec.normRelu (V c (Pipeline.arrRef spec1 0)) (V c (Pipeline.arrRef spec1 1)) (V c (Pipeline.arrRef spec1 2))) := by
  show (cfg1.win 3).cut (grid1.coords t) ((dat1 V c).after 3 t) = _
  rw [after1_3]
  obtain ⟨e00, e01, e10, e11, e20, e21, e30, e31⟩ := idx_facts1 t
  funext j
  obtain ⟨p, q, rfl⟩ : ∃ (p : Fin 5000) (q : Fin 128), j = ix2 p q := ⟨j 0, j 1, eq_ix2 j⟩
  show out1_3 (iblk1 V c 0 t) (iblk1 V c 1 t) (iblk1 V c 2 t) (ix2 p q)
    = Spec.normRelu (V c (Pipeline.arrRef spec1 0)) (V c (Pipeline.arrRef spec1 1)) (V c (Pipeline.arrRef spec1 2))
        (((cfg1.win 3).blk t).view.emb (ix2 p q))
  refine blk_point1 _ _ _ (iblk1 V c 0 t) (iblk1 V c 1 t) (iblk1 V c 2 t) p q (((cfg1.win 3).blk t).view.emb (ix2 p q)) ?_ ?_ ?_
  · -- the z block sits where the output block sits
    show V c (Pipeline.arrRef spec1 0) (((cfg1.win 0).blk t).view.emb (ix2 p q))
      = V c (Pipeline.arrRef spec1 0) (((cfg1.win 3).blk t).view.emb (ix2 p q))
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  · -- the scale row is whole: its block's feature q is the array's feature q
    show V c (Pipeline.arrRef spec1 1) (((cfg1.win 1).blk t).view.emb (ix2 0 q))
      = V c (Pipeline.arrRef spec1 1) (ix2 0 ((((cfg1.win 3).blk t).view.emb (ix2 p q)) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  · -- the shift row likewise
    show V c (Pipeline.arrRef spec1 2) (((cfg1.win 2).blk t).view.emb (ix2 0 q))
      = V c (Pipeline.arrRef spec1 2) (ix2 0 ((((cfg1.win 3).blk t).view.emb (ix2 p q)) 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v40).slice (win1_3.rect t)).set ↔ _
  rw [View.set_slice_whole, Rect.mem_set_unit]
  exact Iff.rfl

/-- Row r of the array lies in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk1]
  obtain ⟨-, -, -, -, -, -, e30, e31⟩ := idx_facts1 t
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 128 ≤ (i 1).val ∧ (i 1).val < win1_3.index t (1 : Fin 2) * 128 + 128
    rw [e31]; omega

theorem h1 (V : Vals) (c : Dev nD) :
    (dat1 (F := Ideal) V c).arrAt 3 cfg1.N
      = Spec.normRelu (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.KV

end
-- ==== Proof.Lin2.lean ====
/-
  The second linear layer with its column statistics, read off the pipeline's point-by-point contents: the
  same kernel as the first layer's, at the hidden features.

  The grid has 25 points; point t stages rows 2000 t … 2000 t + 1999 of the neighbour averages A and of the
  node features X, and the whole of W_l, b and W_r. At every point the body leaves in the z window
      z = A·W_l + b + X·W_r        (two products from the zero accumulator and a broadcast row, added)
  of its blocks, and adds to two rows, zeroed at point 0 and never written back before the last point, the
  block's column sums of z and of z² (the squares row is the stored row plus the block's column sums of z²,
  the two operands of its last addition). So after point n the two rows hold the sums over rows
  0 … 2000 (n+1) − 1 (induction on the point; the sums are split at a block boundary), and after the last
  point over all 50000 rows. The z window's blocks tile the array (row r is in the block of point r / 2000);
  the two rows' one block is the whole row.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

namespace lin2

section Pieces
variable {F : FTy → Type} [FloatOps F]

theorem hz : (![0, 0] : Fin 2 → Nat) = fun _ => 0 := funext fun a => by fin_cases a <;> rfl

theorem o5A (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S2000x128 .f32) (x2 : Vec F S128x128 .f32) (x3 : Vec F S1x128 .f32) (x4 : Vec F S128x128 .f32) :
    out2_A_5 c i a1 h1 a2 h2 a3 h3 a4 h4 a5 h5 a6 h6 a7 h7 a8 h8 hc x0 x1 x2 x3 x4 = k2_pay4 x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S128x128) hz, View.ld_unit_zero (S := S1x128) hz]

theorem o6A (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S2000x128 .f32) (x2 : Vec F S128x128 .f32) (x3 : Vec F S1x128 .f32) (x4 : Vec F S128x128 .f32) :
    out2_A_6 c i a1 h1 a2 h2 a3 h3 a4 h4 a5 h5 a6 h6 a7 h7 a8 h8 hc x0 x1 x2 x3 x4 = k2_pay5 x0 x1 x2 x4 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread, View.readCov_unit_zero (S := S1x128) _ hz,
    View.ld_unit_zero (S := S2000x128) hz, View.ld_unit_zero (S := S128x128) hz, View.ld_unit_zero (S := S1x128) hz]

theorem o7A (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S2000x128 .f32) (x2 : Vec F S128x128 .f32) (x3 : Vec F S1x128 .f32) (x4 : Vec F S128x128 .f32) :
    out2_A_7 c i a1 h1 a2 h2 a3 h3 a4 h4 a5 h5 a6 h6 a7 h7 a8 h8 hc x0 x1 x2 x3 x4 = k2_pay1 (k2_pay6 (k2_pay3 (F := F))) (k2_pay7 x0 x1 x2 x4 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread, View.readCov_unit_zero (S := S1x128) _ hz,
    View.ld_unit_zero (S := S2000x128) hz, View.ld_unit_zero (S := S128x128) hz, View.ld_unit_zero (S := S1x128) hz]

theorem o5B (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S2000x128 .f32) (x2 : Vec F S128x128 .f32) (x3 : Vec F S1x128 .f32) (x4 : Vec F S128x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

theorem o6B (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S2000x128 .f32) (x2 : Vec F S128x128 .f32) (x3 : Vec F S1x128 .f32) (x4 : Vec F S128x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

theorem o7B (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S2000x128 .f32) (x2 : Vec F S128x128 .f32) (x3 : Vec F S1x128 .f32) (x4 : Vec F S128x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x4 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S2000x128) hz, View.ld_unit_zero (S := S128x128) hz, View.ld_unit_zero (S := S1x128) hz]

end Pieces

section AtIdeal

theorem lhsD_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsD_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsD_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsD_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times a weight matrix, from the zero accumulator, at row p and feature q:
    the sum over the 128 inner features of the products. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsD_0 _ _
    | ⟨1, _⟩ => exact (lhsD_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsD_0 _ _).trans hk
    | ⟨1, _⟩ => exact rhsD_1 _ _)
  rw [el, er]

/-- The reduced feature q with row k put back is the index (k, q). -/
theorem lift_row (h : S2000x128.Reduces [0] S128) (q : Fin 128) (k : Fin (S2000x128.size 0)) :
    h.lift (ix1 q) k = ix2 (⟨k.val, k.isLt⟩ : Fin 2000) q := by
  funext c; apply Fin.ext
  fin_cases c <;> rfl

/-- The sum of a block over its rows, at feature q. -/
theorem colred_apply (src : FVec Ideal S2000x128 .f32) (hφ : FKind.Formats .f32)
    (hacc : (0x00000000#32 : BitVec (FTy.bits .f32)) = 0x00000000#32) (q : Fin 128) :
    multiReduction (F := Ideal) .add [0] S128 src 0x00000000#32 reduces_S2000x128_S128 hφ hacc (ix1 q)
      = ∑ p : Fin 2000, src (ix2 p q) := by
  refine (Ideal.multiReduction_add_single src 0x00000000#32 reduces_S2000x128_S128 hφ hacc (ix1 q)).trans ?_
  exact Finset.sum_congr rfl fun k _ => congrArg src (lift_row reduces_S2000x128_S128 q k)

/-- z at row p, feature q of a block: A·W_l + b + X·W_r. -/
theorem z_apply (v3 v6 : Vec Ideal S2000x128 .f32) (v9 v11 : Vec Ideal S128x128 .f32) (v14 : Vec Ideal S1x128 .f32) (p : Fin 2000) (q : Fin 128) :
    k2_pay4 (F := Ideal) v3 v6 v9 v11 v14 (ix2 p q)
      = (∑ k : Fin 128, v3 (ix2 p k) * v9 (ix2 k q)) + v14 (ix2 0 q) + ∑ k : Fin 128, v6 (ix2 p k) * v11 (ix2 k q) := by
  unfold k2_pay4
  rw [shapeCast_self, shapeCast_self, shapeCast_self]
  refine (addf_apply _ _ (ix2 p q)).trans ?_
  refine congrArg₂ (· + ·) ((addf_apply _ _ (ix2 p q)).trans (congrArg₂ (· + ·) ?_ ?_)) ?_
  · exact mm_apply _ _ p q
  · exact broadcastTo_1b_ab_apply v14 broadcasts_S1x128_S2000x128 p q
  · exact mm_apply _ _ p q

/-- The running row of sums after a block: what was stored, plus the block's column sums of z. -/
theorem sum_apply (v3 v6 : Vec Ideal S2000x128 .f32) (v9 v11 : Vec Ideal S128x128 .f32) (v14 : Vec Ideal S1x128 .f32) (v21 : Vec Ideal S1x128 .f32) (u : Fin 1) (q : Fin 128) :
    k2_pay5 (F := Ideal) v3 v6 v9 v11 v14 v21 (ix2 u q)
      = v21 (ix2 u q) + ∑ p : Fin 2000, k2_pay4 (F := Ideal) v3 v6 v9 v11 v14 (ix2 p q) := by
  unfold k2_pay5
  rw [shapeCast_self]
  refine (addf_apply _ _ (ix2 u q)).trans (congrArg (fun x => v21 (ix2 u q) + x) ?_)
  refine (shapeCast_a_1a_apply _ shapeCasts_S128_S1x128 u q).trans ?_
  exact colred_apply _ _ _ q

/-- The block's column sums of z². -/
theorem sqcol_apply (v3 v6 : Vec Ideal S2000x128 .f32) (v9 v11 : Vec Ideal S128x128 .f32) (v14 : Vec Ideal S1x128 .f32) (u : Fin 1) (q : Fin 128) :
    k2_pay7 (F := Ideal) v3 v6 v9 v11 v14 (ix2 u q)
      = ∑ p : Fin 2000, k2_pay4 (F := Ideal) v3 v6 v9 v11 v14 (ix2 p q) * k2_pay4 (F := Ideal) v3 v6 v9 v11 v14 (ix2 p q) := by
  unfold k2_pay7
  refine (shapeCast_a_1a_apply _ shapeCasts_S128_S1x128 u q).trans ?_
  exact colred_apply _ _ _ q

/-- The running row of sums of squares after a block: what was stored, plus the block's column sums of z². -/
theorem sq_apply (v3 v6 : Vec Ideal S2000x128 .f32) (v9 v11 : Vec Ideal S128x128 .f32) (v14 : Vec Ideal S1x128 .f32) (v27 : Vec Ideal S1x128 .f32) (u : Fin 1) (q : Fin 128) :
    k2_pay1 (F := Ideal) (k2_pay6 (F := Ideal) v27) (k2_pay7 (F := Ideal) v3 v6 v9 v11 v14) (ix2 u q)
      = v27 (ix2 u q) + ∑ p : Fin 2000, k2_pay4 (F := Ideal) v3 v6 v9 v11 v14 (ix2 p q) * k2_pay4 (F := Ideal) v3 v6 v9 v11 v14 (ix2 p q) := by
  unfold k2_pay1 k2_pay6
  rw [shapeCast_self]
  exact (addf_apply _ _ (ix2 u q)).trans (congrArg (fun x => v27 (ix2 u q) + x) (sqcol_apply v3 v6 v9 v11 v14 u q))

/-- The reset rows are zero. -/
theorem zero1_apply (j : S1x128.Idx) : k2_pay2 (F := Ideal) j = 0 := Ideal.ofBits_zero_f32
theorem zero2_apply (j : S1x128.Idx) : k2_pay3 (F := Ideal) j = 0 := Ideal.ofBits_zero_f32

end AtIdeal

section Region
variable (V : Vals) (c : Dev nD)

/-- The five arrays as the region finds them: the neighbour averages, the node features, W_l, b, W_r. -/
abbrev arrA : Spec.NF.Idx → EReal := V c (Pipeline.arrRef spec2 0)
abbrev arrX : Spec.NF.Idx → EReal := V c (Pipeline.arrRef spec2 1)
abbrev arrWL : Spec.FF.Idx → EReal := V c (Pipeline.arrRef spec2 2)
abbrev arrB : Spec.R1F.Idx → EReal := V c (Pipeline.arrRef spec2 3)
abbrev arrWR : Spec.FF.Idx → EReal := V c (Pipeline.arrRef spec2 4)

/-- z = A·W_l + b + X·W_r over all the nodes. -/
abbrev Z : Spec.NF.Idx → EReal := Spec.lin (arrA V c) (arrX V c) (arrWL V c) (arrB V c) (arrWR V c)

/-- z with a zero row for every row number past the last: sums over ranges of rows split at any row. -/
def Zn (r : ℕ) (q : Fin 128) : EReal := if h : r < 50000 then Z V c (ix2 (⟨r, h⟩ : Fin 50000) q) else 0

/-- The blocks of the five windows at a point. -/
abbrev blkA (t : Fin cfg2.N) : Vec Ideal S2000x128 .f32 := iblk2 V c 0 t
abbrev blkX (t : Fin cfg2.N) : Vec Ideal S2000x128 .f32 := iblk2 V c 1 t
abbrev blkWL (t : Fin cfg2.N) : Vec Ideal S128x128 .f32 := iblk2 V c 2 t
abbrev blkB (t : Fin cfg2.N) : Vec Ideal S1x128 .f32 := iblk2 V c 3 t
abbrev blkWR (t : Fin cfg2.N) : Vec Ideal S128x128 .f32 := iblk2 V c 4 t

/-- Row p of the block of point t is row 2000 t + p of the array. -/
abbrev row (t : Fin cfg2.N) (p : Fin 2000) : Fin 50000 :=
  ⟨2000 * t.val + p.val, by have hN : cfg2.N = 25 := N_2; have := t.isLt; have := p.isLt; omega⟩

/-- The block index of each window at each point: the row blocks move with the point, the weights, the bias
    and the two rows of sums stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem blkA_apply (t : Fin cfg2.N) (p : Fin 2000) (k : Fin 128) :
    blkA V c t (ix2 p k) = arrA V c (ix2 (row t p) k) := by
  obtain ⟨e0, e1, -⟩ := idx_facts2 t
  show iblk2 V c 0 t (ix2 p k) = _
  unfold iblk2
  rw [View.read_apply]
  refine congrArg (V c (Pipeline.arrRef spec2 0)) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

theorem blkX_apply (t : Fin cfg2.N) (p : Fin 2000) (k : Fin 128) :
    blkX V c t (ix2 p k) = arrX V c (ix2 (row t p) k) := by
  obtain ⟨-, -, e0, e1, -⟩ := idx_facts2 t
  show iblk2 V c 1 t (ix2 p k) = _
  unfold iblk2
  rw [View.read_apply]
  refine congrArg (V c (Pipeline.arrRef spec2 1)) (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * k.val = k.val; omega

theorem blkWL_apply (t : Fin cfg2.N) (k : Fin 128) (q : Fin 128) :
    blkWL V c t (ix2 k q) = arrWL V c (ix2 k q) := by
  obtain ⟨-, -, -, -, e0, e1, -⟩ := idx_facts2 t
  show iblk2 V c 2 t (ix2 k q) = _
  unfold iblk2
  rw [View.read_apply]
  refine congrArg (V c (Pipeline.arrRef spec2 2)) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem blkB_apply (t : Fin cfg2.N) (u : Fin 1) (q : Fin 128) :
    blkB V c t (ix2 u q) = arrB V c (ix2 u q) := by
  obtain ⟨-, -, -, -, -, -, e0, e1, -⟩ := idx_facts2 t
  show iblk2 V c 3 t (ix2 u q) = _
  unfold iblk2
  rw [View.read_apply]
  refine congrArg (V c (Pipeline.arrRef spec2 3)) (funext fun a => Fin.ext ?_)
  match a with
  | ⟨0, _⟩ => show win2_3.index t (0 : Fin 2) * 1 + 1 * u.val = u.val; omega
  | ⟨1, _⟩ => show win2_3.index t (1 : Fin 2) * 128 + 1 * q.val = q.val; omega

theorem blkWR_apply (t : Fin cfg2.N) (k : Fin 128) (q : Fin 128) :
    blkWR V c t (ix2 k q) = arrWR V c (ix2 k q) := by
  obtain ⟨-, -, -, -, -, -, -, -, e0, e1, -⟩ := idx_facts2 t
  show iblk2 V c 4 t (ix2 k q) = _
  unfold iblk2
  rw [View.read_apply]
  refine congrArg (V c (Pipeline.arrRef spec2 4)) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- z of the blocks of point t, at row p and feature q, is z of the arrays at row 2000 t + p. -/
theorem zblk_apply (t : Fin cfg2.N) (p : Fin 2000) (q : Fin 128) :
    k2_pay4 (F := Ideal) (blkA V c t) (blkX V c t) (blkWL V c t) (blkWR V c t) (blkB V c t) (ix2 p q) = Z V c (ix2 (row t p) q) := by
  refine (z_apply _ _ _ _ _ p q).trans ?_
  show _ = (∑ k : Fin 128, arrA V c (ix2 (row t p) k) * arrWL V c (ix2 k q)) + arrB V c (ix2 0 q)
      + ∑ k : Fin 128, arrX V c (ix2 (row t p) k) * arrWR V c (ix2 k q)
  refine congrArg₂ (· + ·) (congrArg₂ (· + ·) (Finset.sum_congr rfl fun k _ => ?_) ?_) (Finset.sum_congr rfl fun k _ => ?_)
  · exact congrArg₂ (· * ·) (blkA_apply V c t p k) (blkWL_apply V c t k q)
  · exact blkB_apply V c t 0 q
  · exact congrArg₂ (· * ·) (blkX_apply V c t p k) (blkWR_apply V c t k q)

theorem zblkn_apply (t : Fin cfg2.N) (p : Fin 2000) (q : Fin 128) :
    k2_pay4 (F := Ideal) (blkA V c t) (blkX V c t) (blkWL V c t) (blkWR V c t) (blkB V c t) (ix2 p q) = Zn V c (2000 * t.val + p.val) q := by
  refine (zblk_apply V c t p q).trans ?_
  unfold Zn
  rw [dif_pos (show 2000 * t.val + p.val < 50000 from (row t p).isLt)]

/-- After every point the z window's buffer holds z of that point's blocks. -/
theorem outs5 (t : Fin cfg2.N) :
    (outsAt2 V c t.val t.isLt).1 = k2_pay4 (F := Ideal) (blkA V c t) (blkX V c t) (blkWL V c t) (blkWR V c t) (blkB V c t) := by
  by_cases h : t.val % 25 = 0
  · rw [outsAt2_A V c t h]; dsimp only
    exact o5A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h) (iblk2 V c 0 t) (iblk2 V c 1 t) (iblk2 V c 2 t) (iblk2 V c 3 t) (iblk2 V c 4 t)
  · rw [outsAt2_B V c t h]; dsimp only
    exact o5B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hh => h ((hcond2_0 t).mp hh)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2

/-- After point n the two rows hold the sums of z and of z² over the rows of the blocks 0 … n. -/
theorem outs67 (n : ℕ) : ∀ h : n < cfg2.N,
    (∀ (u : Fin 1) (q : Fin 128), (outsAt2 V c n h).2.1 (ix2 u q) = ∑ r ∈ Finset.range (2000 * (n + 1)), Zn V c r q)
    ∧ (∀ (u : Fin 1) (q : Fin 128), (outsAt2 V c n h).2.2 (ix2 u q) = ∑ r ∈ Finset.range (2000 * (n + 1)), Zn V c r q * Zn V c r q) := by
  induction n with
  | zero =>
    intro h
    rw [outsAt2_A V c (⟨0, h⟩ : Fin cfg2.N) rfl]; dsimp only
    constructor
    · intro u q
      refine (congrFun (o6A (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr rfl) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))) (ix2 u q)).trans ?_
      refine (sum_apply _ _ _ _ _ _ u q).trans ?_
      rw [zero1_apply, zero_add, Finset.sum_range]
      refine Finset.sum_congr rfl fun p _ => ?_
      refine (zblkn_apply V c (⟨0, h⟩ : Fin cfg2.N) p q).trans ?_
      show Zn V c (2000 * 0 + p.val) q = Zn V c p.val q
      rw [Nat.mul_zero, Nat.zero_add]
    · intro u q
      refine (congrFun (o7A (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr rfl) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))) (ix2 u q)).trans ?_
      refine (sq_apply _ _ _ _ _ _ u q).trans ?_
      rw [zero2_apply, zero_add, Finset.sum_range]
      refine Finset.sum_congr rfl fun p _ => ?_
      have e := (zblkn_apply V c (⟨0, h⟩ : Fin cfg2.N) p q).trans (show Zn V c (2000 * 0 + p.val) q = Zn V c p.val q by rw [Nat.mul_zero, Nat.zero_add])
      exact congrArg₂ (· * ·) e e
  | succ n ih =>
    intro h
    have hN : cfg2.N = 25 := N_2
    have hB : ¬(⟨n + 1, h⟩ : Fin cfg2.N).val % 25 = 0 := by dsimp only; omega
    obtain ⟨ih1, ih2⟩ := ih (Nat.lt_of_succ_lt h)
    rw [outsAt2_B V c (⟨n + 1, h⟩ : Fin cfg2.N) hB]; dsimp only
    have hsplit : 2000 * (n + 1 + 1) = 2000 * (n + 1) + 2000 := by omega
    constructor
    · intro u q
      refine (congrFun (o6B (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => hB ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2) (ix2 u q)).trans ?_
      refine (sum_apply _ _ _ _ _ _ u q).trans ?_
      rw [hsplit, Finset.sum_range_add, Finset.sum_range (fun x => Zn V c (2000 * (n + 1) + x) q)]
      exact congrArg₂ (· + ·) (ih1 u q) (Finset.sum_congr rfl fun p _ => zblkn_apply V c (⟨n + 1, h⟩ : Fin cfg2.N) p q)
    · intro u q
      refine (congrFun (o7B (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => hB ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2) (ix2 u q)).trans ?_
      refine (sq_apply _ _ _ _ _ _ u q).trans ?_
      rw [hsplit, Finset.sum_range_add, Finset.sum_range (fun x => Zn V c (2000 * (n + 1) + x) q * Zn V c (2000 * (n + 1) + x) q)]
      exact congrArg₂ (· + ·) (ih2 u q) (Finset.sum_congr rfl fun p _ =>
        congrArg₂ (· * ·) (zblkn_apply V c (⟨n + 1, h⟩ : Fin cfg2.N) p q) (zblkn_apply V c (⟨n + 1, h⟩ : Fin cfg2.N) p q))

/-- What point t writes back of the z window is block t of z of the arrays. -/
theorem flushed5 (t : Fin cfg2.N) :
    (dat2 V c).flushed 5 t = ((cfg2.win 5).blk t).view.read (Elt Ideal) (Z V c) := by
  obtain ⟨-, -, -, -, -, -, -, -, -, -, e0, e1, -⟩ := idx_facts2 t
  show (cfg2.win 5).cut (grid2.coords t) ((dat2 V c).after 5 t) = _
  rw [after2_5, outs5 V c t]
  funext j
  obtain ⟨p, q, rfl⟩ : ∃ (p : Fin 2000) (q : Fin 128), j = ix2 p q := ⟨j 0, j 1, eq_ix2 (n0 := 2000) (n1 := 128) j⟩
  show k2_pay4 (F := Ideal) (blkA V c t) (blkX V c t) (blkWL V c t) (blkWR V c t) (blkB V c t) (ix2 p q) = Z V c (((cfg2.win 5).blk t).view.emb (ix2 p q))
  refine (zblk_apply V c t p q).trans (congrArg (Z V c) (funext fun a => Fin.ext ?_))
  match a with
  | ⟨0, _⟩ => show 2000 * t.val + p.val = win2_5.index t (0 : Fin 2) * 2000 + 1 * p.val; omega
  | ⟨1, _⟩ => show q.val = win2_5.index t (1 : Fin 2) * 128 + 1 * q.val; omega

/-- The row of sums is written back once, after the last point, when it holds the sums over all the rows. -/
theorem cut6 (t : Fin cfg2.N) (X : Vec Ideal S1x128 .f32) (u : Fin 1) (q : Fin 128) :
    (cfg2.win 6).cut (grid2.coords t) X (ix2 u q) = X (ix2 u q) :=
  congrArg X (funext fun a => Fin.ext (by match a with | ⟨0, _⟩ => rfl | ⟨1, _⟩ => rfl))

/-- The one block of a row window is the whole row: read through it, a row is itself. -/
theorem read6 (t : Fin cfg2.N) (G : Spec.R1F.Idx → EReal) (u : Fin 1) (q : Fin 128) :
    ((cfg2.win 6).blk t).view.read (Elt Ideal) G (ix2 u q) = G (ix2 0 q) := by
  have e0 : win2_6.index t (0 : Fin 2) = 0 := by have := idx_facts2 t; omega
  have e1 : win2_6.index t (1 : Fin 2) = 0 := by have := idx_facts2 t; omega
  rw [View.read_apply]
  refine congrArg G (funext fun a => Fin.ext ?_)
  match a with
  | ⟨0, _⟩ => show win2_6.index t (0 : Fin 2) * 1 + 1 * u.val = 0; omega
  | ⟨1, _⟩ => show win2_6.index t (1 : Fin 2) * 128 + 1 * q.val = q.val; omega

theorem flushed6 (t : Fin cfg2.N) (hf : (cfg2.win 6).flush t = true) :
    (dat2 V c).flushed 6 t = ((cfg2.win 6).blk t).view.read (Elt Ideal) (Spec.colsum (Z V c)) := by
  have hN : cfg2.N = 25 := N_2
  have h24 : t.val = 24 := by have := (flush2_6 t).mp hf; have := t.isLt; omega
  show (cfg2.win 6).cut (grid2.coords t) ((dat2 V c).after 6 t) = _
  rw [after2_6]
  funext j
  obtain ⟨u, q, rfl⟩ : ∃ (u : Fin 1) (q : Fin 128), j = ix2 u q := ⟨j 0, j 1, eq_ix2 (n0 := 1) (n1 := 128) j⟩
  refine (cut6 t (outsAt2 V c t.val t.isLt).2.1 u q).trans ?_
  refine Eq.trans ?_ (read6 t (Spec.colsum (Z V c)) u q).symm
  refine ((outs67 V c t.val t.isLt).1 u q).trans ?_
  rw [show 2000 * (t.val + 1) = 50000 by omega, Finset.sum_range]
  unfold Spec.colsum
  refine Finset.sum_congr rfl fun r _ => ?_
  have e : Zn V c r.val q = Z V c (ix2 r q) := by
    unfold Zn
    exact (dif_pos r.isLt).trans rfl
  exact e

/-- Likewise the row of sums of squares. -/
theorem cut7 (t : Fin cfg2.N) (X : Vec Ideal S1x128 .f32) (u : Fin 1) (q : Fin 128) :
    (cfg2.win 7).cut (grid2.coords t) X (ix2 u q) = X (ix2 u q) :=
  congrArg X (funext fun a => Fin.ext (by match a with | ⟨0, _⟩ => rfl | ⟨1, _⟩ => rfl))

/-- The one block of a row window is the whole row: read through it, a row is itself. -/
theorem read7 (t : Fin cfg2.N) (G : Spec.R1F.Idx → EReal) (u : Fin 1) (q : Fin 128) :
    ((cfg2.win 7).blk t).view.read (Elt Ideal) G (ix2 u q) = G (ix2 0 q) := by
  have e0 : win2_7.index t (0 : Fin 2) = 0 := by have := idx_facts2 t; omega
  have e1 : win2_7.index t (1 : Fin 2) = 0 := by have := idx_facts2 t; omega
  rw [View.read_apply]
  refine congrArg G (funext fun a => Fin.ext ?_)
  match a with
  | ⟨0, _⟩ => show win2_7.index t (0 : Fin 2) * 1 + 1 * u.val = 0; omega
  | ⟨1, _⟩ => show win2_7.index t (1 : Fin 2) * 128 + 1 * q.val = q.val; omega

theorem flushed7 (t : Fin cfg2.N) (hf : (cfg2.win 7).flush t = true) :
    (dat2 V c).flushed 7 t = ((cfg2.win 7).blk t).view.read (Elt Ideal) (Spec.colsumsq (Z V c)) := by
  have hN : cfg2.N = 25 := N_2
  have h24 : t.val = 24 := by have := (flush2_7 t).mp hf; have := t.isLt; omega
  show (cfg2.win 7).cut (grid2.coords t) ((dat2 V c).after 7 t) = _
  rw [after2_7]
  funext j
  obtain ⟨u, q, rfl⟩ : ∃ (u : Fin 1) (q : Fin 128), j = ix2 u q := ⟨j 0, j 1, eq_ix2 (n0 := 1) (n1 := 128) j⟩
  refine (cut7 t (outsAt2 V c t.val t.isLt).2.2 u q).trans ?_
  refine Eq.trans ?_ (read7 t (Spec.colsumsq (Z V c)) u q).symm
  refine ((outs67 V c t.val t.isLt).2 u q).trans ?_
  rw [show 2000 * (t.val + 1) = 50000 by omega, Finset.sum_range]
  unfold Spec.colsumsq
  refine Finset.sum_congr rfl fun r _ => ?_
  have e : Zn V c r.val q = Z V c (ix2 r q) := by
    unfold Zn
    exact (dif_pos r.isLt).trans rfl
  exact congrArg₂ (· * ·) e e

end Region

end lin2

open lin2

/-- The z array after the region: row r lies in the block of point r / 2000, and every point writes its block back. -/
theorem z2 (V : Vals) (c : Dev nD) :
    (dat2 (F := Ideal) V c).arrAt 5 cfg2.N
      = Spec.lin (V c (Pipeline.arrRef spec2 0)) (V c (Pipeline.arrRef spec2 1)) (V c (Pipeline.arrRef spec2 2))
          (V c (Pipeline.arrRef spec2 3)) (V c (Pipeline.arrRef spec2 4)) := by
  refine (dat2 V c).arrAt_eq_of_cover 5 (Z V c) (fun t _ => flushed5 V c t) fun i => ?_
  have hN : cfg2.N = 25 := N_2
  have hi0 : (i 0).val < 50000 := (i 0).isLt
  have hi1 : (i 1).val < 128 := (i 1).isLt
  obtain ⟨t, ht⟩ : ∃ t : Fin cfg2.N, t.val = (i 0).val / 2000 := ⟨⟨(i 0).val / 2000, by omega⟩, rfl⟩
  obtain ⟨-, -, -, -, -, -, -, -, -, -, e0, e1, -⟩ := idx_facts2 t
  refine ⟨t, flush2_5 t, ?_⟩
  show i ∈ ((View.whole main_v60_0).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The row of sums after the region: its one block is the whole row, written back after the last point. -/
theorem s2 (V : Vals) (c : Dev nD) :
    (dat2 (F := Ideal) V c).arrAt 6 cfg2.N
      = Spec.colsum (Spec.lin (V c (Pipeline.arrRef spec2 0)) (V c (Pipeline.arrRef spec2 1)) (V c (Pipeline.arrRef spec2 2))
          (V c (Pipeline.arrRef spec2 3)) (V c (Pipeline.arrRef spec2 4))) := by
  refine (dat2 V c).arrAt_eq_of_cover 6 (Spec.colsum (Z V c)) (fun t hf => flushed6 V c t hf) fun i => ?_
  have hN : cfg2.N = 25 := N_2
  have hi0 : (i 0).val < 1 := (i 0).isLt
  have hi1 : (i 1).val < 128 := (i 1).isLt
  obtain ⟨t, ht⟩ : ∃ t : Fin cfg2.N, t.val = 24 := ⟨⟨24, by omega⟩, rfl⟩
  obtain ⟨-, -, -, -, -, -, -, -, -, -, -, -, e0, e1, -⟩ := idx_facts2 t
  refine ⟨t, (flush2_6 t).mpr (by omega), ?_⟩
  show i ∈ ((View.whole main_v60_1).slice (win2_6.rect t)).set
  rw [View.set_slice_whole, Rect.mem_set_unit]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 128 ≤ (i 1).val ∧ (i 1).val < win2_6.index t (1 : Fin 2) * 128 + 128; omega

/-- The row of sums of squares after the region. -/
theorem ss2 (V : Vals) (c : Dev nD) :
    (dat2 (F := Ideal) V c).arrAt 7 cfg2.N
      = Spec.colsumsq (Spec.lin (V c (Pipeline.arrRef spec2 0)) (V c (Pipeline.arrRef spec2 1)) (V c (Pipeline.arrRef spec2 2))
          (V c (Pipeline.arrRef spec2 3)) (V c (Pipeline.arrRef spec2 4))) := by
  refine (dat2 V c).arrAt_eq_of_cover 7 (Spec.colsumsq (Z V c)) (fun t hf => flushed7 V c t hf) fun i => ?_
  have hN : cfg2.N = 25 := N_2
  have hi0 : (i 0).val < 1 := (i 0).isLt
  have hi1 : (i 1).val < 128 := (i 1).isLt
  obtain ⟨t, ht⟩ : ∃ t : Fin cfg2.N, t.val = 24 := ⟨⟨24, by omega⟩, rfl⟩
  obtain ⟨-, -, -, -, -, -, -, -, -, -, -, -, -, -, e0, e1⟩ := idx_facts2 t
  refine ⟨t, (flush2_7 t).mpr (by omega), ?_⟩
  show i ∈ ((View.whole main_v60_2).slice (win2_7.rect t)).set
  rw [View.set_slice_whole, Rect.mem_set_unit]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

end Cert.KernelIdeal.KV

end
-- ==== Proof.Norm3.lean ====
/-
  Region 3 of the kernel, read as a value: each of the ten grid points writes back its 5000-row block of
  h = max (z · scale + shift) 0, the scale and shift rows read whole; the blocks tile the rows, so after the region the
  output array is that function of the three input arrays, index by index.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

theorem zero_off3 : (![0, 0] : Fin 2 → Nat) = fun _ => 0 := funext fun a => by fin_cases a <;> rfl

/-- The body's result at row p, feature q of a block: max (z · scale + shift) 0, the scale and shift rows read at the feature. -/
theorem out3_3_apply (x0 : Vec Ideal S5000x128 .f32) (x1 x2 : Vec Ideal S1x128 .f32) (p : Fin 5000) (q : Fin 128) :
    out3_3 x0 x1 x2 (ix2 p q) = max (x0 (ix2 p q) * x1 (ix2 0 q) + x2 (ix2 0 q)) 0 := by
  unfold out3_3
  rw [View.canon_unit_zero zero_off3]
  simp only [View.ld_unit_zero (S := S5000x128) zero_off3, View.ld_unit_zero (S := S1x128) zero_off3]
  unfold k3_pay1
  simp only [shapeCast_self]
  rw [maximumf_apply, addf_apply, mulf_apply, broadcast_apply,
    broadcastTo_apply x1 _ (ix2 p q) (ix2 0 q) (fun a => by match a with | ⟨0, _⟩ => rfl | ⟨1, _⟩ => rfl),
    broadcastTo_apply x2 _ (ix2 p q) (ix2 0 q) (fun a => by match a with | ⟨0, _⟩ => rfl | ⟨1, _⟩ => rfl)]
  show max (x0 (ix2 p q) * x1 (ix2 0 q) + x2 (ix2 0 q)) (Ideal.ofBits .f32 0x00000000#32) = _
  rw [Ideal.ofBits_zero_f32]

/-- The printed index maps over the grid's ten points: the z block and the output block are block t of the rows; the scale
    and shift rows are whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a block: if the z block reads the array at i and the scale and shift blocks read their rows at i's feature,
    the body's result there is the normalised, rectified entry of the array at i. -/
theorem blk_point3 (A0 : Spec.NF.Idx → EReal) (A1 A2 : Spec.R1F.Idx → EReal)
    (x0 : Vec Ideal S5000x128 .f32) (x1 x2 : Vec Ideal S1x128 .f32) (p : Fin 5000) (q : Fin 128) (i : Spec.NF.Idx)
    (h0 : x0 (ix2 p q) = A0 i) (h1 : x1 (ix2 0 q) = A1 (ix2 0 (i 1))) (h2 : x2 (ix2 0 q) = A2 (ix2 0 (i 1))) :
    out3_3 x0 x1 x2 (ix2 p q) = Spec.normRelu A0 A1 A2 i := by
  rw [out3_3_apply, h0, h1, h2]
  rfl

set_option maxHeartbeats 1000000 in
/-- What point t writes back is block t of the normalised, rectified array. -/
theorem flushed3_eq (V : Vals) (c : Dev nD) (t : Fin cfg3.N) :
    (dat3 (F := Ideal) V c).flushed 3 t = ((cfg3.win 3).blk t).view.read (Elt Ideal)
      (Spec.normRelu (V c (Pipeline.arrRef spec3 0)) (V c (Pipeline.arrRef spec3 1)) (V c (Pipeline.arrRef spec3 2))) := by
  show (cfg3.win 3).cut (grid3.coords t) ((dat3 V c).after 3 t) = _
  rw [after3_3]
  obtain ⟨e00, e01, e10, e11, e20, e21, e30, e31⟩ := idx_facts3 t
  funext j
  obtain ⟨p, q, rfl⟩ : ∃ (p : Fin 5000) (q : Fin 128), j = ix2 p q := ⟨j 0, j 1, eq_ix2 j⟩
  show out3_3 (iblk3 V c 0 t) (iblk3 V c 1 t) (iblk3 V c 2 t) (ix2 p q)
    = Spec.normRelu (V c (Pipeline.arrRef spec3 0)) (V c (Pipeline.arrRef spec3 1)) (V c (Pipeline.arrRef spec3 2))
        (((cfg3.win 3).blk t).view.emb (ix2 p q))
  refine blk_point3 _ _ _ (iblk3 V c 0 t) (iblk3 V c 1 t) (iblk3 V c 2 t) p q (((cfg3.win 3).blk t).view.emb (ix2 p q)) ?_ ?_ ?_
  · -- the z block sits where the output block sits
    show V c (Pipeline.arrRef spec3 0) (((cfg3.win 0).blk t).view.emb (ix2 p q))
      = V c (Pipeline.arrRef spec3 0) (((cfg3.win 3).blk t).view.emb (ix2 p q))
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  · -- the scale row is whole: its block's feature q is the array's feature q
    show V c (Pipeline.arrRef spec3 1) (((cfg3.win 1).blk t).view.emb (ix2 0 q))
      = V c (Pipeline.arrRef spec3 1) (ix2 0 ((((cfg3.win 3).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  · -- the shift row likewise
    show V c (Pipeline.arrRef spec3 2) (((cfg3.win 2).blk t).view.emb (ix2 0 q))
      = V c (Pipeline.arrRef spec3 2) (ix2 0 ((((cfg3.win 3).blk t).view.emb (ix2 p q)) 1))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v77).slice (win3_3.rect t)).set ↔ _
  rw [View.set_slice_whole, Rect.mem_set_unit]
  exact Iff.rfl

/-- Row r of the array lies in the block of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_3 t, ?_⟩
  rw [mem_blk3]
  obtain ⟨-, -, -, -, -, -, e30, e31⟩ := idx_facts3 t
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 128 ≤ (i 1).val ∧ (i 1).val < win3_3.index t (1 : Fin 2) * 128 + 128
    rw [e31]; omega

theorem h3 (V : Vals) (c : Dev nD) :
    (dat3 (F := Ideal) V c).arrAt 3 cfg3.N
      = Spec.normRelu (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.KV

end
-- ==== Proof.Consts.lean ====
/-
  The four float literals the two programs spell, as the extended reals they denote: 0, 1, 50000 and the
  batch norm's ε = 10995116 · 2⁻⁴⁰ (a little below 10⁻⁵), which is positive.
-/
import proofs.«402130_j5162550689834_1_alg».proof.Proof.Spec

noncomputable section

namespace Cert.Spec

open Idealize.ShloMosaic

theorem ofBits_zero : Ideal.ofBits .f32 0x00000000#32 = 0 := by
  simp [Ideal.ofBits, Ideal.ieee]

theorem one_eq : one = 1 := by
  unfold one
  simp [Ideal.ofBits, Ideal.ieee, -EReal.coe_mul]; norm_num

theorem nNodes_eq : nNodes = ((50000 : ℝ) : EReal) := by
  unfold nNodes
  simp [Ideal.ofBits, Ideal.ieee, -EReal.coe_mul]; norm_num

theorem eps_eq : eps = (((10995116 : ℝ) / 1099511627776 : ℝ) : EReal) := by
  unfold eps
  simp [Ideal.ofBits, Ideal.ieee, -EReal.coe_mul]; norm_num

theorem eps_pos : ∃ e : ℝ, 0 < e ∧ eps = (e : EReal) := ⟨_, by norm_num, eps_eq⟩

end Cert.Spec

end
-- ==== Proof.Pool4.lean ====
/-
  Region 4, the mean pool's two sums: what its two output arrays hold after the 25 grid points.

  Point `t` reads rows `2000·t … 2000·t + 1999` of the node features h [50000,128] and of the graph-id column
  [50000,1]. The body forms the indicator block onehot[r, b] = 1 if row r's id is b, else 0 (a comparison of the
  id with the column number, its bit widened and converted), and adds
      pooled[b, q] += ∑ r, onehot[r, b] · h[r, q]      (a product contracting the row axis of both operands)
      count[0, b]  += ∑ r, onehot[r, b]                 (a reduction over the row axis)
  to a [64,128] block and a [1,64] row that sit at the origin of their arrays at every point, are set to zero at
  the first point and are written back once, after the last. Over the extended reals the changes of float format
  are the identity, so after point `n` the two blocks hold the sums over the rows below `2000·(n + 1)` (induction
  on the point; sums over consecutive row ranges concatenate), and the arrays end as the sums over all 50000 rows:
  `Spec.pooled` and `Spec.count`. Finite sums are only re-indexed along bijections and concatenated, which is sound at infinite entries too: no entry is
  assumed finite.
-/
import proofs.«402130_j5162550689834_1_alg».proof.Proof.Gen.KernelIdeal.Frame
import proofs.«402130_j5162550689834_1_alg».proof.Proof.Spec
import proofs.«402130_j5162550689834_1_alg».proof.Proof.KAgg
import proofs.«402130_j5162550689834_1_alg».proof.Proof.KVals
import proofs.«402130_j5162550689834_1_alg».proof.Proof.Consts
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Algebra.BigOperators.Group.Finset.Basic

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

/-! ## What one grid point leaves in the two accumulators

At every point the body ends with one store of the whole [64,128] block and one of the whole [1,64] row, each a
function of the point's two input blocks and of what the accumulator held. At the first point that held value is the
zero block the body has just stored; elsewhere it is what the point before left. -/

section Pieces
variable {F : FTy → Type} [FloatOps F]

/-- the zero offsets of a whole-block access -/
theorem pool4_hz : (![0, 0] : Fin 2 → Nat) = fun _ => 0 := funext fun a => by fin_cases a <;> rfl

/-- a later point: the pooled block becomes the update of what it held -/
theorem pool4_out_B_2 (c : Dev nD) (i : grid4.Coords) (a1 : Memref sig .tc .vmem S2000x128 .f32) (h1 : a1.IsWhole) (a2 : Memref sig .tc .vmem S2000x1 .i32) (h2 : a2.IsWhole) (a3 : Memref sig .tc .vmem S64x128 .f32) (h3 : a3.IsWhole) (a4 : Memref sig .tc .vmem S1x64 .f32) (h4 : a4.IsWhole) (hc : ¬cond4_0 i)
    (x0 : Vec F S2000x128 .f32) (x1 : Vec F S2000x1 .i32) (xo2 : Vec F S64x128 .f32) (xo3 : Vec F S1x64 .f32) :
    out4_B_2 c i a1 h1 a2 h2 a3 h3 a4 h4 hc x0 x1 xo2 xo3 = k4_pay4 x1 x0 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero pool4_hz]
  simp only [View.readAt_eq_ld, h1.read_unread, h2.read_unread, h3.read_unread,
    View.ld_unit_zero (S := S2000x1) pool4_hz, View.ld_unit_zero (S := S2000x128) pool4_hz,
    View.ld_unit_zero (S := S64x128) pool4_hz]

/-- a later point: the count row becomes the update of what it held -/
theorem pool4_out_B_3 (c : Dev nD) (i : grid4.Coords) (a1 : Memref sig .tc .vmem S2000x128 .f32) (h1 : a1.IsWhole) (a2 : Memref sig .tc .vmem S2000x1 .i32) (h2 : a2.IsWhole) (a3 : Memref sig .tc .vmem S64x128 .f32) (h3 : a3.IsWhole) (a4 : Memref sig .tc .vmem S1x64 .f32) (h4 : a4.IsWhole) (hc : ¬cond4_0 i)
    (x0 : Vec F S2000x128 .f32) (x1 : Vec F S2000x1 .i32) (xo2 : Vec F S64x128 .f32) (xo3 : Vec F S1x64 .f32) :
    out4_B_3 c i a1 h1 a2 h2 a3 h3 a4 h4 hc x0 x1 xo2 xo3 = k4_pay5 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero pool4_hz]
  simp only [View.readAt_eq_ld, h2.read_unread, h4.read_unread,
    View.ld_unit_zero (S := S2000x1) pool4_hz, View.ld_unit_zero (S := S1x64) pool4_hz]

/-- the first point: the pooled block becomes the update of the zero block -/
theorem pool4_out_A_2 (c : Dev nD) (i : grid4.Coords) (a1 : Memref sig .tc .vmem S2000x128 .f32) (h1 : a1.IsWhole) (a2 : Memref sig .tc .vmem S2000x1 .i32) (h2 : a2.IsWhole) (a3 : Memref sig .tc .vmem S64x128 .f32) (h3 : a3.IsWhole) (a4 : Memref sig .tc .vmem S1x64 .f32) (h4 : a4.IsWhole) (hc : cond4_0 i)
    (x0 : Vec F S2000x128 .f32) (x1 : Vec F S2000x1 .i32) :
    out4_A_2 c i a1 h1 a2 h2 a3 h3 a4 h4 hc x0 x1 = k4_pay4 x1 x0 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S64x128) pool4_hz, View.readCov_unit_zero (S := S64x128) _ pool4_hz]
  simp only [View.readAt_eq_ld, h1.read_unread, h2.read_unread,
    View.ld_unit_zero (S := S2000x1) pool4_hz, View.ld_unit_zero (S := S2000x128) pool4_hz]

/-- the first point: the count row becomes the update of the zero row -/
theorem pool4_out_A_3 (c : Dev nD) (i : grid4.Coords) (a1 : Memref sig .tc .vmem S2000x128 .f32) (h1 : a1.IsWhole) (a2 : Memref sig .tc .vmem S2000x1 .i32) (h2 : a2.IsWhole) (a3 : Memref sig .tc .vmem S64x128 .f32) (h3 : a3.IsWhole) (a4 : Memref sig .tc .vmem S1x64 .f32) (h4 : a4.IsWhole) (hc : cond4_0 i)
    (x0 : Vec F S2000x128 .f32) (x1 : Vec F S2000x1 .i32) :
    out4_A_3 c i a1 h1 a2 h2 a3 h3 a4 h4 hc x0 x1 = k4_pay5 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x64) pool4_hz, View.readCov_unit_zero (S := S1x64) _ pool4_hz]
  simp only [View.readAt_eq_ld, h2.read_unread, View.ld_unit_zero (S := S2000x1) pool4_hz]

end Pieces

/-! ## The two updates at an entry, over the extended reals

Row `r` of the point's block belongs to graph `b` when its id word is the word of `b`; the comparison's bit, widened
and converted, is the real 1 or 0. The pooled update adds, at graph `b` and feature `q`, the sum over the block's rows
of that indicator times the row's feature (a product contracting the row axis of both operands); the count update adds
the sum of the indicator alone (a reduction over the row axis). Changes of float format are the identity here. -/

section AtIdeal

/-- the converted bit of a word comparison is the indicator of equality -/
theorem pool4_word (x y : BitVec 32) :
    (FloatOps.sitofp (F := Ideal) .f32 ((IntOp.cmpi .eq x y).setWidth 32) : EReal) = if y = x then 1 else 0 := by
  show ((((BitVec.ofBool (x == y)).setWidth 32).toInt : ℝ) : EReal) = _
  by_cases h : y = x
  · subst h
    rw [if_pos rfl, beq_self_eq_true]
    have e : ((BitVec.ofBool true).setWidth 32).toInt = 1 := by decide
    rw [e]; simp
  · rw [if_neg h]
    have hb : (x == y) = false := beq_eq_false_iff_ne.mpr fun e => h e.symm
    rw [hb]
    have e : ((BitVec.ofBool false).setWidth 32).toInt = 0 := by decide
    rw [e]; simp

/-- the indicator block at row `r`, graph `b` -/
theorem pool4_onehot_apply (v4 : Vec Ideal S2000x1 .i32) (r : Fin 2000) (b : Fin 64) :
    k4_pay3 (F := Ideal) v4 (ix2 r b) = if v4 (ix2 r 0) = BitVec.ofNat 32 b.val then 1 else 0 := by
  have e1 : iota .tc S2000x64 32 [1] iota_S2000x64_d1_w32 (ix2 r b) = BitVec.ofNat 32 b.val :=
    iota_single_apply .tc S2000x64 32 1 iota_S2000x64_d1_w32 (ix2 r b)
  have e2 : broadcastTo S2000x64 (shapeCast S2000x1 v4 shapeCasts_S2000x1_S2000x1) broadcasts_S2000x1_S2000x64 (ix2 r b)
      = v4 (ix2 r 0) := by
    rw [shapeCast_self]
    exact broadcastTo_apply v4 broadcasts_S2000x1_S2000x64 (ix2 r b) (ix2 r 0) (fun a => by
      match a with
      | ⟨0, _⟩ => rfl
      | ⟨1, _⟩ => rfl)
  refine Eq.trans ?_ (pool4_word (BitVec.ofNat 32 b.val) (v4 (ix2 r 0)))
  rw [← e1, ← e2]
  rfl

/-- the product's left operand index: its row is the contracted position … -/
theorem pool4_lhs_0 (j : S64x128.Idx) (k : dot_S2000x64_S2000x128_S64x128_0_0_1_1_n_n.contr.Idx) :
    (dot_S2000x64_S2000x128_S64x128_0_0_1_1_n_n.lhsIdx j k 0).val = (k ⟨0, by decide⟩).val :=
  dot_S2000x64_S2000x128_S64x128_0_0_1_1_n_n.lhsIdx_val_of_single rfl j k
/-- … and its column the result's row -/
theorem pool4_lhs_1 (j : S64x128.Idx) (k : dot_S2000x64_S2000x128_S64x128_0_0_1_1_n_n.contr.Idx) :
    (dot_S2000x64_S2000x128_S64x128_0_0_1_1_n_n.lhsIdx j k 1).val = (j 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
/-- the right operand index: its row is the contracted position … -/
theorem pool4_rhs_0 (j : S64x128.Idx) (k : dot_S2000x64_S2000x128_S64x128_0_0_1_1_n_n.contr.Idx) :
    (dot_S2000x64_S2000x128_S64x128_0_0_1_1_n_n.rhsIdx j k 0).val = (k ⟨0, by decide⟩).val :=
  dot_S2000x64_S2000x128_S64x128_0_0_1_1_n_n.rhsIdx_val_of_single rfl j k
/-- … and its column the result's column -/
theorem pool4_rhs_1 (j : S64x128.Idx) (k : dot_S2000x64_S2000x128_S64x128_0_0_1_1_n_n.contr.Idx) :
    (dot_S2000x64_S2000x128_S64x128_0_0_1_1_n_n.rhsIdx j k 1).val = (j 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- the product into the zero accumulator, at graph `b` and feature `q`: the sum over the rows -/
theorem pool4_matmul_apply (A : FVec Ideal S2000x64 .bf16) (B : FVec Ideal S2000x128 .bf16) (b : Fin 64) (q : Fin 128) :
    FloatOps.matmul dot_S2000x64_S2000x128_S64x128_0_0_1_1_n_n none A B (constant (F := Ideal) S64x128 .f32 0x00000000#32) (ix2 b q)
      = ∑ r : Fin 2000, A (ix2 r b) * B (ix2 r q) := by
  rw [Ideal.matmul_constant_zero_apply, ← Equiv.sum_comp (contrEquiv1 dot_S2000x64_S2000x128_S64x128_0_0_1_1_n_n 2000 rfl rfl).symm]
  refine Finset.sum_congr rfl fun k _ => ?_
  have hk := contrEquiv1_symm_val dot_S2000x64_S2000x128_S64x128_0_0_1_1_n_n 2000 rfl rfl k
  have el : dot_S2000x64_S2000x128_S64x128_0_0_1_1_n_n.lhsIdx (ix2 b q) ((contrEquiv1 dot_S2000x64_S2000x128_S64x128_0_0_1_1_n_n 2000 rfl rfl).symm k) = ix2 k b := funext fun a => Fin.ext (by
    match a with
    | ⟨0, _⟩ => exact (pool4_lhs_0 _ _).trans hk
    | ⟨1, _⟩ => exact pool4_lhs_1 _ _)
  have er : dot_S2000x64_S2000x128_S64x128_0_0_1_1_n_n.rhsIdx (ix2 b q) ((contrEquiv1 dot_S2000x64_S2000x128_S64x128_0_0_1_1_n_n 2000 rfl rfl).symm k) = ix2 k q := funext fun a => Fin.ext (by
    match a with
    | ⟨0, _⟩ => exact (pool4_rhs_0 _ _).trans hk
    | ⟨1, _⟩ => exact pool4_rhs_1 _ _)
  rw [el, er]

/-- the pooled update at an entry -/
theorem pool4_pay4_apply (v4 : Vec Ideal S2000x1 .i32) (v11 : Vec Ideal S2000x128 .f32) (v14 : Vec Ideal S64x128 .f32)
    (b : Fin 64) (q : Fin 128) :
    k4_pay4 (F := Ideal) v4 v11 v14 (ix2 b q)
      = v14 (ix2 b q) + ∑ r : Fin 2000, (if v4 (ix2 r 0) = BitVec.ofNat 32 b.val then 1 else 0) * v11 (ix2 r q) := by
  unfold k4_pay4
  refine (addf_apply _ _ _).trans ?_
  rw [shapeCast_self, shapeCast_self]
  refine congrArg (v14 (ix2 b q) + ·) ?_
  refine (pool4_matmul_apply _ _ b q).trans ?_
  exact Finset.sum_congr rfl fun r _ => congrArg (· * v11 (ix2 r q)) (pool4_onehot_apply v4 r b)

/-- the source index of a column sum: the row inserted before the graph -/
theorem pool4_lift (k : Fin 2000) (b : Fin 64) : Shape.Reduces.lift reduces_S2000x64_S64 (ix1 b) k = ix2 k b :=
  funext fun a => Fin.ext (by
    match a with
    | ⟨0, _⟩ => rfl
    | ⟨1, _⟩ => rfl)

/-- the count update at an entry -/
theorem pool4_pay5_apply (v4 : Vec Ideal S2000x1 .i32) (v19 : Vec Ideal S1x64 .f32) (b : Fin 64) :
    k4_pay5 (F := Ideal) v4 v19 (ix2 0 b)
      = v19 (ix2 0 b) + ∑ r : Fin 2000, (if v4 (ix2 r 0) = BitVec.ofNat 32 b.val then 1 else 0) := by
  unfold k4_pay5
  refine (addf_apply _ _ _).trans ?_
  rw [shapeCast_self]
  refine congrArg (v19 (ix2 0 b) + ·) ?_
  refine (shapeCast_apply _ shapeCasts_S64_S1x64 (ix2 0 b) (ix1 b)
    (by rw [Shape.rowMajor_val_one, Shape.rowMajor_val_two]; simp)).trans ?_
  refine (Ideal.multiReduction_add_single (k4_pay3 (F := Ideal) v4) 0x00000000#32 reduces_S2000x64_S64 _ _ (ix1 b)).trans ?_
  exact Finset.sum_congr rfl fun k _ => (congrArg _ (pool4_lift k b)).trans (pool4_onehot_apply v4 k b)

end AtIdeal

/-! ## From the points to the arrays

Point `t` of the 25 reads rows `2000·t … 2000·t + 1999` of the feature array and of the id column; the two output
blocks never move, so after point `n` they hold the sums over the rows below `2000·(n + 1)`, and the one write-back,
after the last point, leaves the sums over all 50000 rows. -/

section Blocks
variable (V : Vals) (c : Dev nD)

/-- the feature rows point `t` reads -/
abbrev pool4_hblk (t : Fin cfg4.N) : Vec Ideal S2000x128 .f32 := iblk4 V c 0 t
/-- the id rows point `t` reads -/
abbrev pool4_idblk (t : Fin cfg4.N) : Vec Ideal S2000x1 .i32 := iblk4 V c 1 t
/-- the feature array -/
abbrev pool4_harr : Spec.NF.Idx → EReal := V c (Pipeline.arrRef spec4 0)
/-- the id column -/
abbrev pool4_idarr : Spec.N1.Idx → BitVec 32 := V c (Pipeline.arrRef spec4 1)

/-- where each window's block sits, decided over the grid: the inputs' at row block `t`, the outputs' at the origin -/
theorem pool4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- a feature entry of the block is the array's at row `2000·t + r` -/
theorem pool4_hblk_apply (t : Fin cfg4.N) (r : Fin 2000) (q : Fin 128) (h : 2000 * t.val + r.val < 50000) :
    pool4_hblk V c t (ix2 r q) = pool4_harr V c (ix2 ⟨2000 * t.val + r.val, h⟩ q) := by
  obtain ⟨e0, e1, -⟩ := pool4_idx_facts t
  show V c (Pipeline.arrRef spec4 0) (((cfg4.win 0).blk t).view.emb (ix2 r q)) = V c (Pipeline.arrRef spec4 0) _
  refine congrArg (V c (Pipeline.arrRef spec4 0)) (funext fun a => Fin.ext ?_)
  match a with
  | ⟨0, _⟩ => show win4_0.index t (0 : Fin 2) * 2000 + 1 * r.val = 2000 * t.val + r.val; omega
  | ⟨1, _⟩ => show win4_0.index t (1 : Fin 2) * 128 + 1 * q.val = q.val; omega

/-- an id of the block is the column's at row `2000·t + r` -/
theorem pool4_idblk_apply (t : Fin cfg4.N) (r : Fin 2000) (h : 2000 * t.val + r.val < 50000) :
    pool4_idblk V c t (ix2 r 0) = pool4_idarr V c (ix2 ⟨2000 * t.val + r.val, h⟩ 0) := by
  obtain ⟨-, -, e0, e1, -⟩ := pool4_idx_facts t
  show V c (Pipeline.arrRef spec4 1) (((cfg4.win 1).blk t).view.emb (ix2 r 0)) = V c (Pipeline.arrRef spec4 1) _
  refine congrArg (V c (Pipeline.arrRef spec4 1)) (funext fun a => Fin.ext ?_)
  match a with
  | ⟨0, _⟩ => show win4_1.index t (0 : Fin 2) * 2000 + 1 * r.val = 2000 * t.val + r.val; omega
  | ⟨1, _⟩ => show win4_1.index t (1 : Fin 2) * 1 + 1 * 0 = 0; omega

/-- row `R`'s term of the pooled sum at graph `b`, feature `q` (nothing past the last row) -/
def pool4_rowP (H : Spec.NF.Idx → EReal) (BT : Spec.N1.Idx → BitVec 32) (b : Fin 64) (q : Fin 128) (R : ℕ) : EReal :=
  if h : R < 50000 then Spec.onehot BT ⟨R, h⟩ b * H (ix2 ⟨R, h⟩ q) else 0
/-- row `R`'s term of the count at graph `b` -/
def pool4_rowC (BT : Spec.N1.Idx → BitVec 32) (b : Fin 64) (R : ℕ) : EReal :=
  if h : R < 50000 then Spec.onehot BT ⟨R, h⟩ b else 0

/-- what point `t` adds to a pooled entry: its 2000 rows' terms -/
theorem pool4_blockP (t : Fin cfg4.N) (b : Fin 64) (q : Fin 128) :
    (∑ r : Fin 2000, (if pool4_idblk V c t (ix2 r 0) = BitVec.ofNat 32 b.val then 1 else 0) * pool4_hblk V c t (ix2 r q))
      = ∑ x ∈ Finset.range 2000, pool4_rowP (pool4_harr V c) (pool4_idarr V c) b q (2000 * t.val + x) := by
  have hN : t.val < 25 := lt_of_lt_of_eq t.isLt (show cfg4.N = 25 from N_4)
  rw [Finset.sum_range]
  refine Finset.sum_congr rfl fun r _ => ?_
  have h : 2000 * t.val + r.val < 50000 := by have := r.isLt; omega
  rw [pool4_hblk_apply V c t r q h, pool4_idblk_apply V c t r h]
  unfold pool4_rowP Spec.onehot
  rw [dif_pos h]

/-- what point `t` adds to a count entry -/
theorem pool4_blockC (t : Fin cfg4.N) (b : Fin 64) :
    (∑ r : Fin 2000, (if pool4_idblk V c t (ix2 r 0) = BitVec.ofNat 32 b.val then (1 : EReal) else 0))
      = ∑ x ∈ Finset.range 2000, pool4_rowC (pool4_idarr V c) b (2000 * t.val + x) := by
  have hN : t.val < 25 := lt_of_lt_of_eq t.isLt (show cfg4.N = 25 from N_4)
  rw [Finset.sum_range]
  refine Finset.sum_congr rfl fun r _ => ?_
  have h : 2000 * t.val + r.val < 50000 := by have := r.isLt; omega
  rw [pool4_idblk_apply V c t r h]
  unfold pool4_rowC Spec.onehot
  rw [dif_pos h]

/-- the zero block's entries -/
theorem pool4_zero2 (j : S64x128.Idx) : k4_pay1 (F := Ideal) j = 0 := Cert.Spec.ofBits_zero
/-- the zero row's entries -/
theorem pool4_zero3 (j : S1x64.Idx) : k4_pay2 (F := Ideal) j = 0 := Cert.Spec.ofBits_zero

/-- the pooled block after the first point -/
theorem pool4_at_A_2 (t : Fin cfg4.N) (h0 : t.val % 25 = 0) :
    (outsAt4 V c t.val t.isLt).1 = k4_pay4 (pool4_idblk V c t) (pool4_hblk V c t) (k4_pay1 (F := Ideal)) := by
  rw [outsAt4_A V c t h0]; dsimp only
  exact pool4_out_A_2 (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)
/-- the count row after the first point -/
theorem pool4_at_A_3 (t : Fin cfg4.N) (h0 : t.val % 25 = 0) :
    (outsAt4 V c t.val t.isLt).2 = k4_pay5 (pool4_idblk V c t) (k4_pay2 (F := Ideal)) := by
  rw [outsAt4_A V c t h0]; dsimp only
  exact pool4_out_A_3 (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)
/-- the pooled block after a later point, from what the point before left -/
theorem pool4_at_B_2 (t : Fin cfg4.N) (h0 : ¬t.val % 25 = 0) :
    (outsAt4 V c t.val t.isLt).1 = k4_pay4 (pool4_idblk V c t) (pool4_hblk V c t)
      (outsAt4 V c (t.val - 1) (Nat.lt_of_le_of_lt (Nat.sub_le _ _) t.isLt)).1 := by
  rw [outsAt4_B V c t h0]; dsimp only
  exact pool4_out_B_2 (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t)
    (outsAt4 V c (t.val - 1) (Nat.lt_of_le_of_lt (Nat.sub_le _ _) t.isLt)).1 (outsAt4 V c (t.val - 1) (Nat.lt_of_le_of_lt (Nat.sub_le _ _) t.isLt)).2
/-- the count row after a later point -/
theorem pool4_at_B_3 (t : Fin cfg4.N) (h0 : ¬t.val % 25 = 0) :
    (outsAt4 V c t.val t.isLt).2 = k4_pay5 (pool4_idblk V c t)
      (outsAt4 V c (t.val - 1) (Nat.lt_of_le_of_lt (Nat.sub_le _ _) t.isLt)).2 := by
  rw [outsAt4_B V c t h0]; dsimp only
  exact pool4_out_B_3 (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t)
    (outsAt4 V c (t.val - 1) (Nat.lt_of_le_of_lt (Nat.sub_le _ _) t.isLt)).1 (outsAt4 V c (t.val - 1) (Nat.lt_of_le_of_lt (Nat.sub_le _ _) t.isLt)).2

/-- THE RUNNING POOLED SUM: after point `n` an entry holds its terms of the rows below `2000·(n + 1)` -/
theorem pool4_sumP : ∀ (n : ℕ) (h : n < cfg4.N) (b : Fin 64) (q : Fin 128),
    (outsAt4 V c n h).1 (ix2 b q)
      = ∑ R ∈ Finset.range (2000 * (n + 1)), pool4_rowP (pool4_harr V c) (pool4_idarr V c) b q R
  | 0, h, b, q => by
    refine (congrFun (pool4_at_A_2 V c ⟨0, h⟩ rfl) (ix2 b q)).trans ?_
    refine (pool4_pay4_apply (pool4_idblk V c ⟨0, h⟩) (pool4_hblk V c ⟨0, h⟩) (k4_pay1 (F := Ideal)) b q).trans ?_
    rw [pool4_zero2, zero_add, pool4_blockP V c ⟨0, h⟩ b q]
    refine Finset.sum_congr rfl fun x _ => ?_
    show pool4_rowP _ _ b q (2000 * 0 + x) = _
    rw [Nat.mul_zero, Nat.zero_add]
  | n + 1, h, b, q => by
    have hN : cfg4.N = 25 := N_4
    have hB : ¬(⟨n + 1, h⟩ : Fin cfg4.N).val % 25 = 0 := by dsimp only; omega
    refine (congrFun (pool4_at_B_2 V c ⟨n + 1, h⟩ hB) (ix2 b q)).trans ?_
    refine (pool4_pay4_apply (pool4_idblk V c ⟨n + 1, h⟩) (pool4_hblk V c ⟨n + 1, h⟩) _ b q).trans ?_
    rw [pool4_blockP V c ⟨n + 1, h⟩ b q]
    show (outsAt4 V c n _).1 (ix2 b q) + _ = _
    rw [pool4_sumP n _ b q, show 2000 * (n + 1 + 1) = 2000 * (n + 1) + 2000 from by ring, Finset.sum_range_add]

/-- THE RUNNING COUNT: after point `n` an entry holds its terms of the rows below `2000·(n + 1)` -/
theorem pool4_sumC : ∀ (n : ℕ) (h : n < cfg4.N) (b : Fin 64),
    (outsAt4 V c n h).2 (ix2 0 b) = ∑ R ∈ Finset.range (2000 * (n + 1)), pool4_rowC (pool4_idarr V c) b R
  | 0, h, b => by
    refine (congrFun (pool4_at_A_3 V c ⟨0, h⟩ rfl) (ix2 0 b)).trans ?_
    refine (pool4_pay5_apply (pool4_idblk V c ⟨0, h⟩) (k4_pay2 (F := Ideal)) b).trans ?_
    rw [pool4_zero3, zero_add, pool4_blockC V c ⟨0, h⟩ b]
    refine Finset.sum_congr rfl fun x _ => ?_
    show pool4_rowC _ b (2000 * 0 + x) = _
    rw [Nat.mul_zero, Nat.zero_add]
  | n + 1, h, b => by
    have hN : cfg4.N = 25 := N_4
    have hB : ¬(⟨n + 1, h⟩ : Fin cfg4.N).val % 25 = 0 := by dsimp only; omega
    refine (congrFun (pool4_at_B_3 V c ⟨n + 1, h⟩ hB) (ix2 0 b)).trans ?_
    refine (pool4_pay5_apply (pool4_idblk V c ⟨n + 1, h⟩) _ b).trans ?_
    rw [pool4_blockC V c ⟨n + 1, h⟩ b]
    show (outsAt4 V c n _).2 (ix2 0 b) + _ = _
    rw [pool4_sumC n _ b, show 2000 * (n + 1 + 1) = 2000 * (n + 1) + 2000 from by ring, Finset.sum_range_add]

end Blocks

/-! ## The one write-back

Only the last point writes the two blocks back, and each block is its whole array. -/

section Final
variable (V : Vals) (c : Dev nD)

/-- after the last point the pooled block holds the sums over all rows -/
theorem pool4_last_2 (t : Fin cfg4.N) (h24 : t.val = 24) :
    (outsAt4 V c t.val t.isLt).1 = Spec.pooled (pool4_harr V c) (pool4_idarr V c) := by
  funext j
  obtain ⟨b, q, rfl⟩ : ∃ (b : Fin 64) (q : Fin 128), j = ix2 b q := ⟨j 0, j 1, eq_ix2 j⟩
  rw [pool4_sumP V c t.val t.isLt b q, h24]
  show ∑ R ∈ Finset.range 50000, _ = ∑ r : Fin 50000, Spec.onehot (pool4_idarr V c) r b * pool4_harr V c (ix2 r q)
  rw [Finset.sum_range]
  refine Finset.sum_congr rfl fun r _ => ?_
  unfold pool4_rowP
  rw [dif_pos r.isLt]

/-- after the last point the count row holds the counts over all rows -/
theorem pool4_last_3 (t : Fin cfg4.N) (h24 : t.val = 24) :
    (outsAt4 V c t.val t.isLt).2 = Spec.count (pool4_idarr V c) := by
  funext j
  obtain ⟨a, b, rfl⟩ : ∃ (a : Fin 1) (b : Fin 64), j = ix2 a b := ⟨j 0, j 1, eq_ix2 j⟩
  have ha := Fin.eq_zero a
  subst ha
  rw [pool4_sumC V c t.val t.isLt b, h24]
  show ∑ R ∈ Finset.range 50000, _ = ∑ r : Fin 50000, Spec.onehot (pool4_idarr V c) r b
  rw [Finset.sum_range]
  refine Finset.sum_congr rfl fun r _ => ?_
  unfold pool4_rowC
  rw [dif_pos r.isLt]

/-- what the write-back of the pooled block writes: the pooled sums, read through the block at the origin -/
theorem pool4_flushed_2 (t : Fin cfg4.N) (hf : (cfg4.win 2).flush t = true) :
    (dat4 (F := Ideal) V c).flushed 2 t
      = ((cfg4.win 2).blk t).view.read (Elt Ideal) (Spec.pooled (pool4_harr V c) (pool4_idarr V c)) := by
  have hN : cfg4.N = 25 := N_4
  have h24 : t.val = 24 := by have := (flush4_2 t).mp hf; have := t.isLt; omega
  obtain ⟨-, -, -, -, e0, e1, -⟩ := pool4_idx_facts t
  show (cfg4.win 2).cut (grid4.coords t) ((dat4 V c).after 2 t) = _
  rw [after4_2, pool4_last_2 V c t h24]
  have hz' : (fun a => win4_2.index t a * main_v79_0.ty.shape.size a) = fun _ => 0 := funext fun a => by
    match a with
    | ⟨0, _⟩ => show win4_2.index t (0 : Fin 2) * _ = 0; rw [e0, Nat.zero_mul]
    | ⟨1, _⟩ => show win4_2.index t (1 : Fin 2) * _ = 0; rw [e1, Nat.zero_mul]
  exact (Memref.read_access_unit_zero (Elt Ideal) main_v79_0 hz' (fun a => by rw [congrFun hz' a]; simp) _).symm

/-- what the write-back of the count row writes -/
theorem pool4_flushed_3 (t : Fin cfg4.N) (hf : (cfg4.win 3).flush t = true) :
    (dat4 (F := Ideal) V c).flushed 3 t
      = ((cfg4.win 3).blk t).view.read (Elt Ideal) (Spec.count (pool4_idarr V c)) := by
  have hN : cfg4.N = 25 := N_4
  have h24 : t.val = 24 := by have := (flush4_3 t).mp hf; have := t.isLt; omega
  obtain ⟨-, -, -, -, -, -, e0, e1⟩ := pool4_idx_facts t
  show (cfg4.win 3).cut (grid4.coords t) ((dat4 V c).after 3 t) = _
  rw [after4_3, pool4_last_3 V c t h24]
  have hz' : (fun a => win4_3.index t a * main_v79_1.ty.shape.size a) = fun _ => 0 := funext fun a => by
    match a with
    | ⟨0, _⟩ => show win4_3.index t (0 : Fin 2) * _ = 0; rw [e0, Nat.zero_mul]
    | ⟨1, _⟩ => show win4_3.index t (1 : Fin 2) * _ = 0; rw [e1, Nat.zero_mul]
  exact (Memref.read_access_unit_zero (Elt Ideal) main_v79_1 hz' (fun a => by rw [congrFun hz' a]; simp) _).symm

/-- the last point -/
def pool4_tlast : Fin cfg4.N := ⟨24, by rw [show cfg4.N = 25 from N_4]; decide⟩

/-- every entry of the pooled array lies in the block at the origin -/
theorem pool4_mem_2 (t : Fin cfg4.N) (i : S64x128.Idx) : i ∈ ((cfg4.win 2).blk t).view.set := by
  obtain ⟨-, -, -, -, e0, e1, -⟩ := pool4_idx_facts t
  show i ∈ ((View.whole main_v79_0).slice (win4_2.rect t)).set
  rw [View.set_slice_whole, Rect.mem_set_unit]
  intro a
  have h0 : (i 0 : Nat) < 64 := (i 0).isLt
  have h1 : (i 1 : Nat) < 128 := (i 1).isLt
  match a with
  | ⟨0, _⟩ => show win4_2.index t (0 : Fin 2) * 64 ≤ (i 0 : Nat) ∧ (i 0 : Nat) < win4_2.index t (0 : Fin 2) * 64 + 64; omega
  | ⟨1, _⟩ => show win4_2.index t (1 : Fin 2) * 128 ≤ (i 1 : Nat) ∧ (i 1 : Nat) < win4_2.index t (1 : Fin 2) * 128 + 128; omega

/-- every entry of the count array lies in the block at the origin -/
theorem pool4_mem_3 (t : Fin cfg4.N) (i : S1x64.Idx) : i ∈ ((cfg4.win 3).blk t).view.set := by
  obtain ⟨-, -, -, -, -, -, e0, e1⟩ := pool4_idx_facts t
  show i ∈ ((View.whole main_v79_1).slice (win4_3.rect t)).set
  rw [View.set_slice_whole, Rect.mem_set_unit]
  intro a
  have h0 : (i 0 : Nat) < 1 := (i 0).isLt
  have h1 : (i 1 : Nat) < 64 := (i 1).isLt
  match a with
  | ⟨0, _⟩ => show win4_3.index t (0 : Fin 2) * 1 ≤ (i 0 : Nat) ∧ (i 0 : Nat) < win4_3.index t (0 : Fin 2) * 1 + 1; omega
  | ⟨1, _⟩ => show win4_3.index t (1 : Fin 2) * 64 ≤ (i 1 : Nat) ∧ (i 1 : Nat) < win4_3.index t (1 : Fin 2) * 64 + 64; omega

end Final

/-- The pooled array after the region: per graph and feature, the sum of the rows of that graph. -/
theorem p4 (V : Vals) (c : Dev nD) :
    (dat4 (F := Ideal) V c).arrAt 2 cfg4.N
      = Spec.pooled (V c (Pipeline.arrRef spec4 0)) (V c (Pipeline.arrRef spec4 1)) :=
  (dat4 (F := Ideal) V c).arrAt_eq_of_cover 2 (Spec.pooled (pool4_harr V c) (pool4_idarr V c)) (pool4_flushed_2 V c) fun i =>
    ⟨pool4_tlast, (flush4_2 pool4_tlast).mpr rfl, pool4_mem_2 pool4_tlast i⟩

/-- The count array after the region: per graph, the number of its rows. -/
theorem c4 (V : Vals) (c : Dev nD) :
    (dat4 (F := Ideal) V c).arrAt 3 cfg4.N = Spec.count (V c (Pipeline.arrRef spec4 1)) :=
  (dat4 (F := Ideal) V c).arrAt_eq_of_cover 3 (Spec.count (pool4_idarr V c)) (pool4_flushed_3 V c) fun i =>
    ⟨pool4_tlast, (flush4_3 pool4_tlast).mpr rfl, pool4_mem_3 pool4_tlast i⟩

end Cert.KernelIdeal.KV

end
-- ==== Proof.KValue.lean ====
/-
  The idealized kernel's result buffer, after the run, is the network `Net.outK` of the thirteen launch arrays:
  each region's arrays at its exit are the closed forms of the region's arrays at its entry, and the host
  operations between two regions carry one region's outputs to the next one's inputs.
-/
import proofs.«402130_j5162550689834_1_alg».proof.Proof.Net
import proofs.«402130_j5162550689834_1_alg».proof.Proof.KVals
import proofs.«402130_j5162550689834_1_alg».proof.Proof.HostK
import proofs.«402130_j5162550689834_1_alg».proof.Proof.HostK1
import proofs.«402130_j5162550689834_1_alg».proof.Proof.HostK2
import proofs.«402130_j5162550689834_1_alg».proof.Proof.Lin0
import proofs.«402130_j5162550689834_1_alg».proof.Proof.Norm1
import proofs.«402130_j5162550689834_1_alg».proof.Proof.Lin2
import proofs.«402130_j5162550689834_1_alg».proof.Proof.Norm3
import proofs.«402130_j5162550689834_1_alg».proof.Proof.Pool4

noncomputable section

open Idealize.ShloMosaic Idealize.ShloMosaic.TcCoe Idealize.SL.Sem Idealize.ShloMosaic.ValueIdx

namespace Cert.KernelIdeal.KV

open Cert.KernelIdeal Cert.KernelIdeal.Gen

variable (m : (ℓ : Loc nD τ sig) → Buf (Elt Ideal) ℓ) (ρ : Dev nD → PrngReg) (c : Dev nD)

/-- the launch arrays, by name -/
abbrev aX : FVec Ideal S50000x128 .f32 := m ((c : Thread nD τ).loc main_arg0)
abbrev aEI : IVec S2x800000 32 := m ((c : Thread nD τ).loc main_arg1)
abbrev aBT : IVec S50000 32 := m ((c : Thread nD τ).loc main_arg2)
abbrev aWL1 : FVec Ideal S128x128 .f32 := m ((c : Thread nD τ).loc main_arg3)
abbrev aB1 : FVec Ideal S128 .f32 := m ((c : Thread nD τ).loc main_arg4)
abbrev aWR1 : FVec Ideal S128x128 .f32 := m ((c : Thread nD τ).loc main_arg5)
abbrev aG1 : FVec Ideal S128 .f32 := m ((c : Thread nD τ).loc main_arg6)
abbrev aBE1 : FVec Ideal S128 .f32 := m ((c : Thread nD τ).loc main_arg7)
abbrev aWL2 : FVec Ideal S128x128 .f32 := m ((c : Thread nD τ).loc main_arg8)
abbrev aB2 : FVec Ideal S128 .f32 := m ((c : Thread nD τ).loc main_arg9)
abbrev aWR2 : FVec Ideal S128x128 .f32 := m ((c : Thread nD τ).loc main_arg10)
abbrev aG2 : FVec Ideal S128 .f32 := m ((c : Thread nD τ).loc main_arg11)
abbrev aBE2 : FVec Ideal S128 .f32 := m ((c : Thread nD τ).loc main_arg12)

/-- layer 1's linear map, as region 0 leaves it -/
theorem z1_eq : V4 m ρ c (Pipeline.arrRef spec0 5) = Net.z (aEI m c) (aX m c) (aWL1 m c) (aB1 m c) (aWR1 m c) :=
  (hF0 m ρ c 5).symm.trans ((z0 (V3 m ρ) c).trans (by
    rw [V3_a0 m ρ c, V3_a1 m ρ c, V3_a2 m ρ c, V3_a3 m ρ c, V3_a4 m ρ c]; rfl))
/-- its column sums -/
theorem s1_eq : V4 m ρ c (Pipeline.arrRef spec0 6) = Spec.colsum (Net.z (aEI m c) (aX m c) (aWL1 m c) (aB1 m c) (aWR1 m c)) :=
  (hF0 m ρ c 6).symm.trans ((s0 (V3 m ρ) c).trans (by
    rw [V3_a0 m ρ c, V3_a1 m ρ c, V3_a2 m ρ c, V3_a3 m ρ c, V3_a4 m ρ c]; rfl))
/-- and the column sums of its squares -/
theorem ss1_eq : V4 m ρ c (Pipeline.arrRef spec0 7) = Spec.colsumsq (Net.z (aEI m c) (aX m c) (aWL1 m c) (aB1 m c) (aWR1 m c)) :=
  (hF0 m ρ c 7).symm.trans ((ss0 (V3 m ρ) c).trans (by
    rw [V3_a0 m ρ c, V3_a1 m ρ c, V3_a2 m ρ c, V3_a3 m ρ c, V3_a4 m ρ c]; rfl))

/-- layer 1's output, as region 1 leaves it -/
theorem h1_eq : V6 m ρ c (Pipeline.arrRef spec1 3)
    = Net.h1K (aX m c) (aEI m c) (aWL1 m c) (aB1 m c) (aWR1 m c) (aG1 m c) (aBE1 m c) :=
  (hF1 m ρ c 3).symm.trans ((h1 (V5 m ρ) c).trans (by
    rw [V5_a0 m ρ c, V5_a1 m ρ c, V5_a2 m ρ c, z1_eq m ρ c, s1_eq m ρ c, ss1_eq m ρ c]; rfl))

/-- layer 2's linear map, as region 2 leaves it -/
theorem z2_eq : V10 m ρ c (Pipeline.arrRef spec2 5)
    = Net.z (aEI m c) (Net.h1K (aX m c) (aEI m c) (aWL1 m c) (aB1 m c) (aWR1 m c) (aG1 m c) (aBE1 m c)) (aWL2 m c) (aB2 m c) (aWR2 m c) :=
  (hF2 m ρ c 5).symm.trans ((z2 (V9 m ρ) c).trans (by
    rw [V9_a0 m ρ c, V9_a1 m ρ c, V9_a2 m ρ c, V9_a3 m ρ c, V9_a4 m ρ c, h1_eq m ρ c]; rfl))
theorem s2_eq : V10 m ρ c (Pipeline.arrRef spec2 6)
    = Spec.colsum (Net.z (aEI m c) (Net.h1K (aX m c) (aEI m c) (aWL1 m c) (aB1 m c) (aWR1 m c) (aG1 m c) (aBE1 m c)) (aWL2 m c) (aB2 m c) (aWR2 m c)) :=
  (hF2 m ρ c 6).symm.trans ((s2 (V9 m ρ) c).trans (by
    rw [V9_a0 m ρ c, V9_a1 m ρ c, V9_a2 m ρ c, V9_a3 m ρ c, V9_a4 m ρ c, h1_eq m ρ c]; rfl))
theorem ss2_eq : V10 m ρ c (Pipeline.arrRef spec2 7)
    = Spec.colsumsq (Net.z (aEI m c) (Net.h1K (aX m c) (aEI m c) (aWL1 m c) (aB1 m c) (aWR1 m c) (aG1 m c) (aBE1 m c)) (aWL2 m c) (aB2 m c) (aWR2 m c)) :=
  (hF2 m ρ c 7).symm.trans ((ss2 (V9 m ρ) c).trans (by
    rw [V9_a0 m ρ c, V9_a1 m ρ c, V9_a2 m ρ c, V9_a3 m ρ c, V9_a4 m ρ c, h1_eq m ρ c]; rfl))

/-- congruences of the batch norm's three pieces, so that equal inputs are substituted without a search -/
theorem normRelu_congr {Z Z' : Spec.NF.Idx → EReal} {SC SC' SH SH' : Spec.R1F.Idx → EReal}
    (hz : Z = Z') (hc : SC = SC') (hs : SH = SH') : Spec.normRelu Z SC SH = Spec.normRelu Z' SC' SH' := by
  subst hz; subst hc; subst hs; rfl
theorem scaleK_congr {S S' SS SS' : Spec.R1F.Idx → EReal} (G : Spec.V128.Idx → EReal)
    (h1 : S = S') (h2 : SS = SS') : Spec.scaleK S SS G = Spec.scaleK S' SS' G := by
  subst h1; subst h2; rfl
theorem shiftK_congr {S S' SS SS' : Spec.R1F.Idx → EReal} (G BE : Spec.V128.Idx → EReal)
    (h1 : S = S') (h2 : SS = SS') : Spec.shiftK S SS G BE = Spec.shiftK S' SS' G BE := by
  subst h1; subst h2; rfl

set_option maxHeartbeats 4000000 in
/-- layer 2's output, as region 3 leaves it -/
theorem h2_eq : V12 m ρ c (Pipeline.arrRef spec3 3)
    = Net.h2K (aX m c) (aEI m c) (aWL1 m c) (aB1 m c) (aWR1 m c) (aG1 m c) (aBE1 m c) (aWL2 m c) (aB2 m c) (aWR2 m c) (aG2 m c) (aBE2 m c) :=
  (hF3 m ρ c 3).symm.trans ((h3 (V11 m ρ) c).trans ((normRelu_congr
    ((V11_a0 m ρ c).trans (z2_eq m ρ c))
    ((V11_a1 m ρ c).trans (scaleK_congr (aG2 m c) (s2_eq m ρ c) (ss2_eq m ρ c)))
    ((V11_a2 m ρ c).trans (shiftK_congr (aG2 m c) (aBE2 m c) (s2_eq m ρ c) (ss2_eq m ρ c)))).trans rfl))

/-- the result buffer after the run -/
theorem kvalue : W17 m ρ c (Proc.devRef .tc main_v84)
    = Net.outK (aX m c) (aEI m c) (aBT m c) (aWL1 m c) (aB1 m c) (aWR1 m c) (aG1 m c) (aBE1 m c)
        (aWL2 m c) (aB2 m c) (aWR2 m c) (aG2 m c) (aBE2 m c) :=
  (W17_out m ρ c).trans (by
    rw [← hF4 m ρ c 2, ← hF4 m ρ c 3, p4 (V13 m ρ) c, c4 (V13 m ρ) c, V13_a0 m ρ c, V13_a1 m ρ c, h2_eq m ρ c]; rfl)

end Cert.KernelIdeal.KV

end
-- ==== Proof.PoolRef.lean ====
/-
  The reference's two scatter-adds by graph id, read as sums over the nodes: a node's row lands on graph b exactly when
  its id, read as a signed number, is b (an id outside 0 … 63 lands nowhere), so the scattered sum is the sum over all
  nodes of (1 if the id is b else 0) times the row, and the scattered ones count the graph's nodes.
-/
import proofs.«402130_j5162550689834_1_alg».proof.Proof.Gen.ReferenceIdeal
import proofs.«402130_j5162550689834_1_alg».proof.Proof.Spec
import proofs.«402130_j5162550689834_1_alg».proof.Proof.Consts
import Idealize.ShloMosaic.PureOps.Ideal
import Idealize.ShloMosaic.Lib.ValueIdx

noncomputable section

open scoped BigOperators

namespace Cert.ReferenceIdeal.PoolRef

open Idealize.ShloMosaic Idealize.ShloMosaic.ValueIdx Cert.ReferenceIdeal Cert.ReferenceIdeal.Gen

/-! ## Words and index sets -/

/-- A 32-bit word read as a signed number is the number `b` below 64 exactly when it is the word of `b`. -/
theorem toInt_eq_iff (x : BitVec 32) (b : Nat) (hb : b < 64) :
    x.toInt = (b : Int) ↔ x = BitVec.ofNat 32 b := by
  rw [BitVec.toInt_eq_toNat_cond, ← BitVec.toNat_inj, BitVec.toNat_ofNat]
  have := x.isLt
  split <;> omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

/-- An update lands on operand index `i` exactly when, on every axis, its window's start plus its window coordinate
    is `i`'s coordinate: inside the operand the landing index is that sum, and a sum equal to a coordinate of `i` is
    inside. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have e' := congrArg (fun f => (f a).val) e
      simp only at e'
      have := h a
      omega
    · intro e
      funext a
      apply Fin.ext
      show (d.start j idx a + d.window j a).toNat = (i a).val
      have := e a
      omega
  · rename_i h
    constructor
    · intro e
      exact absurd e (by simp)
    · intro e
      exfalso
      apply h
      intro a
      have := e a
      have := (i a).isLt
      omega

/-- The graph ids as a column, as the program builds it, is the specification's column. -/
theorem idx_eq (BT : IVec S50000 32) :
    broadcastInDim S50000x1 ![0] bcast_S50000_S50000x1_0 BT = Spec.col BT := by
  funext j
  show BT _ = BT _
  congr 1
  funext a
  match a with
  | ⟨0, _⟩ => rfl

/-! ## The scatter of rows: operand [64, 128], updates [50000, 128] -/

/-- On the graph axis the window of update `(r, f)` starts at row `r`'s id, read signed … -/
theorem start2_0 (j : S50000x128.Idx) (idx : IVec S50000x1 32) :
    scatter_S64x128_S50000x1_S50000x128_1_0_0_1.start j idx 0 = (idx (ix2 (j 0) 0)).toInt := by
  unfold ScatterDims.start
  rw [dif_pos (show (0 : Fin 2) ∈ scatter_S64x128_S50000x1_S50000x128_1_0_0_1.scatterDimsToOperandDims from
    List.mem_singleton.mpr rfl)]
  congr 2
  funext b
  match b with
  | ⟨0, _⟩ => rfl
  | ⟨1, _⟩ => rfl

/-- … and on the feature axis at 0. -/
theorem start2_1 (j : S50000x128.Idx) (idx : IVec S50000x1 32) :
    scatter_S64x128_S50000x1_S50000x128_1_0_0_1.start j idx 1 = 0 := by
  unfold ScatterDims.start
  rw [dif_neg (show ¬ (1 : Fin 2) ∈ scatter_S64x128_S50000x1_S50000x128_1_0_0_1.scatterDimsToOperandDims by
    show ¬ (1 : Fin 2) ∈ [(0 : Fin 2)]; decide)]

/-- The window coordinate is 0 on the graph axis (an inserted one) … -/
theorem window2_0 (j : S50000x128.Idx) :
    scatter_S64x128_S50000x1_S50000x128_1_0_0_1.window j 0 = 0 := by
  unfold ScatterDims.window
  rw [dif_neg (show ¬ (0 : Fin 2) ∈ scatter_S64x128_S50000x1_S50000x128_1_0_0_1.sKept by
    show ¬ (0 : Fin 2) ∈ [(1 : Fin 2)]; decide)]

/-- … and the update's feature on the feature axis. -/
theorem window2_1 (j : S50000x128.Idx) :
    scatter_S64x128_S50000x1_S50000x128_1_0_0_1.window j 1 = (j 1).val := by
  unfold ScatterDims.window
  rw [dif_pos (show (1 : Fin 2) ∈ scatter_S64x128_S50000x1_S50000x128_1_0_0_1.sKept from List.mem_singleton.mpr rfl)]
  rfl

/-- Update `(r, f)` lands on `(b, f')` exactly when row `r`'s id is the word of `b` and `f = f'`. -/
theorem lands2 (BT : IVec S50000 32) (r : Fin 50000) (f : Fin 128) (i : S64x128.Idx) :
    scatter_S64x128_S50000x1_S50000x128_1_0_0_1.resultIdx? (ix2 r f) (Spec.col BT) = some i
      ↔ (Spec.col BT (ix2 r 0) = BitVec.ofNat 32 (i 0).val ∧ f = i 1) := by
  have hi0 : (i 0).val < 64 := (i 0).isLt
  rw [resultIdx?_eq_some_iff]
  constructor
  · intro h
    have h0 := h 0
    have h1 := h 1
    rw [start2_0, window2_0] at h0
    rw [start2_1, window2_1] at h1
    refine ⟨(toInt_eq_iff _ _ hi0).1 (by simpa using h0), Fin.ext ?_⟩
    have : ((f : Fin 128).val : Int) = ((i 1).val : Int) := by simpa using h1
    exact_mod_cast this
  · rintro ⟨h0, h1⟩ a
    match a with
    | ⟨0, _⟩ =>
      show scatter_S64x128_S50000x1_S50000x128_1_0_0_1.start (ix2 r f) (Spec.col BT) 0
        + (scatter_S64x128_S50000x1_S50000x128_1_0_0_1.window (ix2 r f) 0 : Int) = ((i 0).val : Int)
      rw [start2_0, window2_0]
      have := (toInt_eq_iff _ _ hi0).2 h0
      simpa using this
    | ⟨1, _⟩ =>
      show scatter_S64x128_S50000x1_S50000x128_1_0_0_1.start (ix2 r f) (Spec.col BT) 1
        + (scatter_S64x128_S50000x1_S50000x128_1_0_0_1.window (ix2 r f) 1 : Int) = ((i 1).val : Int)
      rw [start2_1, window2_1, ← h1]
      simp

theorem scatter_pooled (H : FVec Ideal S50000x128 .f32) (BT : IVec S50000 32) :
    Host.scatterAdd (F := Ideal) scatter_S64x128_S50000x1_S50000x128_1_0_0_1
        (broadcastInDim S64x128 ![] bcast_S_S64x128 (constant S_ .f32 0x00000000#32))
        (broadcastInDim S50000x1 ![0] bcast_S50000_S50000x1_0 BT) H
      = Spec.pooled H (Spec.col BT) := by
  funext i
  rw [idx_eq]
  show Ideal.ofBits .f32 0x00000000#32
      + ∑ j ∈ Finset.univ.filter (fun j => scatter_S64x128_S50000x1_S50000x128_1_0_0_1.resultIdx? j (Spec.col BT) = some i),
          H j = _
  rw [Spec.ofBits_zero, zero_add, Finset.sum_filter, sum_idx2]
  unfold Spec.pooled Spec.onehot
  refine Finset.sum_congr rfl (fun r _ => ?_)
  by_cases hr : Spec.col BT (ix2 r 0) = BitVec.ofNat 32 (i 0).val
  · rw [if_pos hr, one_mul]
    refine (Finset.sum_eq_single (show Fin 128 from i 1) ?_ ?_).trans ?_
    · intro f _ hf
      exact if_neg (fun h => hf ((lands2 BT r f i).1 h).2)
    · intro h
      exact absurd (Finset.mem_univ _) h
    · exact if_pos ((lands2 BT r (i 1) i).2 ⟨hr, rfl⟩)
  · rw [if_neg hr, zero_mul]
    exact Finset.sum_eq_zero (fun f _ => if_neg (fun h => hr ((lands2 BT r f i).1 h).1))

/-! ## The scatter of ones: operand [64], updates [50000] -/

/-- The window of update `r` starts at row `r`'s id, read signed … -/
theorem start1_0 (j : S50000.Idx) (idx : IVec S50000x1 32) :
    scatter_S64_S50000x1_S50000_n_0_0_1.start j idx 0 = (idx (ix2 (j 0) 0)).toInt := by
  unfold ScatterDims.start
  rw [dif_pos (show (0 : Fin 1) ∈ scatter_S64_S50000x1_S50000_n_0_0_1.scatterDimsToOperandDims from
    List.mem_singleton.mpr rfl)]
  congr 2
  funext b
  match b with
  | ⟨0, _⟩ => rfl
  | ⟨1, _⟩ => rfl

/-- … and its window coordinate is 0 (the one operand axis is an inserted one). -/
theorem window1_0 (j : S50000.Idx) :
    scatter_S64_S50000x1_S50000_n_0_0_1.window j 0 = 0 := by
  unfold ScatterDims.window
  rw [dif_neg (show ¬ (0 : Fin 1) ∈ scatter_S64_S50000x1_S50000_n_0_0_1.sKept by
    show ¬ (0 : Fin 1) ∈ ([] : List (Fin 1)); decide)]

/-- Update `r` lands on graph `b` exactly when row `r`'s id is the word of `b`. -/
theorem lands1 (BT : IVec S50000 32) (r : Fin 50000) (i : S64.Idx) :
    scatter_S64_S50000x1_S50000_n_0_0_1.resultIdx? (ix1 r) (Spec.col BT) = some i
      ↔ Spec.col BT (ix2 r 0) = BitVec.ofNat 32 (i 0).val := by
  have hi0 : (i 0).val < 64 := (i 0).isLt
  rw [resultIdx?_eq_some_iff]
  constructor
  · intro h
    have h0 := h 0
    rw [start1_0, window1_0] at h0
    exact (toInt_eq_iff _ _ hi0).1 (by simpa using h0)
  · intro h0 a
    match a with
    | ⟨0, _⟩ =>
      show scatter_S64_S50000x1_S50000_n_0_0_1.start (ix1 r) (Spec.col BT) 0
        + (scatter_S64_S50000x1_S50000_n_0_0_1.window (ix1 r) 0 : Int) = ((i 0).val : Int)
      rw [start1_0, window1_0]
      have := (toInt_eq_iff _ _ hi0).2 h0
      simpa using this

theorem scatter_count (BT : IVec S50000 32) (j : S64.Idx) :
    Host.scatterAdd (F := Ideal) scatter_S64_S50000x1_S50000_n_0_0_1
        (broadcastInDim S64 ![] bcast_S_S64 (constant S_ .f32 0x00000000#32))
        (broadcastInDim S50000x1 ![0] bcast_S50000_S50000x1_0 BT)
        (broadcastInDim S50000 ![] bcast_S_S50000 (constant S_ .f32 0x3F800000#32)) j
      = Spec.count (Spec.col BT) (ix2 0 (j 0)) := by
  rw [idx_eq]
  show Ideal.ofBits .f32 0x00000000#32
      + ∑ r ∈ Finset.univ.filter (fun r => scatter_S64_S50000x1_S50000_n_0_0_1.resultIdx? r (Spec.col BT) = some j),
          Spec.one = _
  rw [Spec.ofBits_zero, zero_add, Finset.sum_filter, sum_idx1, Spec.one_eq]
  unfold Spec.count Spec.onehot
  refine Finset.sum_congr rfl (fun r _ => ?_)
  by_cases hr : Spec.col BT (ix2 r 0) = BitVec.ofNat 32 (j 0).val
  · rw [if_pos ((lands1 BT r j).2 hr)]
    exact (if_pos hr).symm
  · rw [if_neg (fun h => hr ((lands1 BT r j).1 h))]
    exact (if_neg hr).symm

end Cert.ReferenceIdeal.PoolRef

end
-- ==== Proof.RValue.lean ====
/-
  The reference's result as the network `Net.outR` of its thirteen arguments.
-/
import proofs.«402130_j5162550689834_1_alg».proof.Proof.RefImports
import proofs.«402130_j5162550689834_1_alg».proof.Proof.Spec
import proofs.«402130_j5162550689834_1_alg».proof.Proof.KAgg
import proofs.«402130_j5162550689834_1_alg».proof.Proof.Net
import proofs.«402130_j5162550689834_1_alg».proof.Proof.Consts
import proofs.«402130_j5162550689834_1_alg».proof.Proof.PoolRef

noncomputable section

namespace Cert.ReferenceIdeal.RValue

open Idealize.ShloMosaic Idealize.ShloMosaic.ValueIdx Cert.ReferenceIdeal Cert.ReferenceIdeal.Gen Cert.ReferenceIdeal.Read
open scoped BigOperators

/-! ## Indices

Each layout operation reads its operand through an index map; composed along a chain of broadcasts, these maps
are the plain coordinates. -/

/-- A contraction reads its left operand at (row of the result, k) and its right one at (k, column of the result). -/
theorem lidx22 (i : S50000x128.Idx) (k : Fin 128) : lidx_main_v22 i k = ix2 (n0 := 50000) (n1 := 128) (i 0) k :=
  funext fun a => Fin.ext (by match a with | ⟨0, _⟩ => rfl | ⟨1, _⟩ => rfl)
theorem ridx22 (i : S50000x128.Idx) (k : Fin 128) : ridx_main_v22 i k = ix2 (n0 := 128) (n1 := 128) k (i 1) :=
  funext fun a => Fin.ext (by match a with | ⟨0, _⟩ => rfl | ⟨1, _⟩ => rfl)
theorem lidx26 (i : S50000x128.Idx) (k : Fin 128) : lidx_main_v26 i k = ix2 (n0 := 50000) (n1 := 128) (i 0) k :=
  funext fun a => Fin.ext (by match a with | ⟨0, _⟩ => rfl | ⟨1, _⟩ => rfl)
theorem ridx26 (i : S50000x128.Idx) (k : Fin 128) : ridx_main_v26 i k = ix2 (n0 := 128) (n1 := 128) k (i 1) :=
  funext fun a => Fin.ext (by match a with | ⟨0, _⟩ => rfl | ⟨1, _⟩ => rfl)
theorem lidx72 (i : S50000x128.Idx) (k : Fin 128) : lidx_main_v72 i k = ix2 (n0 := 50000) (n1 := 128) (i 0) k :=
  funext fun a => Fin.ext (by match a with | ⟨0, _⟩ => rfl | ⟨1, _⟩ => rfl)
theorem ridx72 (i : S50000x128.Idx) (k : Fin 128) : ridx_main_v72 i k = ix2 (n0 := 128) (n1 := 128) k (i 1) :=
  funext fun a => Fin.ext (by match a with | ⟨0, _⟩ => rfl | ⟨1, _⟩ => rfl)
theorem lidx76 (i : S50000x128.Idx) (k : Fin 128) : lidx_main_v76 i k = ix2 (n0 := 50000) (n1 := 128) (i 0) k :=
  funext fun a => Fin.ext (by match a with | ⟨0, _⟩ => rfl | ⟨1, _⟩ => rfl)
theorem ridx76 (i : S50000x128.Idx) (k : Fin 128) : ridx_main_v76 i k = ix2 (n0 := 128) (n1 := 128) k (i 1) :=
  funext fun a => Fin.ext (by match a with | ⟨0, _⟩ => rfl | ⟨1, _⟩ => rfl)

/-- A feature vector spread over the nodes is read at the feature. -/
theorem bidx24 (i : S50000x128.Idx) : idx_main_v23 (idx_main_v24 i) = ix1 (n := 128) (i 1) :=
  funext fun a => Fin.ext (by match a with | ⟨0, _⟩ => rfl)
theorem bidx39 (i : S50000x128.Idx) : idx_main_v38 (idx_main_v39 i) = ix1 (n := 128) (i 1) :=
  funext fun a => Fin.ext (by match a with | ⟨0, _⟩ => rfl)
theorem bidx45 (i : S50000x128.Idx) : idx_main_v44 (idx_main_v45 i) = ix1 (n := 128) (i 1) :=
  funext fun a => Fin.ext (by match a with | ⟨0, _⟩ => rfl)
theorem bidx48 (i : S50000x128.Idx) : idx_main_v47 (idx_main_v48 i) = ix1 (n := 128) (i 1) :=
  funext fun a => Fin.ext (by match a with | ⟨0, _⟩ => rfl)
theorem bidx51 (i : S50000x128.Idx) : idx_main_v50 (idx_main_v51 i) = ix1 (n := 128) (i 1) :=
  funext fun a => Fin.ext (by match a with | ⟨0, _⟩ => rfl)
theorem bidx74 (i : S50000x128.Idx) : idx_main_v73 (idx_main_v74 i) = ix1 (n := 128) (i 1) :=
  funext fun a => Fin.ext (by match a with | ⟨0, _⟩ => rfl)
theorem bidx89 (i : S50000x128.Idx) : idx_main_v88 (idx_main_v89 i) = ix1 (n := 128) (i 1) :=
  funext fun a => Fin.ext (by match a with | ⟨0, _⟩ => rfl)
theorem bidx95 (i : S50000x128.Idx) : idx_main_v94 (idx_main_v95 i) = ix1 (n := 128) (i 1) :=
  funext fun a => Fin.ext (by match a with | ⟨0, _⟩ => rfl)
theorem bidx98 (i : S50000x128.Idx) : idx_main_v97 (idx_main_v98 i) = ix1 (n := 128) (i 1) :=
  funext fun a => Fin.ext (by match a with | ⟨0, _⟩ => rfl)
theorem bidx101 (i : S50000x128.Idx) : idx_main_v100 (idx_main_v101 i) = ix1 (n := 128) (i 1) :=
  funext fun a => Fin.ext (by match a with | ⟨0, _⟩ => rfl)

/-- A sum over the nodes reads node k at the feature. -/
theorem cidx28 (c : S128.Idx) (k : Fin 50000) : idx_main_v28 c k = ix2 (n0 := 50000) (n1 := 128) k (c 0) :=
  funext fun a => Fin.ext (by match a with | ⟨0, _⟩ => rfl | ⟨1, _⟩ => rfl)
theorem cidx35 (c : S128.Idx) (k : Fin 50000) : idx_main_v35 c k = ix2 (n0 := 50000) (n1 := 128) k (c 0) :=
  funext fun a => Fin.ext (by match a with | ⟨0, _⟩ => rfl | ⟨1, _⟩ => rfl)
theorem cidx78 (c : S128.Idx) (k : Fin 50000) : idx_main_v78 c k = ix2 (n0 := 50000) (n1 := 128) k (c 0) :=
  funext fun a => Fin.ext (by match a with | ⟨0, _⟩ => rfl | ⟨1, _⟩ => rfl)
theorem cidx85 (c : S128.Idx) (k : Fin 50000) : idx_main_v85 c k = ix2 (n0 := 50000) (n1 := 128) k (c 0) :=
  funext fun a => Fin.ext (by match a with | ⟨0, _⟩ => rfl | ⟨1, _⟩ => rfl)

/-- The mean spread over the nodes, read at node k and feature c, is the mean at c. -/
theorem ridx_back32 (c : S128.Idx) (k : Fin 50000) : idx_main_v31 (idx_main_v32 (ix2 (n0 := 50000) (n1 := 128) k (c 0))) = c :=
  funext fun a => Fin.ext (by match a with | ⟨0, _⟩ => rfl)
theorem ridx_back82 (c : S128.Idx) (k : Fin 50000) : idx_main_v81 (idx_main_v82 (ix2 (n0 := 50000) (n1 := 128) k (c 0))) = c :=
  funext fun a => Fin.ext (by match a with | ⟨0, _⟩ => rfl)

/-- The per-graph count spread over the features is read at the graph. -/
theorem gidx113 (i : S64x128.Idx) : idx_main_v112 (idx_main_v113 i) = ix1 (n := 64) (i 0) :=
  funext fun a => Fin.ext (by match a with | ⟨0, _⟩ => rfl)

section Pieces

variable (x0 : FVec Ideal S50000x128 .f32) (x1 : IVec S2x800000 32) (x2 : IVec S50000 32)
  (x3 : FVec Ideal S128x128 .f32) (x4 : FVec Ideal S128 .f32) (x5 : FVec Ideal S128x128 .f32) (x6 x7 : FVec Ideal S128 .f32)
  (x8 : FVec Ideal S128x128 .f32) (x9 : FVec Ideal S128 .f32) (x10 : FVec Ideal S128x128 .f32) (x11 x12 : FVec Ideal S128 .f32)

/-! ## The neighbour average

The reference gathers, scatters and divides with the same operations over the same literals as the host part of the
kernel program, so its neighbour average is that program's `aggT` by unfolding. -/

theorem agg1 : val_main_v21 (F := Ideal) x0 x1 = Cert.KernelIdeal.aggT x0 x1 := rfl

theorem agg2 : val_main_v71 (F := Ideal) x0 x1 x3 x4 x5 x6 x7 = Cert.KernelIdeal.aggT (val_main_v53 (F := Ideal) x0 x1 x3 x4 x5 x6 x7) x1 := by
  unfold val_main_v71 val_main_v63 val_main_v60
  generalize val_main_v53 (F := Ideal) x0 x1 x3 x4 x5 x6 x7 = h
  rfl

/-! ## The linear map: two contractions over the 128 features and a bias row -/

theorem lin1 : val_main_v27 (F := Ideal) x0 x1 x3 x4 x5 = Spec.lin (val_main_v21 (F := Ideal) x0 x1) x0 x3 (Spec.row x4) x5 := by
  funext i
  rw [val_main_v27_apply, val_main_v25_apply, val_main_v22_apply, val_main_v24_apply, val_main_v23_apply, val_main_v26_apply]
  generalize val_main_v21 (F := Ideal) x0 x1 = A
  rw [bidx24 i]
  refine congrArg₂ (· + ·) (congrArg₂ (· + ·) (Finset.sum_congr rfl fun k _ => ?_) rfl) (Finset.sum_congr rfl fun k _ => ?_)
  · exact congrArg₂ (· * ·) (congrArg A (lidx22 i k)) (congrArg x3 (ridx22 i k))
  · exact congrArg₂ (· * ·) (congrArg x0 (lidx26 i k)) (congrArg x5 (ridx26 i k))

theorem lin2 : val_main_v77 (F := Ideal) x0 x1 x3 x4 x5 x6 x7 x8 x9 x10 = Spec.lin (val_main_v71 (F := Ideal) x0 x1 x3 x4 x5 x6 x7) (val_main_v53 (F := Ideal) x0 x1 x3 x4 x5 x6 x7) x8 (Spec.row x9) x10 := by
  funext i
  rw [val_main_v77_apply, val_main_v75_apply, val_main_v72_apply, val_main_v74_apply, val_main_v73_apply, val_main_v76_apply]
  generalize val_main_v71 (F := Ideal) x0 x1 x3 x4 x5 x6 x7 = A
  generalize val_main_v53 (F := Ideal) x0 x1 x3 x4 x5 x6 x7 = X
  rw [bidx74 i]
  refine congrArg₂ (· + ·) (congrArg₂ (· + ·) (Finset.sum_congr rfl fun k _ => ?_) rfl) (Finset.sum_congr rfl fun k _ => ?_)
  · exact congrArg₂ (· * ·) (congrArg A (lidx72 i k)) (congrArg x8 (ridx72 i k))
  · exact congrArg₂ (· * ·) (congrArg X (lidx76 i k)) (congrArg x10 (ridx76 i k))

/-! ## Batch norm and relu -/

/-- The feature means: the column sum from zero, over the number of nodes. -/
theorem mean1 : val_main_v30 (F := Ideal) x0 x1 x3 x4 x5 = Spec.meanR (val_main_v27 (F := Ideal) x0 x1 x3 x4 x5) := by
  funext c
  rw [val_main_v30_apply, val_main_v28_apply, val_main_v29_apply, val_main_cst_5_apply, val_main_cst_4_apply]
  generalize val_main_v27 (F := Ideal) x0 x1 x3 x4 x5 = Z
  show Ideal.div (Ideal.ofBits .f32 0x00000000#32 + ∑ k : Fin 50000, Z (idx_main_v28 c k)) Spec.nNodes
    = Ideal.div (∑ r : Fin 50000, Z (ix2 r (c 0))) Spec.nNodes
  rw [Cert.Spec.ofBits_zero, zero_add]
  exact congrArg (Ideal.div · Spec.nNodes) (Finset.sum_congr rfl fun k _ => congrArg Z (cidx28 c k))

/-- The feature variances: the column sum of the squared deviations from the mean, over the number of nodes. -/
theorem var1 : val_main_v37 (F := Ideal) x0 x1 x3 x4 x5 = Spec.varR (val_main_v27 (F := Ideal) x0 x1 x3 x4 x5) := by
  funext c
  rw [val_main_v37_apply, val_main_v35_apply, val_main_v36_apply, val_main_cst_7_apply, val_main_cst_6_apply]
  have hk : ∀ k : Fin 50000, val_main_v34 (F := Ideal) x0 x1 x3 x4 x5 (idx_main_v35 c k)
      = (val_main_v27 (F := Ideal) x0 x1 x3 x4 x5 (ix2 k (c 0)) - Spec.meanR (val_main_v27 (F := Ideal) x0 x1 x3 x4 x5) c)
        * (val_main_v27 (F := Ideal) x0 x1 x3 x4 x5 (ix2 k (c 0)) - Spec.meanR (val_main_v27 (F := Ideal) x0 x1 x3 x4 x5) c) := by
    intro k
    rw [val_main_v34_apply, val_main_v33_apply, val_main_v32_apply, val_main_v31_apply, mean1, cidx35 c k, ridx_back32 c k]
    rfl
  rw [Finset.sum_congr rfl fun k _ => hk k]
  generalize val_main_v27 (F := Ideal) x0 x1 x3 x4 x5 = Z
  show Ideal.div (Ideal.ofBits .f32 0x00000000#32
        + ∑ k : Fin 50000, (Z (ix2 k (c 0)) - Spec.meanR Z c) * (Z (ix2 k (c 0)) - Spec.meanR Z c)) Spec.nNodes
    = Ideal.div (∑ r : Fin 50000, (Z (ix2 r (c 0)) - Spec.meanR Z c) * (Z (ix2 r (c 0)) - Spec.meanR Z c)) Spec.nNodes
  rw [Cert.Spec.ofBits_zero, zero_add]

/-- Batch norm and relu: the deviation from the mean, times the reciprocal root of variance plus ε, times the gain,
    plus the offset, and the larger of that and zero. -/
theorem bn1 : val_main_v53 (F := Ideal) x0 x1 x3 x4 x5 x6 x7 = Spec.bnReluR (val_main_v27 (F := Ideal) x0 x1 x3 x4 x5) x6 x7 := by
  funext i
  rw [val_main_v53_apply, val_main_v52_apply, val_main_v49_apply, val_main_v46_apply, val_main_v40_apply,
    val_main_v39_apply, val_main_v38_apply, val_main_v45_apply, val_main_v44_apply, val_main_v43_apply,
    val_main_v42_apply, val_main_v41_apply, val_main_cst_8_apply, val_main_v48_apply, val_main_v47_apply,
    val_main_v51_apply, val_main_v50_apply, val_main_call1_v0_apply, val_main_call1_cst_apply,
    mean1, var1, bidx39 i, bidx45 i, bidx48 i, bidx51 i]
  generalize val_main_v27 (F := Ideal) x0 x1 x3 x4 x5 = Z
  show max ((Z i - Spec.meanR Z (ix1 (i 1))) * Ideal.rsqrt (Spec.varR Z (ix1 (i 1)) + Spec.eps) * x6 (ix1 (i 1))
      + x7 (ix1 (i 1))) (Ideal.ofBits .f32 0x00000000#32) = Spec.bnReluR Z x6 x7 i
  rw [Cert.Spec.ofBits_zero]
  rfl

/-- The feature means: the column sum from zero, over the number of nodes. -/
theorem mean2 : val_main_v80 (F := Ideal) x0 x1 x3 x4 x5 x6 x7 x8 x9 x10 = Spec.meanR (val_main_v77 (F := Ideal) x0 x1 x3 x4 x5 x6 x7 x8 x9 x10) := by
  funext c
  rw [val_main_v80_apply, val_main_v78_apply, val_main_v79_apply, val_main_cst_16_apply, val_main_cst_15_apply]
  generalize val_main_v77 (F := Ideal) x0 x1 x3 x4 x5 x6 x7 x8 x9 x10 = Z
  show Ideal.div (Ideal.ofBits .f32 0x00000000#32 + ∑ k : Fin 50000, Z (idx_main_v78 c k)) Spec.nNodes
    = Ideal.div (∑ r : Fin 50000, Z (ix2 r (c 0))) Spec.nNodes
  rw [Cert.Spec.ofBits_zero, zero_add]
  exact congrArg (Ideal.div · Spec.nNodes) (Finset.sum_congr rfl fun k _ => congrArg Z (cidx78 c k))

/-- The feature variances: the column sum of the squared deviations from the mean, over the number of nodes. -/
theorem var2 : val_main_v87 (F := Ideal) x0 x1 x3 x4 x5 x6 x7 x8 x9 x10 = Spec.varR (val_main_v77 (F := Ideal) x0 x1 x3 x4 x5 x6 x7 x8 x9 x10) := by
  funext c
  rw [val_main_v87_apply, val_main_v85_apply, val_main_v86_apply, val_main_cst_18_apply, val_main_cst_17_apply]
  have hk : ∀ k : Fin 50000, val_main_v84 (F := Ideal) x0 x1 x3 x4 x5 x6 x7 x8 x9 x10 (idx_main_v85 c k)
      = (val_main_v77 (F := Ideal) x0 x1 x3 x4 x5 x6 x7 x8 x9 x10 (ix2 k (c 0)) - Spec.meanR (val_main_v77 (F := Ideal) x0 x1 x3 x4 x5 x6 x7 x8 x9 x10) c)
        * (val_main_v77 (F := Ideal) x0 x1 x3 x4 x5 x6 x7 x8 x9 x10 (ix2 k (c 0)) - Spec.meanR (val_main_v77 (F := Ideal) x0 x1 x3 x4 x5 x6 x7 x8 x9 x10) c) := by
    intro k
    rw [val_main_v84_apply, val_main_v83_apply, val_main_v82_apply, val_main_v81_apply, mean2, cidx85 c k, ridx_back82 c k]
    rfl
  rw [Finset.sum_congr rfl fun k _ => hk k]
  generalize val_main_v77 (F := Ideal) x0 x1 x3 x4 x5 x6 x7 x8 x9 x10 = Z
  show Ideal.div (Ideal.ofBits .f32 0x00000000#32
        + ∑ k : Fin 50000, (Z (ix2 k (c 0)) - Spec.meanR Z c) * (Z (ix2 k (c 0)) - Spec.meanR Z c)) Spec.nNodes
    = Ideal.div (∑ r : Fin 50000, (Z (ix2 r (c 0)) - Spec.meanR Z c) * (Z (ix2 r (c 0)) - Spec.meanR Z c)) Spec.nNodes
  rw [Cert.Spec.ofBits_zero, zero_add]

/-- Batch norm and relu: the deviation from the mean, times the reciprocal root of variance plus ε, times the gain,
    plus the offset, and the larger of that and zero. -/
theorem bn2 : val_main_v103 (F := Ideal) x0 x1 x3 x4 x5 x6 x7 x8 x9 x10 x11 x12 = Spec.bnReluR (val_main_v77 (F := Ideal) x0 x1 x3 x4 x5 x6 x7 x8 x9 x10) x11 x12 := by
  funext i
  rw [val_main_v103_apply, val_main_v102_apply, val_main_v99_apply, val_main_v96_apply, val_main_v90_apply,
    val_main_v89_apply, val_main_v88_apply, val_main_v95_apply, val_main_v94_apply, val_main_v93_apply,
    val_main_v92_apply, val_main_v91_apply, val_main_cst_19_apply, val_main_v98_apply, val_main_v97_apply,
    val_main_v101_apply, val_main_v100_apply, val_main_call3_v0_apply, val_main_call3_cst_apply,
    mean2, var2, bidx89 i, bidx95 i, bidx98 i, bidx101 i]
  generalize val_main_v77 (F := Ideal) x0 x1 x3 x4 x5 x6 x7 x8 x9 x10 = Z
  show max ((Z i - Spec.meanR Z (ix1 (i 1))) * Ideal.rsqrt (Spec.varR Z (ix1 (i 1)) + Spec.eps) * x11 (ix1 (i 1))
      + x12 (ix1 (i 1))) (Ideal.ofBits .f32 0x00000000#32) = Spec.bnReluR Z x11 x12 i
  rw [Cert.Spec.ofBits_zero]
  rfl

/-! ## The mean pool -/

/-- The rows of the last layer summed per graph. -/
theorem pooled2 : val_main_v106 (F := Ideal) x0 x1 x2 x3 x4 x5 x6 x7 x8 x9 x10 x11 x12 = Spec.pooled (val_main_v103 (F := Ideal) x0 x1 x3 x4 x5 x6 x7 x8 x9 x10 x11 x12) (Spec.col x2) :=
  PoolRef.scatter_pooled _ _

/-- The nodes counted per graph. -/
theorem count2 (j : S64.Idx) : val_main_v110 (F := Ideal) x2 j = Spec.count (Spec.col x2) (ix2 0 (j 0)) :=
  PoolRef.scatter_count x2 j

/-- The result: each graph's sum over the larger of one and its count. -/
theorem pool : val_main_v114 (F := Ideal) x0 x1 x2 x3 x4 x5 x6 x7 x8 x9 x10 x11 x12
    = Spec.meanPool (Spec.pooled (val_main_v103 (F := Ideal) x0 x1 x3 x4 x5 x6 x7 x8 x9 x10 x11 x12) (Spec.col x2)) (Spec.count (Spec.col x2)) := by
  funext i
  rw [val_main_v114_apply, val_main_v113_apply, val_main_v112_apply, val_main_v111_apply, val_main_call4_v1_apply,
    val_main_call4_v0_apply, val_main_cst_23_apply, pooled2, gidx113 i, count2]
  rfl

/-! ## The two layers and the whole network -/

theorem h1_eq : val_main_v53 (F := Ideal) x0 x1 x3 x4 x5 x6 x7 = Cert.Net.h1R x0 x1 x3 x4 x5 x6 x7 := by
  rw [bn1, lin1, agg1]
  rfl

theorem h2_eq : val_main_v103 (F := Ideal) x0 x1 x3 x4 x5 x6 x7 x8 x9 x10 x11 x12 = Cert.Net.h2R x0 x1 x3 x4 x5 x6 x7 x8 x9 x10 x11 x12 := by
  rw [bn2, lin2, agg2, h1_eq]
  rfl

end Pieces

theorem ref_value (x0 : FVec Ideal S50000x128 .f32) (x1 : IVec S2x800000 32) (x2 : IVec S50000 32)
    (x3 : FVec Ideal S128x128 .f32) (x4 : FVec Ideal S128 .f32) (x5 : FVec Ideal S128x128 .f32) (x6 x7 : FVec Ideal S128 .f32)
    (x8 : FVec Ideal S128x128 .f32) (x9 : FVec Ideal S128 .f32) (x10 : FVec Ideal S128x128 .f32) (x11 x12 : FVec Ideal S128 .f32) :
    val_main_v114 (F := Ideal) x0 x1 x2 x3 x4 x5 x6 x7 x8 x9 x10 x11 x12
      = Cert.Net.outR x0 x1 x2 x3 x4 x5 x6 x7 x8 x9 x10 x11 x12 := by
  rw [pool, h2_eq]
  rfl

end Cert.ReferenceIdeal.RValue

end
-- ==== Proof.BatchNorm.lean ====
/-
  The batch norm of a layer, in the kernel's spelling and in the reference's, over real entries.

  With every entry a real number, the column sums, the means and the variances are real numbers; the
  mean squared deviation equals the mean square minus the squared mean; it is nonnegative, so with
  ε > 0 the reciprocal square root is a real number; and scaling distributes over the difference.
-/
import proofs.«402130_j5162550689834_1_alg».proof.Proof.Spec
import proofs.«402130_j5162550689834_1_alg».proof.Proof.Consts
import Mathlib.Algebra.BigOperators.Ring.Finset
import Mathlib.Algebra.Order.BigOperators.Group.Finset
import Mathlib.Analysis.Real.Sqrt
import Mathlib.Data.EReal.Inv
import Mathlib.Tactic.Ring

noncomputable section

open scoped BigOperators

namespace Cert.Spec

open Idealize.ShloMosaic Idealize.ShloMosaic.ValueIdx

/-! ## Real numbers inside the extended reals -/

/-- A finite sum of real numbers, read in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An array of real entries is the image of a real array. -/
theorem AllReal.exists_fun {ι : Type} {f : ι → EReal} (h : AllReal f) :
    ∃ g : ι → ℝ, f = fun i => ((g i : ℝ) : EReal) :=
  ⟨fun i => (h i).choose, funext fun i => (h i).choose_spec⟩

/-- The larger of a real number and zero is a real number. -/
theorem max_coe_zero (x : ℝ) : max (x : EReal) 0 = ((max x 0 : ℝ) : EReal) := by
  show max (x : EReal) ((0 : ℝ) : EReal) = _
  exact (EReal.coe_strictMono.monotone.map_max).symm

/-- Division by the number of nodes is multiplication by its reciprocal. -/
theorem div_nNodes (x : ℝ) : Ideal.div (x : EReal) nNodes = ((x * (1 / 50000) : ℝ) : EReal) := by
  rw [nNodes_eq, Ideal.div_coe (by norm_num : (50000 : ℝ) ≠ 0), ← EReal.coe_mul]

/-- The reciprocal square root of a positive real number is a real number. -/
theorem rsqrt_of_pos {r : ℝ} (h : 0 < r) :
    Ideal.rsqrt (r : EReal) = (((Real.sqrt r)⁻¹ : ℝ) : EReal) := by
  rw [Ideal.rsqrt_coe, if_neg (not_lt.mpr h.le), if_neg h.ne']

/-! ## The real mean and variance of a feature -/

/-- the mean of feature c over the nodes -/
def muR (z : NF.Idx → ℝ) (c : Fin 128) : ℝ := (∑ r : Fin 50000, z (ix2 r c)) * (1 / 50000)

/-- the variance of feature c as the mean squared deviation -/
def vrR (z : NF.Idx → ℝ) (c : Fin 128) : ℝ :=
  (∑ r : Fin 50000, (z (ix2 r c) - muR z c) * (z (ix2 r c) - muR z c)) * (1 / 50000)

/-- the variance of feature c as the mean square minus the squared mean -/
def vkR (z : NF.Idx → ℝ) (c : Fin 128) : ℝ :=
  (∑ r : Fin 50000, z (ix2 r c) * z (ix2 r c)) * (1 / 50000) - muR z c * muR z c

theorem vrR_nonneg (z : NF.Idx → ℝ) (c : Fin 128) : 0 ≤ vrR z c :=
  mul_nonneg (Finset.sum_nonneg fun r _ => mul_self_nonneg _) (by norm_num)

/-- The mean squared deviation is the mean square minus the squared mean: expand the square, and the
    sum of the entries is the number of nodes times the mean. -/
theorem vrR_eq (z : NF.Idx → ℝ) (c : Fin 128) : vrR z c = vkR z c := by
  unfold vrR vkR
  have h : ∀ r : Fin 50000, (z (ix2 r c) - muR z c) * (z (ix2 r c) - muR z c)
      = z (ix2 r c) * z (ix2 r c) - 2 * muR z c * z (ix2 r c) + muR z c * muR z c := fun r => by ring
  have hS : (∑ r : Fin 50000, z (ix2 r c)) = 50000 * muR z c := by unfold muR; ring
  rw [Finset.sum_congr rfl (fun r _ => h r), Finset.sum_add_distrib, Finset.sum_sub_distrib,
    ← Finset.mul_sum, Finset.sum_const, Finset.card_univ, Fintype.card_fin, nsmul_eq_mul, hS]
  push_cast
  ring

theorem vkR_add_pos (z : NF.Idx → ℝ) (c : Fin 128) {e : ℝ} (he : 0 < e) : 0 < vkR z c + e := by
  rw [← vrR_eq]; exact add_pos_of_nonneg_of_pos (vrR_nonneg z c) he

/-! ## The two programs' quantities over real entries -/

theorem colsum_coe (z : NF.Idx → ℝ) (j : R1F.Idx) :
    colsum (fun i => ((z i : ℝ) : EReal)) j = ((∑ r : Fin 50000, z (ix2 r (j 1)) : ℝ) : EReal) := by
  unfold colsum
  exact coe_sum _ _

theorem colsumsq_coe (z : NF.Idx → ℝ) (j : R1F.Idx) :
    colsumsq (fun i => ((z i : ℝ) : EReal)) j
      = ((∑ r : Fin 50000, z (ix2 r (j 1)) * z (ix2 r (j 1)) : ℝ) : EReal) := by
  unfold colsumsq
  simp only [← EReal.coe_mul]
  exact coe_sum _ _

theorem meanR_coe (z : NF.Idx → ℝ) (c : V128.Idx) :
    meanR (fun i => ((z i : ℝ) : EReal)) c = ((muR z (c 0) : ℝ) : EReal) := by
  unfold meanR
  rw [coe_sum, div_nNodes]
  rfl

theorem varR_coe (z : NF.Idx → ℝ) (c : V128.Idx) :
    varR (fun i => ((z i : ℝ) : EReal)) c = ((vrR z (c 0) : ℝ) : EReal) := by
  unfold varR
  rw [meanR_coe]
  simp only [← EReal.coe_sub, ← EReal.coe_mul]
  rw [coe_sum, div_nNodes]
  rfl

/-- The kernel's scale over real entries: the gain times the reciprocal root of variance plus ε. -/
theorem scaleK_coe (z : NF.Idx → ℝ) (g : V128.Idx → ℝ) {e : ℝ} (he : 0 < e) (hε : eps = (e : EReal))
    (j : R1F.Idx) :
    scaleK (colsum (fun i => ((z i : ℝ) : EReal))) (colsumsq (fun i => ((z i : ℝ) : EReal)))
        (fun c => ((g c : ℝ) : EReal)) j
      = ((g (ix1 (j 1)) * (Real.sqrt (vkR z (j 1) + e))⁻¹ : ℝ) : EReal) := by
  unfold scaleK
  rw [colsum_coe, colsumsq_coe, div_nNodes, div_nNodes, hε, ← EReal.coe_mul, ← EReal.coe_sub,
    ← EReal.coe_add, rsqrt_of_pos, ← EReal.coe_mul]
  · rfl
  · exact vkR_add_pos z (j 1) he

/-- The kernel's shift over real entries: the offset minus the mean times the scale. -/
theorem shiftK_coe (z : NF.Idx → ℝ) (g b : V128.Idx → ℝ) {e : ℝ} (he : 0 < e) (hε : eps = (e : EReal))
    (j : R1F.Idx) :
    shiftK (colsum (fun i => ((z i : ℝ) : EReal))) (colsumsq (fun i => ((z i : ℝ) : EReal)))
        (fun c => ((g c : ℝ) : EReal)) (fun c => ((b c : ℝ) : EReal)) j
      = ((b (ix1 (j 1)) - muR z (j 1) * (g (ix1 (j 1)) * (Real.sqrt (vkR z (j 1) + e))⁻¹) : ℝ) : EReal) := by
  unfold shiftK
  rw [scaleK_coe z g he hε j, colsum_coe, div_nNodes, ← EReal.coe_mul, ← EReal.coe_sub]
  rfl

/-- The kernel's batch norm and relu over real entries. -/
theorem bnReluK_coe (z : NF.Idx → ℝ) (g b : V128.Idx → ℝ) {e : ℝ} (he : 0 < e) (hε : eps = (e : EReal))
    (i : NF.Idx) :
    bnReluK (fun i => ((z i : ℝ) : EReal)) (fun c => ((g c : ℝ) : EReal)) (fun c => ((b c : ℝ) : EReal)) i
      = ((max (z i * (g (ix1 (i 1)) * (Real.sqrt (vkR z (i 1) + e))⁻¹)
            + (b (ix1 (i 1)) - muR z (i 1) * (g (ix1 (i 1)) * (Real.sqrt (vkR z (i 1) + e))⁻¹))) 0 : ℝ) : EReal) := by
  unfold bnReluK normRelu
  rw [scaleK_coe z g he hε, shiftK_coe z g b he hε, ← EReal.coe_mul, ← EReal.coe_add, max_coe_zero]

/-- The reference's batch norm and relu over real entries. -/
theorem bnReluR_coe (z : NF.Idx → ℝ) (g b : V128.Idx → ℝ) {e : ℝ} (he : 0 < e) (hε : eps = (e : EReal))
    (i : NF.Idx) :
    bnReluR (fun i => ((z i : ℝ) : EReal)) (fun c => ((g c : ℝ) : EReal)) (fun c => ((b c : ℝ) : EReal)) i
      = ((max ((z i - muR z (i 1)) * (Real.sqrt (vrR z (i 1) + e))⁻¹ * g (ix1 (i 1)) + b (ix1 (i 1))) 0 : ℝ) : EReal) := by
  unfold bnReluR
  rw [meanR_coe, varR_coe, hε, ← EReal.coe_add,
    rsqrt_of_pos, ← EReal.coe_sub, ← EReal.coe_mul, ← EReal.coe_mul, ← EReal.coe_add, max_coe_zero]
  exact add_pos_of_nonneg_of_pos (vrR_nonneg z _) he

/-! ## The statements the other modules cite -/

/-- Over real entries the kernel's batch norm and relu is the reference's: the two variances are one
    real number, and z · (g · r) + (β − μ · (g · r)) = (z − μ) · r · g + β. -/
theorem bnReluK_eq_bnReluR (Z : NF.Idx → EReal) (G BE : V128.Idx → EReal) (hZ : AllReal Z) (hG : AllReal G)
    (hB : AllReal BE) : bnReluK Z G BE = bnReluR Z G BE := by
  obtain ⟨z, rfl⟩ := hZ.exists_fun
  obtain ⟨g, rfl⟩ := hG.exists_fun
  obtain ⟨b, rfl⟩ := hB.exists_fun
  obtain ⟨e, he, hε⟩ := eps_pos
  funext i
  rw [bnReluK_coe z g b he hε i, bnReluR_coe z g b he hε i, vrR_eq z (i 1)]
  congr 2
  ring

theorem allReal_bnReluR (Z : NF.Idx → EReal) (G BE : V128.Idx → EReal) (hZ : AllReal Z) (hG : AllReal G)
    (hB : AllReal BE) : AllReal (bnReluR Z G BE) := by
  obtain ⟨z, rfl⟩ := hZ.exists_fun
  obtain ⟨g, rfl⟩ := hG.exists_fun
  obtain ⟨b, rfl⟩ := hB.exists_fun
  obtain ⟨e, he, hε⟩ := eps_pos
  intro i
  exact ⟨_, bnReluR_coe z g b he hε i⟩

/-- A layer's linear part of real arrays is real: sums and products of real numbers. -/
theorem allReal_lin (A X : NF.Idx → EReal) (WL : FF.Idx → EReal) (B : R1F.Idx → EReal) (WR : FF.Idx → EReal)
    (hA : AllReal A) (hX : AllReal X) (hWL : AllReal WL) (hB : AllReal B) (hWR : AllReal WR) :
    AllReal (lin A X WL B WR) := by
  obtain ⟨a, rfl⟩ := hA.exists_fun
  obtain ⟨x, rfl⟩ := hX.exists_fun
  obtain ⟨wl, rfl⟩ := hWL.exists_fun
  obtain ⟨b, rfl⟩ := hB.exists_fun
  obtain ⟨wr, rfl⟩ := hWR.exists_fun
  intro i
  unfold lin
  simp only [← EReal.coe_mul]
  rw [coe_sum, coe_sum, ← EReal.coe_add, ← EReal.coe_add]
  exact ⟨_, rfl⟩

theorem allReal_row (b : V128.Idx → EReal) (h : AllReal b) : AllReal (row b) :=
  fun j => h (ix1 (j 1))

end Cert.Spec

end
-- ==== Proof.AggReal.lean ====
/-
  The neighbour average of an array of real numbers is an array of real numbers: the gather reads entries of the
  array, each node's sum is a finite sum of them, and the divisor max 1 (the node's edge count) is a real number ≥ 1.
-/
import proofs.«402130_j5162550689834_1_alg».proof.Proof.Spec
import proofs.«402130_j5162550689834_1_alg».proof.Proof.KAgg
import proofs.«402130_j5162550689834_1_alg».proof.Proof.Consts

noncomputable section

open scoped BigOperators

namespace Cert.KernelIdeal

open Idealize.ShloMosaic Cert.KernelIdeal.Gen

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

/-- A scatter-add of real updates into a real operand is real: each entry is the operand's entry plus a finite sum
    of updates. -/
theorem scatterAdd_real {s si u : Shape} (d : ScatterDims s si u) {w : Nat} (x : FVec Ideal s .f32) (idx : IVec si w)
    (upd : FVec Ideal u .f32) (hx : Spec.AllReal x) (hu : Spec.AllReal upd) :
    Spec.AllReal (Host.scatterAdd d x idx upd) := by
  intro i
  obtain ⟨a, ha⟩ := hx i
  obtain ⟨b, hb⟩ := sum_real (Finset.univ.filter (fun j => d.resultIdx? j idx = some i)) upd (fun j _ => hu j)
  refine ⟨a + b, ?_⟩
  show x i + ∑ j ∈ Finset.univ.filter (fun j => d.resultIdx? j idx = some i), upd j = _
  rw [ha, hb, EReal.coe_add]

/-- The host's quotient of two arrays, read at an index, is the quotient of the entries. -/
theorem hostDivf_at {s : Shape} (a b : FVec Ideal s .f32) (i : s.Idx) :
    Host.divf a b i = Ideal.div (a i) (b i) := rfl

/-- The maximum of two arrays, read at an index, is the maximum of the entries. -/
theorem maximumf_at {s : Shape} (a b : FVec Ideal s .f32) (i : s.Idx) :
    maximumf a b i = max (a i) (b i) := rfl

/-- An array that is a real number ≥ 1 everywhere stays so under a broadcast (each entry is one of its entries). -/
theorem geOne_bcast {s t : Shape} (dims : Fin s.rank → Fin t.rank) (h : s.BroadcastsInDim t dims) (x : s.Idx → EReal)
    (hx : ∀ k, ∃ d : ℝ, 1 ≤ d ∧ x k = (d : EReal)) :
    ∀ j, ∃ d : ℝ, 1 ≤ d ∧ broadcastInDim t dims h x j = (d : EReal) := fun _ => hx _

/-- The zero array is real. -/
theorem allReal_zeros (s : Shape) (h : S_.BroadcastsInDim s (![] : Fin 0 → Fin s.rank)) :
    Spec.AllReal (broadcastInDim s ![] h (constant (F := Ideal) S_ .f32 0x00000000#32)) :=
  fun _ => ⟨0, Spec.ofBits_zero⟩

/-- The array of ones is real. -/
theorem allReal_ones (s : Shape) (h : S_.BroadcastsInDim s (![] : Fin 0 → Fin s.rank)) :
    Spec.AllReal (broadcastInDim s ![] h (constant (F := Ideal) S_ .f32 0x3F800000#32)) :=
  fun _ => ⟨1, Spec.one_eq⟩

/-- Each node's sum of gathered rows is real: a gathered entry is an entry of `X`. -/
theorem allReal_aggSum (X : FVec Ideal S50000x128 .f32) (EI : IVec S2x800000 32) (hX : Spec.AllReal X) :
    Spec.AllReal (aggSum X EI) :=
  scatterAdd_real _ _ _ _ (allReal_zeros _ bcast_S_S50000x128) (fun _ => hX _)

/-- Each node's divisor max 1 (0 + a sum of ones) is a real number ≥ 1. -/
theorem aggDeg_real (EI : IVec S2x800000 32) (k : S50000.Idx) : ∃ d : ℝ, 1 ≤ d ∧ aggDeg EI k = (d : EReal) := by
  obtain ⟨c, hc⟩ := scatterAdd_real scatter_S50000_S800000x1_S800000_n_0_0_1
    (broadcastInDim S50000 ![] bcast_S_S50000 (constant S_ .f32 0x00000000#32)) (aggDst EI)
    (broadcastInDim S800000 ![] bcast_S_S800000 (constant S_ .f32 0x3F800000#32))
    (allReal_zeros _ bcast_S_S50000) (allReal_ones _ bcast_S_S800000) k
  have h1 : broadcastInDim S50000 ![] bcast_S_S50000 (id (constant (F := Ideal) S_ .f32 0x3F800000#32)) k = (1 : EReal) :=
    Spec.one_eq
  unfold aggDeg
  rw [maximumf_at, hc, h1, ← EReal.coe_one]
  rcases le_total (1 : ℝ) c with h | h
  · exact ⟨c, h, max_eq_right (EReal.coe_le_coe_iff.2 h)⟩
  · exact ⟨1, le_refl _, max_eq_left (EReal.coe_le_coe_iff.2 h)⟩

theorem allReal_aggT (X : FVec Ideal S50000x128 .f32) (EI : IVec S2x800000 32) (hX : Spec.AllReal X) :
    Spec.AllReal (aggT X EI) := by
  intro i
  obtain ⟨a, ha⟩ := allReal_aggSum X EI hX i
  obtain ⟨d, hd1, hd⟩ := geOne_bcast _ bcast_S50000x1_S50000x128_0_1 _
    (geOne_bcast _ bcast_S50000_S50000x1_0 _ (aggDeg_real EI)) i
  have hd0 : d ≠ 0 := by
    intro h0
    rw [h0] at hd1
    exact absurd hd1 (by norm_num)
  refine ⟨a * (1 / d), ?_⟩
  unfold aggT
  rw [hostDivf_at, ha, hd, Ideal.div_coe hd0, ← EReal.coe_mul]

end Cert.KernelIdeal

end
-- ==== Proof.Bridge.lean ====
/-
  With every float argument an array of real numbers, the network in the kernel's spelling of the batch norm is the
  network in the reference's spelling: layer by layer the linear map of real arrays is real, so the two batch norms agree
  on it, and their common value is again real.
-/
import proofs.«402130_j5162550689834_1_alg».proof.Proof.Net
import proofs.«402130_j5162550689834_1_alg».proof.Proof.BatchNorm
import proofs.«402130_j5162550689834_1_alg».proof.Proof.AggReal

noncomputable section

namespace Cert.Net

open Idealize.ShloMosaic Cert.KernelIdeal Cert.Spec

theorem outK_eq_outR (x : FVec Ideal S50000x128 .f32) (ei : IVec S2x800000 32) (bt : IVec S50000 32)
    (wl1 : FVec Ideal S128x128 .f32) (b1 : FVec Ideal S128 .f32) (wr1 : FVec Ideal S128x128 .f32) (g1 be1 : FVec Ideal S128 .f32)
    (wl2 : FVec Ideal S128x128 .f32) (b2 : FVec Ideal S128 .f32) (wr2 : FVec Ideal S128x128 .f32) (g2 be2 : FVec Ideal S128 .f32)
    (hx : AllReal x) (hwl1 : AllReal wl1) (hb1 : AllReal b1) (hwr1 : AllReal wr1) (hg1 : AllReal g1) (hbe1 : AllReal be1)
    (hwl2 : AllReal wl2) (hb2 : AllReal b2) (hwr2 : AllReal wr2) (hg2 : AllReal g2) (hbe2 : AllReal be2) :
    outK x ei bt wl1 b1 wr1 g1 be1 wl2 b2 wr2 g2 be2 = outR x ei bt wl1 b1 wr1 g1 be1 wl2 b2 wr2 g2 be2 := by
  -- layer 1: the linear map of real arrays is real, so the two batch norms agree on it
  have hz1 : AllReal (z ei x wl1 b1 wr1) :=
    allReal_lin _ _ _ _ _ (allReal_aggT x ei hx) hx hwl1 (allReal_row b1 hb1) hwr1
  have e1 : h1K x ei wl1 b1 wr1 g1 be1 = h1R x ei wl1 b1 wr1 g1 be1 :=
    bnReluK_eq_bnReluR _ g1 be1 hz1 hg1 hbe1
  -- the common value of layer 1 is real
  have hh1 : AllReal (h1R x ei wl1 b1 wr1 g1 be1) := allReal_bnReluR _ g1 be1 hz1 hg1 hbe1
  -- layer 2 over that value, the same way
  have hz2 : AllReal (z ei (h1R x ei wl1 b1 wr1 g1 be1) wl2 b2 wr2) :=
    allReal_lin _ _ _ _ _ (allReal_aggT _ ei hh1) hh1 hwl2 (allReal_row b2 hb2) hwr2
  have e2 : h2K x ei wl1 b1 wr1 g1 be1 wl2 b2 wr2 g2 be2 = h2R x ei wl1 b1 wr1 g1 be1 wl2 b2 wr2 g2 be2 := by
    unfold h2K h2R
    rw [e1]
    exact bnReluK_eq_bnReluR _ g2 be2 hz2 hg2 hbe2
  -- the pool is the same function of the two equal arrays
  unfold outK outR
  rw [e2]

end Cert.Net

end
-- ==== Proof.PreReal.lean ====
/-
  The precondition — every float argument's absolute value is below +∞, all of it one word equal to 1 — says that every
  entry of every float argument is a real number.
-/
import proofs.«402130_j5162550689834_1_alg».proof.Proof.Gen.Pre_finite_inputs
import proofs.«402130_j5162550689834_1_alg».proof.Proof.Spec
import Idealize.ShloMosaic.PureOps.Ideal
import Idealize.ShloMosaic.Lib.ReduceAll
import Idealize.ShloMosaic.Lib.ValueIdx

noncomputable section

namespace Cert.Pre_finite_inputs

open Idealize.ShloMosaic Cert.Pre_finite_inputs.Gen

/-- The rank-0 shape has one index. -/
instance subsingleton_S_ : Subsingleton S_.Idx := ⟨fun _ _ => funext fun d => d.elim0⟩

/-- The word 0x7F800000 is +∞. -/
theorem ofBits_inf : Ideal.ofBits .f32 0x7F800000#32 = (⊤ : EReal) := by
  simp [Ideal.ofBits, Ideal.ieee]

/-- An extended real whose absolute value max x (−x) is below +∞ is a real number: at ⊤ and at ⊥ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One argument's test: if the conjunction over all entries of |a| < +∞ is the word 1, every entry of a is a real number. -/
theorem allReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
        (cmpf .olt (Host.absf a) (broadcastInDim s ![] hb (constant S_ .f32 0x7F800000#32))) init hr hu j = 1#1) :
    Spec.AllReal a := by
  intro i
  have hi := Host.reduce_andi_all _ init hr hu j h i
  have hc : Ideal.cmp .olt (max (a i) (-(a i))) (Ideal.ofBits .f32 0x7F800000#32) = 1#1 := hi
  rw [ofBits_inf] at hc
  have hd : BitVec.ofBool (decide (max (a i) (-(a i)) < ⊤)) = 1#1 := hc
  refine real_of_abs_lt_top (a i) ?_
  by_contra hn
  rw [decide_eq_false hn] at hd
  exact absurd hd (by decide)

theorem allReal_of_fn (a0 : FVec Ideal S50000x128 .f32) (a1 : IVec S2x800000 32) (a2 : IVec S50000 32)
    (a3 : FVec Ideal S128x128 .f32) (a4 : FVec Ideal S128 .f32) (a5 : FVec Ideal S128x128 .f32) (a6 a7 : FVec Ideal S128 .f32)
    (a8 : FVec Ideal S128x128 .f32) (a9 : FVec Ideal S128 .f32) (a10 : FVec Ideal S128x128 .f32) (a11 a12 : FVec Ideal S128 .f32)
    (h : fn (F := Ideal) a0 a1 a2 a3 a4 a5 a6 a7 a8 a9 a10 a11 a12 = fun _ => 1#1) :
    Spec.AllReal a0 ∧ Spec.AllReal a3 ∧ Spec.AllReal a4 ∧ Spec.AllReal a5 ∧ Spec.AllReal a6 ∧ Spec.AllReal a7
      ∧ Spec.AllReal a8 ∧ Spec.AllReal a9 ∧ Spec.AllReal a10 ∧ Spec.AllReal a11 ∧ Spec.AllReal a12 := by
  have h0 := congrFun h ValueIdx.ix0
  dsimp only [fn, fn_part1, fn_part2, fn_part3] at h0
  -- the result is the conjunction of the eleven arguments' tests, joined from the left
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨allReal_of_all a0 _ _ _ _ _ h0, allReal_of_all a3 _ _ _ _ _ h3, allReal_of_all a4 _ _ _ _ _ h4,
    allReal_of_all a5 _ _ _ _ _ h5, allReal_of_all a6 _ _ _ _ _ h6, allReal_of_all a7 _ _ _ _ _ h7,
    allReal_of_all a8 _ _ _ _ _ h8, allReal_of_all a9 _ _ _ _ _ h9, allReal_of_all a10 _ _ _ _ _ h10,
    allReal_of_all a11 _ _ _ _ _ h11, allReal_of_all a12 _ _ _ _ _ h12⟩

end Cert.Pre_finite_inputs

end
-- ==== Proof.lean ====
/-
  The certificate of a two-layer graph network (neighbour average, linear map, batch norm, relu, twice) with a mean
  pool over 64 graphs, computed by five pipelined kernels among host operations, against its plain reference.

  Frames: the two kernels' are the generated ones; the reference's is its generated run with the result dropped.
  The ideal pass rewrote one window (a bf16 round trip of the one-hot matrix, the identity over the extended reals).
  Equivalence over the extended reals: the kernel's run leaves the network in the kernel's spelling of the batch norm
  (variance as mean square minus squared mean, the affine map folded into a scale and a shift), the reference's run
  leaves it in the textbook spelling; the precondition makes every float argument an array of real numbers, and on
  real numbers the two spellings agree layer by layer. The pool's one-hot product and the reference's scatter-add are
  the same sum over the nodes of a graph.
-/
import proofs.«402130_j5162550689834_1_alg».proof.Defs
import proofs.«402130_j5162550689834_1_alg».proof.Proof.Gen.Kernel
import proofs.«402130_j5162550689834_1_alg».proof.Proof.Gen.Kernel.Skeleton
import proofs.«402130_j5162550689834_1_alg».proof.Proof.Gen.Kernel.Launch
import proofs.«402130_j5162550689834_1_alg».proof.Proof.Gen.Kernel.Points
import proofs.«402130_j5162550689834_1_alg».proof.Proof.Gen.Kernel.Frame
import proofs.«402130_j5162550689834_1_alg».proof.Proof.Gen.KernelIdeal
import proofs.«402130_j5162550689834_1_alg».proof.Proof.Gen.KernelIdeal.Skeleton
import proofs.«402130_j5162550689834_1_alg».proof.Proof.Gen.KernelIdeal.Launch
import proofs.«402130_j5162550689834_1_alg».proof.Proof.Gen.KernelIdeal.Points
import proofs.«402130_j5162550689834_1_alg».proof.Proof.Gen.KernelIdeal.Frame
import proofs.«402130_j5162550689834_1_alg».proof.Proof.Gen.ReferenceIdeal
import proofs.«402130_j5162550689834_1_alg».proof.Proof.Gen.Pre_finite_inputs
import proofs.«402130_j5162550689834_1_alg».proof.Proof.RefImports
import proofs.«402130_j5162550689834_1_alg».proof.Proof.RunV
import proofs.«402130_j5162550689834_1_alg».proof.Proof.KValue
import proofs.«402130_j5162550689834_1_alg».proof.Proof.RValue
import proofs.«402130_j5162550689834_1_alg».proof.Proof.Bridge
import proofs.«402130_j5162550689834_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- the one rewritten window: narrowing the one-hot matrix to bf16 and widening it back -/
theorem preserves : Cert.preserves_Kernel_KernelIdeal :=
  IdealRules.truncf_extf.statement Cert.KernelIdeal.S2000x64 .f32 .bf16

/-- the kernel's result, from the launch memory -/
abbrev resK (m : (ℓ : Loc Cert.KernelIdeal.nD Cert.KernelIdeal.τ Cert.KernelIdeal.sig) → Buf (Elt Ideal) ℓ)
    (c : Dev Cert.KernelIdeal.nD) : FVec Ideal Cert.KernelIdeal.S64x128 .f32 :=
  Cert.Net.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

theorem algebraic : Cert.algebraic_KernelIdeal_ReferenceIdeal := by
  intro m ρ m' ρ' hpre hagree
  refine ⟨fun c => resK m c, ?_, ?_⟩
  · exact (θ_run Cert.KernelIdeal.defs _ _).mono
      (fun _ h c => ⟨(h c).1.trans (Cert.KernelIdeal.KV.kvalue m ρ c), (h c).2⟩) (Cert.KernelIdeal.RunV.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    obtain ⟨r0, r3, r4, r5, r6, r7, r8, r9, r10, r11, r12⟩ := Cert.Pre_finite_inputs.allReal_of_fn _ _ _ _ _ _ _ _ _ _ _ _ _ (hpre c)
    rw [Cert.ReferenceIdeal.Read.val_main_v114_eq, e0, e1, e2, e3, e4, e5, e6, e7, e8, e9, e10, e11, e12,
      Cert.ReferenceIdeal.RValue.ref_value]
    exact (Cert.Net.outK_eq_outR _ _ _ _ _ _ _ _ _ _ _ _ _ r0 r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
